-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S4096 : Shape := ⟨1, ![4096]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel

variable [Facts]

def fn {F : FTy → Type} [FloatOps F] (main_arg0 : FVec F S4096x2x128 .f32) (main_arg1 : IVec S4096 32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  main_v3
-- ==== Kernel.lean ====
abbrev S4096x2x128 : Shape := ⟨3, ![4096, 2, 128]⟩
abbrev S4096 : Shape := ⟨1, ![4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S2x4096 : Shape := ⟨2, ![2, 4096]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 25
  | .vmem => 14
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .bf16⟩
  | .hbm, ⟨15, _⟩ => ⟨S1x4096, .i32⟩
  | .hbm, ⟨16, _⟩ => ⟨S2x4096, .i32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S8192x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_33 : BitVec 32 := 0#32
  let v71 : BitVec 1 := Scalar.cmpi .ne v70 c0_i32_33
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x2x128_S8192x128 : S4096x2x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  natLt_1_32 : 1 < 32
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v8) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2x128 : Shape := ⟨3, ![4096, 2, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S1x4096x1x4096 : Shape := ⟨4, ![1, 4096, 1, 4096]⟩
abbrev S2x4096x2x4096 : Shape := ⟨4, ![2, 4096, 2, 4096]⟩
abbrev S2x4096 : Shape := ⟨2, ![2, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S4096x4096, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x128, .f32⟩
  | .hbm, ⟨19, _⟩ => ⟨S8192x128, .f32⟩
  | .hbm, ⟨20, _⟩ => ⟨S128x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S1x4096x1x4096, .f32⟩
  | .hbm, ⟨31, _⟩ => ⟨S2x4096x2x4096, .f32⟩
  | .hbm, ⟨32, _⟩ => ⟨S8192x8192, .f32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S2x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  shapeCasts_S4096_S4096x1 : S4096.ShapeCasts S4096x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x2x128_S8192x128 : S4096x2x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192 : S_.BroadcastsInDim S8192 (![] : Fin 0 → Fin S8192.rank)
  shapeCasts_S8192_S2x4096 : S8192.ShapeCasts S2x4096
  reducesTo_S2x4096_S_d0_1 : S2x4096.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Data.lean ====
/-
  The sweep of one row block: what the kernel keeps between grid points, as terms over the body's values.

  The grid is 8 row blocks by 8 column blocks; point t is row block t / 8 and column block t % 8. For a row
  block the body keeps four columns of 1024 entries in scratch memory: the running maximum of the scaled
  similarities seen so far, the sum of exponentials rescaled to that maximum (the diagonal left out), the sum of
  the similarities of positive pairs, and the number of positive pairs. At column block 0 the four are reset
  (minus infinity, zero, zero, zero) before the update; at column block 7, after the update, the row block's loss
  column is computed from them and stored into the output window. 'stepSt' is the update of one point,
  'resetSt' the reset, 'outOf' the loss column; all three are the body's own value terms, so the same text reads
  at every float instance.
-/
import proofs.«179571_j37538014167620_1_alg».proof.Proof.Gen.Kernel.Launch
import proofs.«179571_j37538014167620_1_alg».proof.Proof.Gen.Kernel.Skeleton
import proofs.«179571_j37538014167620_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core c's buffer contents when the region is entered: the eighteen host operations before it have run. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body -/

/-- "This is the first column block": the reset's condition, from the grid coordinates. -/
abbrev cond0 (i : grid0.Coords) : Prop :=
  (Scalar.cmpi .ne (Scalar.extui (Scalar.cmpi .eq (BitVec.ofNat 32 (i 1).val) 0#32)) 0#32) = 1#1
/-- It holds at the points whose number is divisible by 8. -/
theorem hcond0 : ∀ t : Fin cfg0.N, cond0 (grid0.coords t) ↔ t.val % 8 = 0 :=
  (by decide +kernel : ∀ t : Fin grid0.N, cond0 (grid0.coords t) ↔ t.val % 8 = 0)

/-- "This is the last column block": the condition under which the loss column is stored. -/
abbrev cond1 (i : grid0.Coords) : Prop := k0_cond2 i = 1#1
/-- It holds at the points whose number is 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## Where the output window is idle -/

theorem liveAt_in : ∀ (w : Fin cfg0.W), w.val < 4 → ∀ t : Fin cfg0.N, cfg0.idle w (grid0.coords t) = false := by decide +kernel
theorem idleAt_out : ∀ t : Fin cfg0.N, ¬cond1 (grid0.coords t) → cfg0.idle 4 (grid0.coords t) = true := by decide +kernel
theorem noFlush_out : ∀ t : Fin cfg0.N, ¬cond1 (grid0.coords t) → (cfg0.win 4).flush t = false := by decide +kernel
theorem liveAt_out : ∀ t : Fin cfg0.N, cond1 (grid0.coords t) → cfg0.idle 4 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The four scratch columns: whole scoped buffers of the kernel's own. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3

/-! ## What the body keeps, as terms over its values -/

/-- A column of 1024 floats. -/
abbrev Col (F : FTy → Type) : Type := Vec F S1024x1 .f32
/-- The four scratch columns: running maximum, rescaled exponential sum, positive-pair sum, positive-pair count. -/
abbrev St (F : FTy → Type) : Type := Col F × Col F × Col F × Col F

/-- The reset at the first column block: minus infinity, zero, zero, zero. -/
def resetSt : St F := (k0_pay1, k0_pay2, k0_pay3, k0_pay4)

/-- One point's update of the four columns from the point's four input blocks (row features x0, column features x1,
    row labels x2, column labels x3). -/
def stepSt (i : grid0.Coords) (x0 x1 : Vec F S1024x128 .bf16) (x2 : Vec F S1024x1 .i32) (x3 : Vec F S1x1024 .i32) (s : St F) : St F :=
  (k0_pay11 (k0_pay8 x0 x1 s.1),
   k0_pay12 (k0_pay6 i) (k0_pay9 x0 x1 s.1) (k0_pay10 x0 x1 s.1) (Scalar.ofBits .f32 0x00000000#32) s.2.1,
   k0_pay13 (k0_pay5 x0 x1) (k0_pay7 i x2 x3) s.2.2.1,
   k0_pay14 (k0_pay7 i x2 x3) s.2.2.2)

/-- The loss column of a row block, from the four columns after its last update. -/
def outOf (s : St F) : Col F := k0_pay15 s.2.1 s.2.2.2 s.2.2.1 s.1 s.2.2.2

end Cert.Kernel.Hand

end
-- ==== Proof.K.Body.lean ====
/-
  The kernel body run at one grid point, in each of the three cases a point can be in.

  Case A is a first column block (the four scratch columns are reset, then updated), case B a middle one (updated
  only), case C a last one (updated, then the loss column stored into the output window). In every case the four input
  blocks are only read, and the scratch ends at 'stepSt' of what the point started from.

  Per case: the body's triple with each stored buffer left at the list of pieces its stores wrote (the lists are found
  by running the body); the pieces cover the buffer, so what it reads afterwards is the last covering store's payload,
  whatever it held before; that payload, with each load read back (an input block as given, a scratch column stored
  earlier in the same run at the stored value), is the component of 'stepSt' (of 'outOf' for the output window).
-/
import proofs.«179571_j37538014167620_1_alg».proof.Proof.K.Data
import Idealize.ShloMosaic.Lib.Ring
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, as the constant function. -/
theorem hz : (![0, 0] : Fin 2 → Nat) = fun _ => 0 := funext fun a => by fin_cases a <;> rfl

/-! ## Case A: a first column block -/

set_option maxHeartbeats 1000000 in
/-- The pieces a first block's stores leave in each scratch column (the reset's, then the update's), with the body's
    triple over them: the scratch columns may hold anything when the body starts. -/
noncomputable def kernelRun_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) :
    Σ' (L0 : List (View.Piece (Elt F) S1024x1 .f32)) (L1 : List (View.Piece (Elt F) S1024x1 .f32)) (L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__supcon_kernel_eq_skeleton]; unfold cc0__supcon_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d0, %g0, -, G0⟩, ⟨%d1, %g1, -, G1⟩, ⟨%d2, %g2, -, G2⟩, ⟨%d3, %g3, -, G3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [G0]; · iexists g0; iexact G0
    isplitl [G1]; · iexists g1; iexact G1
    isplitl [G2]; · iexists g2; iexact G2
    iexists g3; iexact G3

/-- A first block's pieces for scratch column 0 (the running maximum) cover it. -/
theorem coverA_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).1 S1024x1.size (by sl_kernel_rfl) y

/-- A first block's pieces for scratch column 1 (the exponential sum) cover it. -/
theorem coverA_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).2.1 S1024x1.size (by sl_kernel_rfl) y

/-- A first block's pieces for scratch column 2 (the positive-pair sum) cover it. -/
theorem coverA_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).2.2.1 S1024x1.size (by sl_kernel_rfl) y

/-- A first block's pieces for scratch column 3 (the positive-pair count) cover it. -/
theorem coverA_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y

/-- What a first block leaves in scratch column 0: the running maximum of the update of the reset. -/
theorem valA_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg7.view.ty.Contents (Elt F)) :
    arg7.view.read (Elt F) (arg7.view.writes (Elt F) f (kernelRun_A c i arg2 harg2 arg3 harg3 arg4 harg4 arg5 harg5 arg6 harg6 arg7 harg7 arg8 harg8 arg9 harg9 arg10 harg10 hc0 hc1 x0 x1 x2 x3).1) = (stepSt i x0 x1 x2 x3 (resetSt (F := F))).1 := by
  rw [View.read_writes_eq_canon _ _ _ (coverA_0 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a first block leaves in scratch column 1: the exponential sum of the update of the reset. -/
theorem valA_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg8.view.ty.Contents (Elt F)) :
    arg8.view.read (Elt F) (arg8.view.writes (Elt F) f (kernelRun_A c i arg2 harg2 arg3 harg3 arg4 harg4 arg5 harg5 arg6 harg6 arg7 harg7 arg8 harg8 arg9 harg9 arg10 harg10 hc0 hc1 x0 x1 x2 x3).2.1) = (stepSt i x0 x1 x2 x3 (resetSt (F := F))).2.1 := by
  rw [View.read_writes_eq_canon _ _ _ (coverA_1 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a first block leaves in scratch column 2: the positive-pair sum of the update of the reset. -/
theorem valA_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg9.view.ty.Contents (Elt F)) :
    arg9.view.read (Elt F) (arg9.view.writes (Elt F) f (kernelRun_A c i arg2 harg2 arg3 harg3 arg4 harg4 arg5 harg5 arg6 harg6 arg7 harg7 arg8 harg8 arg9 harg9 arg10 harg10 hc0 hc1 x0 x1 x2 x3).2.2.1) = (stepSt i x0 x1 x2 x3 (resetSt (F := F))).2.2.1 := by
  rw [View.read_writes_eq_canon _ _ _ (coverA_2 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a first block leaves in scratch column 3: the positive-pair count of the update of the reset. -/
theorem valA_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg10.view.ty.Contents (Elt F)) :
    arg10.view.read (Elt F) (arg10.view.writes (Elt F) f (kernelRun_A c i arg2 harg2 arg3 harg3 arg4 harg4 arg5 harg5 arg6 harg6 arg7 harg7 arg8 harg8 arg9 harg9 arg10 harg10 hc0 hc1 x0 x1 x2 x3).2.2.2.1) = (stepSt i x0 x1 x2 x3 (resetSt (F := F))).2.2.2 := by
  rw [View.read_writes_eq_canon _ _ _ (coverA_3 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- A first column block: whatever the scratch columns held, they end at the update of the reset; the output window's
    buffer is handed back as found. -/
theorem body_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (xo : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (stepSt i x0 x1 x2 x3 (resetSt (F := F))).1 ∗ owns (c : Thread nD τ) arg8 fullShare (stepSt i x0 x1 x2 x3 (resetSt (F := F))).2.1 ∗ owns (c : Thread nD τ) arg9 fullShare (stepSt i x0 x1 x2 x3 (resetSt (F := F))).2.2.1 ∗ owns (c : Thread nD τ) arg10 fullShare (stepSt i x0 x1 x2 x3 (resetSt (F := F))).2.2.2) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9 arg10 harg10) K := by
  iintro ⟨H0, H1, H2, H3, H4, G0, G1, G2, G3, Hk⟩
  iapply ((kernelRun_A c i arg2 harg2 arg3 harg3 arg4 harg4 arg5 harg5 arg6 harg6 arg7 harg7 arg8 harg8 arg9 harg9 arg10 harg10 hc0 hc1 x0 x1 x2 x3).2.2.2.2 xo E K)
  isplitl [H0]; · iexact H0
  isplitl [H1]; · iexact H1
  isplitl [H2]; · iexact H2
  isplitl [H3]; · iexact H3
  isplitl [H4]; · iexact H4
  isplitl [G0]; · iexact G0
  isplitl [G1]; · iexact G1
  isplitl [G2]; · iexact G2
  isplitl [G3]; · iexact G3
  iintro ⟨H0, H1, H2, H3, H4, ⟨%e0, G0⟩, ⟨%e1, G1⟩, ⟨%e2, G2⟩, ⟨%e3, G3⟩⟩
  iapply Hk
  isplitl [H0]; · iexact H0
  isplitl [H1]; · iexact H1
  isplitl [H2]; · iexact H2
  isplitl [H3]; · iexact H3
  isplitl [H4]; · iexact H4
  isplitl [G0]
  · unfold owns; iexists _; isplitr
    swap; · iexact G0
    ipureintro; exact valA_0 c i arg2 harg2 arg3 harg3 arg4 harg4 arg5 harg5 arg6 harg6 arg7 harg7 arg8 harg8 arg9 harg9 arg10 harg10 hc0 hc1 x0 x1 x2 x3 _
  isplitl [G1]
  · unfold owns; iexists _; isplitr
    swap; · iexact G1
    ipureintro; exact valA_1 c i arg2 harg2 arg3 harg3 arg4 harg4 arg5 harg5 arg6 harg6 arg7 harg7 arg8 harg8 arg9 harg9 arg10 harg10 hc0 hc1 x0 x1 x2 x3 _
  isplitl [G2]
  · unfold owns; iexists _; isplitr
    swap; · iexact G2
    ipureintro; exact valA_2 c i arg2 harg2 arg3 harg3 arg4 harg4 arg5 harg5 arg6 harg6 arg7 harg7 arg8 harg8 arg9 harg9 arg10 harg10 hc0 hc1 x0 x1 x2 x3 _
  · unfold owns; iexists _; isplitr
    swap; · iexact G3
    ipureintro; exact valA_3 c i arg2 harg2 arg3 harg3 arg4 harg4 arg5 harg5 arg6 harg6 arg7 harg7 arg8 harg8 arg9 harg9 arg10 harg10 hc0 hc1 x0 x1 x2 x3 _

/-! ## Case B: a middle column block -/

set_option maxHeartbeats 1000000 in
/-- The pieces a middle block's stores leave in each scratch column, with the body's triple over them: the four input
    blocks and the output window's buffer are handed back as found, each scratch column with its pieces written. -/
noncomputable def kernelRun_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s0 s1 s2 s3 : Vec F S1024x1 .f32) :
    Σ' (L0 : List (View.Piece (Elt F) S1024x1 .f32)) (L1 : List (View.Piece (Elt F) S1024x1 .f32)) (L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__supcon_kernel_eq_skeleton]; unfold cc0__supcon_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hg0; obtain rfl := harg8.eq_unread hg1; obtain rfl := harg9.eq_unread hg2; obtain rfl := harg10.eq_unread hg3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [G0]; · iexists (harg7.unread s0); iexact G0
    isplitl [G1]; · iexists (harg8.unread s1); iexact G1
    isplitl [G2]; · iexists (harg9.unread s2); iexact G2
    iexists (harg10.unread s3); iexact G3

/-- A middle block's pieces for scratch column 0 (the running maximum) cover it. -/
theorem coverB_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).1 S1024x1.size (by sl_kernel_rfl) y

/-- A middle block's pieces for scratch column 1 (the exponential sum) cover it. -/
theorem coverB_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.1 S1024x1.size (by sl_kernel_rfl) y

/-- A middle block's pieces for scratch column 2 (the positive-pair sum) cover it. -/
theorem coverB_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1 S1024x1.size (by sl_kernel_rfl) y

/-- A middle block's pieces for scratch column 3 (the positive-pair count) cover it. -/
theorem coverB_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1 S1024x1.size (by sl_kernel_rfl) y

/-- What a middle block leaves in scratch column 0: the running maximum of the update. -/
theorem valB_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg7.view.ty.Contents (Elt F)) :
    arg7.view.read (Elt F) (arg7.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).1) = (stepSt i x0 x1 x2 x3 s).1 := by
  rw [View.read_writes_eq_canon _ _ _ (coverB_0 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a middle block leaves in scratch column 1: the exponential sum of the update. -/
theorem valB_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg8.view.ty.Contents (Elt F)) :
    arg8.view.read (Elt F) (arg8.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.1) = (stepSt i x0 x1 x2 x3 s).2.1 := by
  rw [View.read_writes_eq_canon _ _ _ (coverB_1 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a middle block leaves in scratch column 2: the positive-pair sum of the update. -/
theorem valB_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg9.view.ty.Contents (Elt F)) :
    arg9.view.read (Elt F) (arg9.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1) = (stepSt i x0 x1 x2 x3 s).2.2.1 := by
  rw [View.read_writes_eq_canon _ _ _ (coverB_2 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a middle block leaves in scratch column 3: the positive-pair count of the update. -/
theorem valB_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg10.view.ty.Contents (Elt F)) :
    arg10.view.read (Elt F) (arg10.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1) = (stepSt i x0 x1 x2 x3 s).2.2.2 := by
  rw [View.read_writes_eq_canon _ _ _ (coverB_3 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- A middle column block: the scratch columns, at s, end at the update of s; the output window's buffer is handed back
    as found. -/
theorem body_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (xo : Vec F S1024x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (s).1 ∗ owns (c : Thread nD τ) arg8 fullShare (s).2.1 ∗ owns (c : Thread nD τ) arg9 fullShare (s).2.2.1 ∗ owns (c : Thread nD τ) arg10 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (stepSt i x0 x1 x2 x3 s).1 ∗ owns (c : Thread nD τ) arg8 fullShare (stepSt i x0 x1 x2 x3 s).2.1 ∗ owns (c : Thread nD τ) arg9 fullShare (stepSt i x0 x1 x2 x3 s).2.2.1 ∗ owns (c : Thread nD τ) arg10 fullShare (stepSt i x0 x1 x2 x3 s).2.2.2) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9 arg10 harg10) K := by
  iintro ⟨H0, H1, H2, H3, H4, G0, G1, G2, G3, Hk⟩
  iapply ((kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2 xo E K)
  isplitl [H0]; · iexact H0
  isplitl [H1]; · iexact H1
  isplitl [H2]; · iexact H2
  isplitl [H3]; · iexact H3
  isplitl [H4]; · iexact H4
  isplitl [G0]; · iexact G0
  isplitl [G1]; · iexact G1
  isplitl [G2]; · iexact G2
  isplitl [G3]; · iexact G3
  iintro ⟨H0, H1, H2, H3, H4, ⟨%e0, G0⟩, ⟨%e1, G1⟩, ⟨%e2, G2⟩, ⟨%e3, G3⟩⟩
  iapply Hk
  isplitl [H0]; · iexact H0
  isplitl [H1]; · iexact H1
  isplitl [H2]; · iexact H2
  isplitl [H3]; · iexact H3
  isplitl [H4]; · iexact H4
  isplitl [G0]
  · unfold owns; iexists _; isplitr
    swap; · iexact G0
    ipureintro; exact valB_0 c i arg2 harg2 arg3 harg3 arg4 harg4 arg5 harg5 arg6 harg6 arg7 harg7 arg8 harg8 arg9 harg9 arg10 harg10 hc0 hc1 x0 x1 x2 x3 s _
  isplitl [G1]
  · unfold owns; iexists _; isplitr
    swap; · iexact G1
    ipureintro; exact valB_1 c i arg2 harg2 arg3 harg3 arg4 harg4 arg5 harg5 arg6 harg6 arg7 harg7 arg8 harg8 arg9 harg9 arg10 harg10 hc0 hc1 x0 x1 x2 x3 s _
  isplitl [G2]
  · unfold owns; iexists _; isplitr
    swap; · iexact G2
    ipureintro; exact valB_2 c i arg2 harg2 arg3 harg3 arg4 harg4 arg5 harg5 arg6 harg6 arg7 harg7 arg8 harg8 arg9 harg9 arg10 harg10 hc0 hc1 x0 x1 x2 x3 s _
  · unfold owns; iexists _; isplitr
    swap; · iexact G3
    ipureintro; exact valB_3 c i arg2 harg2 arg3 harg3 arg4 harg4 arg5 harg5 arg6 harg6 arg7 harg7 arg8 harg8 arg9 harg9 arg10 harg10 hc0 hc1 x0 x1 x2 x3 s _

/-! ## Case C: a last column block -/

set_option maxHeartbeats 1000000 in
/-- The pieces a last block's stores leave in the output window's buffer and in each scratch column, with the body's
    triple over them: the output window's buffer may hold anything when the body starts. -/
noncomputable def kernelRun_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s0 s1 s2 s3 : Vec F S1024x1 .f32) :
    Σ' (LO : List (View.Piece (Elt F) S1024x1 .f32)) (L0 : List (View.Piece (Elt F) S1024x1 .f32)) (L1 : List (View.Piece (Elt F) S1024x1 .f32)) (L2 : List (View.Piece (Elt F) S1024x1 .f32)), { L3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__supcon_kernel_eq_skeleton]; unfold cc0__supcon_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, ⟨%g2, %hg2, G2⟩, ⟨%g3, %hg3, G3⟩, Hk⟩
    obtain rfl := harg2.eq_unread hf0; obtain rfl := harg3.eq_unread hf1; obtain rfl := harg4.eq_unread hf2; obtain rfl := harg5.eq_unread hf3
    obtain rfl := harg7.eq_unread hg0; obtain rfl := harg8.eq_unread hg1; obtain rfl := harg9.eq_unread hg2; obtain rfl := harg10.eq_unread hg3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists f4; iexact H4
    isplitl [G0]; · iexists (harg7.unread s0); iexact G0
    isplitl [G1]; · iexists (harg8.unread s1); iexact G1
    isplitl [G2]; · iexists (harg9.unread s2); iexact G2
    iexists (harg10.unread s3); iexact G3

/-- A last block's pieces for the output window's buffer cover it. -/
theorem coverC_O (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).1 S1024x1.size (by sl_kernel_rfl) y

/-- A last block's pieces for scratch column 0 (the running maximum) cover it. -/
theorem coverC_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.1 S1024x1.size (by sl_kernel_rfl) y

/-- A last block's pieces for scratch column 1 (the exponential sum) cover it. -/
theorem coverC_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1 S1024x1.size (by sl_kernel_rfl) y

/-- A last block's pieces for scratch column 2 (the positive-pair sum) cover it. -/
theorem coverC_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1 S1024x1.size (by sl_kernel_rfl) y

/-- A last block's pieces for scratch column 3 (the positive-pair count) cover it. -/
theorem coverC_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.1 S1024x1.size (by sl_kernel_rfl) y

/-- What a last block leaves in the output window's buffer: the loss column of the updated scratch columns. -/
theorem valC_O (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg6.view.ty.Contents (Elt F)) :
    arg6.view.read (Elt F) (arg6.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).1) = outOf (stepSt i x0 x1 x2 x3 s) := by
  rw [View.read_writes_eq_canon _ _ _ (coverC_O c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a last block leaves in scratch column 0: the running maximum of the update. -/
theorem valC_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg7.view.ty.Contents (Elt F)) :
    arg7.view.read (Elt F) (arg7.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.1) = (stepSt i x0 x1 x2 x3 s).1 := by
  rw [View.read_writes_eq_canon _ _ _ (coverC_0 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a last block leaves in scratch column 1: the exponential sum of the update. -/
theorem valC_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg8.view.ty.Contents (Elt F)) :
    arg8.view.read (Elt F) (arg8.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1) = (stepSt i x0 x1 x2 x3 s).2.1 := by
  rw [View.read_writes_eq_canon _ _ _ (coverC_1 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a last block leaves in scratch column 2: the positive-pair sum of the update. -/
theorem valC_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg9.view.ty.Contents (Elt F)) :
    arg9.view.read (Elt F) (arg9.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1) = (stepSt i x0 x1 x2 x3 s).2.2.1 := by
  rw [View.read_writes_eq_canon _ _ _ (coverC_2 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a last block leaves in scratch column 3: the positive-pair count of the update. -/
theorem valC_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg10.view.ty.Contents (Elt F)) :
    arg10.view.read (Elt F) (arg10.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.1) = (stepSt i x0 x1 x2 x3 s).2.2.2 := by
  rw [View.read_writes_eq_canon _ _ _ (coverC_3 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- A last column block: the scratch columns, at s, end at the update of s, and the output window's buffer, whatever it
    held, at the loss column of the updated columns. -/
theorem body_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (s).1 ∗ owns (c : Thread nD τ) arg8 fullShare (s).2.1 ∗ owns (c : Thread nD τ) arg9 fullShare (s).2.2.1 ∗ owns (c : Thread nD τ) arg10 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf (stepSt i x0 x1 x2 x3 s)) ∗ owns (c : Thread nD τ) arg7 fullShare (stepSt i x0 x1 x2 x3 s).1 ∗ owns (c : Thread nD τ) arg8 fullShare (stepSt i x0 x1 x2 x3 s).2.1 ∗ owns (c : Thread nD τ) arg9 fullShare (stepSt i x0 x1 x2 x3 s).2.2.1 ∗ owns (c : Thread nD τ) arg10 fullShare (stepSt i x0 x1 x2 x3 s).2.2.2) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9 arg10 harg10) K := by
  iintro ⟨H0, H1, H2, H3, H4, G0, G1, G2, G3, Hk⟩
  iapply ((kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.2 E K)
  isplitl [H0]; · iexact H0
  isplitl [H1]; · iexact H1
  isplitl [H2]; · iexact H2
  isplitl [H3]; · iexact H3
  isplitl [H4]; · iexact H4
  isplitl [G0]; · iexact G0
  isplitl [G1]; · iexact G1
  isplitl [G2]; · iexact G2
  isplitl [G3]; · iexact G3
  iintro ⟨H0, H1, H2, H3, ⟨%e4, H4⟩, ⟨%e0, G0⟩, ⟨%e1, G1⟩, ⟨%e2, G2⟩, ⟨%e3, G3⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact valC_O c i arg2 harg2 arg3 harg3 arg4 harg4 arg5 harg5 arg6 harg6 arg7 harg7 arg8 harg8 arg9 harg9 arg10 harg10 hc0 hc1 x0 x1 x2 x3 s _
  isplitl [G0]
  · unfold owns; iexists _; isplitr
    swap; · iexact G0
    ipureintro; exact valC_0 c i arg2 harg2 arg3 harg3 arg4 harg4 arg5 harg5 arg6 harg6 arg7 harg7 arg8 harg8 arg9 harg9 arg10 harg10 hc0 hc1 x0 x1 x2 x3 s _
  isplitl [G1]
  · unfold owns; iexists _; isplitr
    swap; · iexact G1
    ipureintro; exact valC_1 c i arg2 harg2 arg3 harg3 arg4 harg4 arg5 harg5 arg6 harg6 arg7 harg7 arg8 harg8 arg9 harg9 arg10 harg10 hc0 hc1 x0 x1 x2 x3 s _
  isplitl [G2]
  · unfold owns; iexists _; isplitr
    swap; · iexact G2
    ipureintro; exact valC_2 c i arg2 harg2 arg3 harg3 arg4 harg4 arg5 harg5 arg6 harg6 arg7 harg7 arg8 harg8 arg9 harg9 arg10 harg10 hc0 hc1 x0 x1 x2 x3 s _
  · unfold owns; iexists _; isplitr
    swap; · iexact G3
    ipureintro; exact valC_3 c i arg2 harg2 arg3 harg3 arg4 harg4 arg5 harg5 arg6 harg6 arg7 harg7 arg8 harg8 arg9 harg9 arg10 harg10 hc0 hc1 x0 x1 x2 x3 s _

end Cert.Kernel.Hand

end
-- ==== Proof.K.Frame.lean ====
/-
  The proof data of the one pipelined region, and the body obligation.

  'stAt n' is what the four scratch columns hold after the body at point n: the update of the reset when n is a first
  column block, else the update of what the point before left. The region invariant before point n + 1 holds the
  scratch columns at 'stAt n' (before the first point: at anything). The output window's staging buffer holds the loss
  column of 'stAt n' after a last column block, and is left as found elsewhere. The two windows that read the
  normalised features share one array: each holds half of it.
-/
import proofs.«179571_j37538014167620_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The four scratch columns after the body at point n. -/
def stAt (c : Dev nD) : (n : ℕ) → n < cfg0.N → St F
  | 0, hn => stepSt (grid0.coords ⟨0, hn⟩) (iblk m c 0 ⟨0, hn⟩) (iblk m c 1 ⟨0, hn⟩) (iblk m c 2 ⟨0, hn⟩) (iblk m c 3 ⟨0, hn⟩) resetSt
  | n + 1, hn => stepSt (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 8 = 0 then resetSt else stAt c n (Nat.lt_of_succ_lt hn))

/-- At a first column block: the update of the reset. -/
theorem stAt_first (c : Dev nD) (t : Fin cfg0.N) (h : t.val % 8 = 0) :
    stAt m c t.val t.isLt = stepSt (grid0.coords t) (iblk m c 0 t) (iblk m c 1 t) (iblk m c 2 t) (iblk m c 3 t) resetSt := by
  obtain ⟨n, hn⟩ := t
  cases n with
  | zero => rfl
  | succ n =>
    dsimp only at h ⊢
    rw [stAt, if_pos h]

/-- Elsewhere: the update of what the point before left. -/
theorem stAt_next (c : Dev nD) (t : Fin cfg0.N) (h : ¬t.val % 8 = 0) :
    stAt m c t.val t.isLt = stepSt (grid0.coords t) (iblk m c 0 t) (iblk m c 1 t) (iblk m c 2 t) (iblk m c 3 t)
      (stAt m c (t.val - 1) (Nat.lt_of_le_of_lt (Nat.sub_le _ _) t.isLt)) := by
  obtain ⟨n, hn⟩ := t
  cases n with
  | zero => exact absurd (Nat.zero_mod _) h
  | succ n =>
    dsimp only at h ⊢
    rw [stAt, if_neg h]
    rfl

/-- The region invariant before point n: before the first point the class's (every scratch column at anything);
    afterwards the four scratch columns at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r))

theorem PhiS_zero (c : Dev nD) (n : ℕ) (h : n ≤ cfg0.N) (hz : n = 0) : PhiS m c n h = Pipeline.ΦA spec0 c := by
  subst hz; rfl

/-- After point n (before point n + 1): the four scratch columns at that point's contents. -/
theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r)) := rfl

/-- Before a point that is not the first: the four scratch columns at what the point before left. -/
theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1
      ∗ owns (c : Thread nD τ) scM2 fullShare (stAt m c (n - 1) (by omega)).2.2.1 ∗ owns (c : Thread nD τ) scM3 fullShare (stAt m c (n - 1) (by omega)).2.2.2) ∗ (∃ r, prngReg c r)) := by
  cases n with
  | zero => exact absurd rfl hz
  | succ n => rfl

/-- The class's invariant with the four scratch columns as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The share of its array each input window holds: the two windows on the normalised features half each. -/
def qsh : Fin cfg0.W → PosShare TreeShare := fun
  | ⟨0, _⟩ => fullShare.left
  | ⟨1, _⟩ => fullShare.right
  | _ => fullShare

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (stAt m c t.val t.isLt)
  Φ t := PhiS m c t.val (Nat.le_of_lt_succ t.isLt)
  q := qsh
  owed _ := 0

theorem A_eq (c : Dev nD) (w : Fin cfg0.W) : (dats m 0 c).A w = V m c (Pipeline.arrRef spec0 w) := by
  dsimp only [dats]

theorem after4 (c : Dev nD) (t : Fin cfg0.N) : (dats m 0 c).after 4 t = outOf (stAt m c t.val t.isLt) := by dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves in each input window: its block. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-- An input window's current staging buffer holds its block at every point, fetched there or not, for any proof
    data whose array is the region's and whose body leaves the block in place: unfetched, the block index has not
    moved; the window is uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's number modulo 8 says which case it is in;
    the invariant hands the body the four scratch columns at what the point before left (at anything at a first
    column block) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_in 0 (by decide) t], after0]
  rw [show (dats m 0 c).leavesExact 1 t = owns (c : Thread nD τ) (ms1 t) fullShare ((dats m 0 c).after 1 t) from by
    unfold Dat.leavesExact; rw [liveAt_in 1 (by decide) t], after1]
  rw [show (dats m 0 c).leavesExact 2 t = owns (c : Thread nD τ) (ms2 t) fullShare ((dats m 0 c).after 2 t) from by
    unfold Dat.leavesExact; rw [liveAt_in 2 (by decide) t], after2]
  rw [show (dats m 0 c).leavesExact 3 t = owns (c : Thread nD τ) (ms3 t) fullShare ((dats m 0 c).after 3 t) from by
    unfold Dat.leavesExact; rw [liveAt_in 3 (by decide) t], after3]
  by_cases h0 : t.val % 8 = 0
  · have h1 : ¬t.val % 8 = 7 := by omega
    have hc0 : cond0 (grid0.coords t) := (hcond0 t).mpr h0
    have hc1 : ¬cond1 (grid0.coords t) := fun h => h1 ((hcond1 t).mp h)
    rw [Dat.leavesExact_idle (dats m 0 c) 4 t (idleAt_out t hc1) (noFlush_out t hc1)]
    rw [stAt_first m c t h0]
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_A c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_A c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · have hc0 : ¬cond0 (grid0.coords t) := fun h => h0 ((hcond0 t).mp h)
      have hc1 : cond1 (grid0.coords t) := (hcond1 t).mpr h1
      rw [show (dats m 0 c).leavesExact 4 t = owns (c : Thread nD τ) (ms4 t) fullShare ((dats m 0 c).after 4 t) from by
        unfold Dat.leavesExact; rw [liveAt_out t hc1], after4]
      rw [stAt_next m c t h0]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_C c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexact H4
    · have hc0 : ¬cond0 (grid0.coords t) := fun h => h0 ((hcond0 t).mp h)
      have hc1 : ¬cond1 (grid0.coords t) := fun h => h1 ((hcond1 t).mp h)
      rw [Dat.leavesExact_idle (dats m 0 c) 4 t (idleAt_out t hc1) (noFlush_out t hc1)]
      rw [stAt_next m c t h0]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_B c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) ((dats m 0 c).before 4 t d4) (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch columns' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

end Cert.Kernel.Hand

end
-- ==== Proof.K.Run.lean ====
/-
  The run of the whole program: eighteen host operations, the pipelined region, four host operations.

  The host operations before the region compute the normalised features and the tiled labels; the region's five
  windows read the features twice (rows and columns), the labels as a column and as a row, and write the loss column;
  the host operations after it sum the loss column and divide by the number of rows. Every weakly fair execution from a
  memory with zero semaphore counters terminates without a fault; at the end the result buffer holds the mean of what
  the region wrote, and the two argument arrays hold what they held at the start.
-/
import proofs.«179571_j37538014167620_1_alg».proof.Proof.K.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, as a function of the region's result: its sum over both axes, divided by 8192. -/
def tailVal (X : (⟨S8192x1, .f32⟩ : BufTy).Contents (Elt F)) : (⟨S_, .f32⟩ : BufTy).Contents (Elt F) :=
  Host.divf (Host.reduceAdd X (constant S_ .f32 0x00000000#32) reducesTo_S8192x1_S_d0_1 h_S_) (constant S_ .f32 0x46000000#32)

/-! ## The buffers along the run -/

/-- Core c's buffers at launch, as the operations' valuation. -/
abbrev V₀ (c : Dev nD) : Valuation τ sig (Elt F) := fun b => m (c, b)

/-- Running one line and then another is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => rw [List.cons_append, StableHlo.after_cons, StableHlo.after_cons, ih]

/-- The three stretches before the region, run in order, leave the entry contents. -/
theorem V0_eq (c : Dev nD) :
    StableHlo.after hostOps0_2 (StableHlo.after hostOps0_1 (StableHlo.after hostOps0 (V₀ m c))) = V0 m c := by
  show _ = StableHlo.after (List.flatten [hostOps0, hostOps0_1, hostOps0_2]) (V₀ m c)
  rw [List.flatten_cons, List.flatten_cons, List.flatten_cons, List.flatten_nil, List.append_nil, after_append, after_append]

/-- The TensorCore's unscoped references, as device buffers: the set the host operations run within. -/
def ucRefs : Finset (DevRef τ sig) := (StableHlo.tcRefs τ sig).filter fun b => ¬ b.isScoped

omit [FloatOps F] in
/-- A core's unscoped buffers at a valuation are that set held at it. -/
theorem unscopedBufs_held (c : Dev nD) (W : Valuation τ sig (Elt F)) :
    (unscopedBufs c (fun b => W (Proc.devRef .tc b)) : sProp 𝕄) = StableHlo.held (c : Thread nD τ) ucRefs W := by
  unfold unscopedBufs StableHlo.held ucRefs StableHlo.tcRefs
  rw [Finset.filter_map, bigSep_map]
  rfl

omit [FloatOps F] in
/-- A host operation names no scoped buffer: on TensorCore references it touches unscoped ones only. -/
theorem sub_ucRefs (op : HloOp τ sig (Elt F)) (h : op.bufs ⊆ StableHlo.tcRefs τ sig) : op.bufs ⊆ ucRefs := fun b hb =>
  Finset.mem_filter.mpr ⟨h hb, fun hs => Bool.false_ne_true ((op.no_scoped b hb).symm.trans hs)⟩

/-- The buffers after the region: the loss column at what the region wrote, every other as entered. -/
def Wout (c : Dev nD) : Valuation τ sig (Elt F) :=
  Function.update (V0 m c) (Proc.devRef .tc main_v14) ((dats m 0 c).arrAt 4 cfg0.N)

/-- The same read at a TensorCore reference. -/
abbrev WoutR (c : Dev nD) (b : Ref sig .tc) : Buf (Elt F) ((c : Thread nD τ).loc b) := Wout m c (Proc.devRef .tc b)

/-- Off the loss column the post-region valuation is the entry one. -/
theorem Wout_of_ne (c : Dev nD) (b : Ref sig .tc) (h : b ≠ main_v14) : WoutR m c b = V m c b := by
  unfold WoutR Wout
  exact Function.update_of_ne (StableHlo.devRef_ne_of_ne h) _ _

/-- At the loss column it is what the region wrote. -/
theorem Wout_v14 (c : Dev nD) : WoutR m c main_v14 = (dats m 0 c).arrAt 4 cfg0.N := by
  unfold WoutR Wout
  exact Function.update_self _ _ _

/-- Every window's array after the region, read off the post-region valuation: the inputs as entered, the loss column
    as written. -/
theorem Wout_arr (c : Dev nD) : ∀ w : Fin 5, (dats m 0 c).arrAt w cfg0.N = WoutR m c (Pipeline.arrRef spec0 w)
  | 0 => ((dats m 0 c).arrAt_in 0 rfl cfg0.N).trans (Wout_of_ne m c main_v8 (by decide)).symm
  | 1 => ((dats m 0 c).arrAt_in 1 rfl cfg0.N).trans (Wout_of_ne m c main_v8 (by decide)).symm
  | 2 => ((dats m 0 c).arrAt_in 2 rfl cfg0.N).trans (Wout_of_ne m c main_v12 (by decide)).symm
  | 3 => ((dats m 0 c).arrAt_in 3 rfl cfg0.N).trans (Wout_of_ne m c main_v13 (by decide)).symm
  | 4 => (Wout_v14 m c).symm
  | ⟨_ + 5, h⟩ => absurd h (Nat.not_lt.2 (Nat.le_add_left _ _))

/-! ## Dealing the arrays to the windows -/

omit [FloatOps F] in
/-- The buffers behind the five windows are four: the normalised features, the two label arrays, the loss column. -/
theorem arrBufs_chain (c : Dev nD) (G : (b : Ref sig .tc) → Buf (Elt F) ((c : Thread nD τ).loc b)) :
    (Pipeline.arrBufs spec0 c G : sProp 𝕄)
      = iprop((((c : Thread nD τ).loc main_v8) ↦{fullShare} G main_v8) ∗ (((c : Thread nD τ).loc main_v12) ↦{fullShare} G main_v12)
          ∗ (((c : Thread nD τ).loc main_v13) ↦{fullShare} G main_v13) ∗ (((c : Thread nD τ).loc main_v14) ↦{fullShare} G main_v14)) := by
  unfold Pipeline.arrBufs
  rw [show Finset.univ.image (Pipeline.arrRef spec0) = {main_v8, main_v12, main_v13, main_v14} from by decide,
    bigSep_insert (by decide), bigSep_insert (by decide), bigSep_insert (by decide), bigSep_singleton]
  rfl

/-- The windows' arrays as the proof data holds them: the normalised features in two halves. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_v8) ↦{fullShare.left} Fw 0) ∗ (((c : Thread nD τ).loc main_v8) ↦{fullShare.right} Fw 1)
          ∗ (((c : Thread nD τ).loc main_v12) ↦{fullShare} Fw 2) ∗ (((c : Thread nD τ).loc main_v13) ↦{fullShare} Fw 3)
          ∗ (((c : Thread nD τ).loc main_v14) ↦{fullShare} Fw 4)) := by
  unfold Dat.arrays
  rw [bigSep_W0, (arr_whole0 0).set_eq_univ, (arr_whole0 2).set_eq_univ, (arr_whole0 3).set_eq_univ, (arr_whole0 4).set_eq_univ]
  rfl

/-- ENTRY: the four buffers at contents G deal the five windows their arrays, the normalised features split in halves. -/
theorem deal (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    (Pipeline.arrBufs spec0 c G : sProp 𝕄) ⊢ (dats m 0 c).arrays Fw := by
  rw [arrBufs_chain, arrays_chain, hF 0, hF 1, hF 2, hF 3, hF 4]
  iintro ⟨H8, H12, H13, H14⟩
  ihave H := (pointsTo_share (PosShare.mem_left_op_right fullShare)).1 $$ H8
  icases H with ⟨Hl, Hr⟩
  isplitl [Hl]; · iexact Hl
  isplitl [Hr]; · iexact Hr
  isplitl [H12]; · iexact H12
  isplitl [H13]; · iexact H13
  iexact H14

/-- EXIT: the halves of the normalised features join again. -/
theorem undeal (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    ((dats m 0 c).arrays Fw : sProp 𝕄) ⊢ Pipeline.arrBufs spec0 c G := by
  rw [arrBufs_chain, arrays_chain, hF 0, hF 1, hF 2, hF 3, hF 4]
  iintro ⟨Hl, Hr, H12, H13, H14⟩
  isplitl [Hl Hr]
  · iapply (pointsTo_share (PosShare.mem_left_op_right fullShare)).2
    isplitl [Hl]; · iexact Hl
    iexact Hr
  isplitl [H12]; · iexact H12
  isplitl [H13]; · iexact H13
  iexact H14

/-- The buffers no window reads are the same before and after the region. -/
theorem unscopedRest_Wout (c : Dev nD) :
    (Pipeline.unscopedRest spec0 c (V m c) : sProp 𝕄) = Pipeline.unscopedRest spec0 c (WoutR m c) := by
  unfold Pipeline.unscopedRest
  refine bigSep_congr fun b hb => ?_
  have hne : b ≠ main_v14 := fun e => (Finset.mem_sdiff.mp hb).2 (e ▸ Finset.mem_image.mpr ⟨4, Finset.mem_univ _, rfl⟩)
  rw [Wout_of_ne m c b hne]

/-- The buffers the eighteen operations left are the windows' arrays at their entry contents and the rest. -/
theorem entry_split (c : Dev nD) :
    (StableHlo.held (c : Thread nD τ) ucRefs (V0 m c) : sProp 𝕄)
      ⊢ iprop((dats m 0 c).arrays ((dats m 0 c).arrAt · 0) ∗ Pipeline.unscopedRest spec0 c (V m c)) := by
  rw [← unscopedBufs_held c (V0 m c), Pipeline.unscopedBufs_split₀ cfgs 0 winFacts₀0.arr_unscoped c (V m c)]
  exact sep_mono (deal m c (V m c) _ fun _ => rfl) .rfl

/-- The windows' arrays at their final contents and the rest are the buffers after the region. -/
theorem exit_join (c : Dev nD) :
    iprop((dats m 0 c).arrays ((dats m 0 c).arrAt · cfg0.N) ∗ Pipeline.unscopedRest spec0 c (V m c))
      ⊢ (StableHlo.held (c : Thread nD τ) ucRefs (Wout m c) : sProp 𝕄) := by
  rw [← unscopedBufs_held c (Wout m c), Pipeline.unscopedBufs_split₀ cfgs 0 winFacts₀0.arr_unscoped c (WoutR m c), unscopedRest_Wout]
  exact sep_mono (undeal m c (WoutR m c) _ (Wout_arr m c)) .rfl

/-! ## The launch's parameters and the segments -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: the generator register at some state, the core owing
    nothing. -/
abbrev R (c : Dev nD) : sProp 𝕄 :=
  iprop((∃ r, prngReg c r) ∗ ∃ W, owes (c : Thread nD τ) (0 : CellTallies nD τ sig Unit) W)

/-- The seven operations before the call of the clipping function. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro op h; simp only [List.mem_cons, List.mem_nil_iff, or_false] at h
        rcases h with rfl | rfl | rfl | rfl | rfl | rfl | rfl <;> rfl) (V₀ m) R

/-- The clipping function's three operations. -/
def seg1 : Pipeline.HostSeg (Name := ℕ) (U := UR sig nD τ) (pcfgs (F := F)) defs₀ 𝒱₀ L lv :=
  Pipeline.HostSeg.ofOps _ _ _ _ _ ucRefs hostOps0_1 (fun op h => sub_ucRefs op ((List.forall_iff_forall_mem.mp hostOps0_1_sub) op h))
    (by intro op h; simp only [List.mem_cons, List.mem_nil_iff, or_false] at h
        rcases h with rfl | rfl | rfl <;> rfl) (fun c => StableHlo.after hostOps0 (V₀ m c)) R

/-- The eight operations up to the region. -/
def seg2 : Pipeline.HostSeg (Name := ℕ) (U := UR sig nD τ) (pcfgs (F := F)) defs₀ 𝒱₀ L lv :=
  Pipeline.HostSeg.ofOps _ _ _ _ _ ucRefs hostOps0_2 (fun op h => sub_ucRefs op ((List.forall_iff_forall_mem.mp hostOps0_2_sub) op h))
    (by intro op h; simp only [List.mem_cons, List.mem_nil_iff, or_false] at h
        rcases h with rfl | rfl | rfl | rfl | rfl | rfl | rfl | rfl <;> rfl)
    (fun c => StableHlo.after hostOps0_1 (StableHlo.after hostOps0 (V₀ m c))) R

/-- The four operations after the region. -/
def seg3 : Pipeline.HostSeg (Name := ℕ) (U := UR sig nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro op h; simp only [List.mem_cons, List.mem_nil_iff, or_false] at h
        rcases h with rfl | rfl | rfl | rfl <;> rfl) (Wout m) R

set_option backward.isDefEq.respectTransparency.types false in
/-- THE REGION: entered from the buffers the eighteen operations left, the four arrays dealt to the five windows (the
    normalised features in halves), every other unscoped buffer bypassing, the generator register into the invariant;
    left with the halves joined and the loss column at what the region wrote. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (V0 m c) ∗ R c)
  post c := iprop(StableHlo.held (c : Thread nD τ) ucRefs (Wout m c) ∗ R c)
  X c := iprop(∃ r, prngReg c r)
  Y c := iprop(∃ r, prngReg c r)
  Z c := Pipeline.unscopedRest spec0 c (V m c)
  hentry c := by
    iintro ⟨⟨Hub, Hp, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (Set.mem_univ _)
      iexact HO
    isplitl [Hp]; · iexact Hp
    iexact Hrest
  hin c := by
    refine (show _ ⊢ Pipeline.ΦA spec0 c from ?_).trans (hin m c)
    unfold Pipeline.ΦA
    iintro ⟨Hp, -, Hr⟩
    isplitl [Hr]; · iexact Hr
    iexact Hp
  hout c := by
    refine (hout m c).trans ?_
    rw [Pipeline.ownSems0_none]; unfold Pipeline.ΦA
    iintro ⟨Hr, Hp⟩
    isplitl [Hp]; · iexact Hp
    isplitr; · iempintro
    iexact Hr
  hexit c := by
    iintro ⟨Ha, HO, Hp, Hrest⟩
    imodintro
    isplitl [Ha Hrest]
    · iapply (exit_join m c)
      isplitl [Ha]; · iexact Ha
      iexact Hrest
    isplitl [Hp]; · iexact Hp
    icases HO with ⟨%W, -, HO⟩; iexists W; iexact HO

/-! ## The whole run -/

/-- @main as its five segments. -/
abbrev segs : List (Pipeline.Seg (pcfgs (F := F)) adm (dats m) () defs₀ 𝒱₀ L lv) :=
  [.host (seg0 m), .host (seg1 m), .host (seg2 m), .region (reg0 m), .host (seg3 m)]

/-- What the last stretch leaves: the buffers after its four operations, the generator register at some state. -/
abbrev Tₙ (c : Dev nD) : sProp 𝕄 :=
  iprop(StableHlo.held (c : Thread nD τ) ucRefs (StableHlo.after hostOps1 (Wout m c)) ∗ ∃ r, prngReg c r)

/-- The third stretch leaves what the region is entered from. -/
theorem chain_entry (c : Dev nD) :
    iprop(StableHlo.held (c : Thread nD τ) ucRefs (StableHlo.after hostOps0_2 (StableHlo.after hostOps0_1 (StableHlo.after hostOps0 (V₀ m c)))) ∗ R c)
      ⊢ (iprop(StableHlo.held (c : Thread nD τ) ucRefs (V0 m c) ∗ R c) : sProp 𝕄) :=
  Entails.of_eq (congrArg (fun W => (iprop(StableHlo.held (c : Thread nD τ) ucRefs W ∗ R c) : sProp 𝕄)) (V0_eq m c))

/-- The last stretch leaves the final state beside the core owing nothing. -/
theorem chain_end (c : Dev nD) :
    iprop(StableHlo.held (c : Thread nD τ) ucRefs (StableHlo.after hostOps1 (Wout m c)) ∗ R c)
      ⊢ (iprop(Tₙ m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-- No operation before the region writes an argument array. -/
theorem not_written_pre (b : Ref sig .tc) (hb : b = main_arg0 ∨ b = main_arg1) :
    ∀ op ∈ List.flatten [hostOps0 (F := F), hostOps0_1, hostOps0_2], Proc.devRef .tc b ∉ op.writes := by
  intro op hop
  simp only [hostOps0, hostOps0_1, hostOps0_2, List.flatten_cons, List.flatten_nil, List.append_nil, List.cons_append, List.nil_append,
    List.mem_cons, List.mem_nil_iff, or_false] at hop
  rcases hb with rfl | rfl <;>
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- Nor does one after it. -/
theorem not_written_post (b : Ref sig .tc) (hb : b = main_arg0 ∨ b = main_arg1) :
    ∀ op ∈ hostOps1 (F := F), Proc.devRef .tc b ∉ op.writes := by
  intro op hop
  simp only [List.mem_cons, List.mem_nil_iff, or_false] at hop
  rcases hb with rfl | rfl <;>
  rcases hop with rfl | rfl | rfl | rfl <;>
    simp only [StableHlo.binary_writes, StableHlo.nullary_writes, Finset.mem_singleton] <;>
    exact StableHlo.devRef_ne_of_ne (by decide)

/-- The result buffer after the last stretch: the mean of the loss column the region wrote. -/
theorem tail16 (c : Dev nD) :
    StableHlo.after hostOps1 (Wout m c) (Proc.devRef .tc main_v16) = tailVal ((dats m 0 c).arrAt 4 cfg0.N) := by
  unfold tailVal
  after_results
  rw [show Wout m c (Proc.devRef .tc main_v14) = (dats m 0 c).arrAt 4 cfg0.N from Wout_v14 m c]

/-- An argument array after the last stretch: as launched. -/
theorem tail_arg (c : Dev nD) (b : Ref sig .tc) (hb : b = main_arg0 ∨ b = main_arg1) :
    StableHlo.after hostOps1 (Wout m c) (Proc.devRef .tc b) = m ((c : Thread nD τ).loc b) := by
  have hne : b ≠ main_v14 := by rcases hb with rfl | rfl <;> decide
  rw [StableHlo.after_of_forall_not_mem hostOps1 _ (not_written_post b hb),
    show Wout m c (Proc.devRef .tc b) = V m c b from Wout_of_ne m c b hne]
  exact StableHlo.after_of_forall_not_mem (b := Proc.devRef .tc b) _ (V₀ m c) (not_written_pre b hb)

omit [FloatOps F] in
/-- Nothing, on every core. -/
theorem emp_all : (BI.emp : sProp 𝕄) ⊢ bigSep Finset.univ (fun _ : Dev nD => (BI.emp : sProp 𝕄)) := by
  rw [BI.bigSep_emp_const]

set_option backward.isDefEq.respectTransparency.types false in
/-- Every weakly fair execution of the program terminates, nothing faulting; the result buffer ends at the mean of the
    loss column the region computes, and the argument arrays end unchanged. -/
theorem run_main : θ_run defs (onTc (τ := τ) (main (F := F))) ⟨m, fun _ => 0, ρ⟩ (fun r => ∀ c : Dev nD,
    r.2.mem ((c.tc : Thread nD τ).loc main_v16) = tailVal ((dats m 0 c).arrAt 4 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (Entails.of_eq (ownU_emb₁ _)); iexact Hu
      iapply emp_all; iempintro)
    (T₀ := fun c => iprop(StableHlo.held (c : Thread nD τ) ucRefs (V₀ m c) ∗ R c)) (Tₙ := Tₙ m)
    (hch := ⟨fun _ => .rfl, fun _ => .rfl, fun _ => .rfl, chain_entry m, fun _ => .rfl, chain_end m⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v16) = tailVal ((dats m 0 c).arrAt 4 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ]
      rw [← unscopedBufs_held c (StableHlo.after hostOps1 (Wout m c))]
      unfold unscopedBufs
      iintro ⟨⟨Hh, -⟩, HSI⟩
      ihave Hr := (pointsTo_read_all _ (fun b : Ref sig .tc => (c : Thread nD τ).loc b)
        (fun b => StableHlo.after hostOps1 (Wout m c) (Proc.devRef .tc b)) s') $$ [Hh HSI]
      · isplitl [Hh] <;> iassumption
      icases Hr with ⟨%hr, HSI⟩
      imodintro
      isplitr
      · ipureintro
        exact ⟨(hr main_v16 (Finset.mem_filter.mpr ⟨Finset.mem_univ _, by decide⟩)).trans (tail16 m c),
          (hr main_arg0 (Finset.mem_filter.mpr ⟨Finset.mem_univ _, by decide⟩)).trans (tail_arg m c main_arg0 (.inl rfl)),
          (hr main_arg1 (Finset.mem_filter.mpr ⟨Finset.mem_univ _, by decide⟩)).trans (tail_arg m c main_arg1 (.inr rfl))⟩
      iexact HSI)
    (hQ := fun _ h => h)

end Cert.Kernel.Hand

end
-- ==== Proof.KI.Data.lean ====
/-
  The sweep of one row block: what the kernel keeps between grid points, as terms over the body's values.

  The grid is 8 row blocks by 8 column blocks; point t is row block t / 8 and column block t % 8. For a row
  block the body keeps four columns of 1024 entries in scratch memory: the running maximum of the scaled
  similarities seen so far, the sum of exponentials rescaled to that maximum (the diagonal left out), the sum of
  the similarities of positive pairs, and the number of positive pairs. At column block 0 the four are reset
  (minus infinity, zero, zero, zero) before the update; at column block 7, after the update, the row block's loss
  column is computed from them and stored into the output window. 'stepSt' is the update of one point,
  'resetSt' the reset, 'outOf' the loss column; all three are the body's own value terms, so the same text reads
  at every float instance.
-/
import proofs.«179571_j37538014167620_1_alg».proof.Proof.Gen.KernelIdeal.Launch
import proofs.«179571_j37538014167620_1_alg».proof.Proof.Gen.KernelIdeal.Skeleton
import proofs.«179571_j37538014167620_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers when the region is entered -/

/-- Core c's buffer contents when the region is entered: the eighteen host operations before it have run. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body -/

/-- "This is the first column block": the reset's condition, from the grid coordinates. -/
abbrev cond0 (i : grid0.Coords) : Prop :=
  (Scalar.cmpi .ne (Scalar.extui (Scalar.cmpi .eq (BitVec.ofNat 32 (i 1).val) 0#32)) 0#32) = 1#1
/-- It holds at the points whose number is divisible by 8. -/
theorem hcond0 : ∀ t : Fin cfg0.N, cond0 (grid0.coords t) ↔ t.val % 8 = 0 :=
  (by decide +kernel : ∀ t : Fin grid0.N, cond0 (grid0.coords t) ↔ t.val % 8 = 0)

/-- "This is the last column block": the condition under which the loss column is stored. -/
abbrev cond1 (i : grid0.Coords) : Prop := k0_cond2 i = 1#1
/-- It holds at the points whose number is 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## Where the output window is idle -/

theorem liveAt_in : ∀ (w : Fin cfg0.W), w.val < 4 → ∀ t : Fin cfg0.N, cfg0.idle w (grid0.coords t) = false := by decide +kernel
theorem idleAt_out : ∀ t : Fin cfg0.N, ¬cond1 (grid0.coords t) → cfg0.idle 4 (grid0.coords t) = true := by decide +kernel
theorem noFlush_out : ∀ t : Fin cfg0.N, ¬cond1 (grid0.coords t) → (cfg0.win 4).flush t = false := by decide +kernel
theorem liveAt_out : ∀ t : Fin cfg0.N, cond1 (grid0.coords t) → cfg0.idle 4 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The four scratch columns: whole scoped buffers of the kernel's own. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3

/-! ## What the body keeps, as terms over its values -/

/-- A column of 1024 floats. -/
abbrev Col (F : FTy → Type) : Type := Vec F S1024x1 .f32
/-- The four scratch columns: running maximum, rescaled exponential sum, positive-pair sum, positive-pair count. -/
abbrev St (F : FTy → Type) : Type := Col F × Col F × Col F × Col F

/-- The reset at the first column block: minus infinity, zero, zero, zero. -/
def resetSt : St F := (k0_pay1, k0_pay2, k0_pay3, k0_pay4)

/-- One point's update of the four columns from the point's four input blocks (row features x0, column features x1,
    row labels x2, column labels x3). -/
def stepSt (i : grid0.Coords) (x0 x1 : Vec F S1024x128 .bf16) (x2 : Vec F S1024x1 .i32) (x3 : Vec F S1x1024 .i32) (s : St F) : St F :=
  (k0_pay11 (k0_pay8 x0 x1 s.1),
   k0_pay12 (k0_pay6 i) (k0_pay9 x0 x1 s.1) (k0_pay10 x0 x1 s.1) (Scalar.ofBits .f32 0x00000000#32) s.2.1,
   k0_pay13 (k0_pay5 x0 x1) (k0_pay7 i x2 x3) s.2.2.1,
   k0_pay14 (k0_pay7 i x2 x3) s.2.2.2)

/-- The loss column of a row block, from the four columns after its last update. -/
def outOf (s : St F) : Col F := k0_pay15 s.2.1 s.2.2.2 s.2.2.1 s.1 s.2.2.2

end Cert.KernelIdeal.Hand

end
-- ==== Proof.KI.Body.lean ====
/-
  The kernel body run at one grid point, in each of the three cases a point can be in.

  Case A is a first column block (the four scratch columns are reset, then updated), case B a middle one (updated
  only), case C a last one (updated, then the loss column stored into the output window). In every case the four input
  blocks are only read, and the scratch ends at 'stepSt' of what the point started from.

  Per case: the body's triple with each stored buffer left at the list of pieces its stores wrote (the lists are found
  by running the body); the pieces cover the buffer, so what it reads afterwards is the last covering store's payload,
  whatever it held before; that payload, with each load read back (an input block as given, a scratch column stored
  earlier in the same run at the stored value), is the component of 'stepSt' (of 'outOf' for the output window).
-/
import proofs.«179571_j37538014167620_1_alg».proof.Proof.KI.Data
import Idealize.ShloMosaic.Lib.Ring
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer rectangle, as the constant function. -/
theorem hz : (![0, 0] : Fin 2 → Nat) = fun _ => 0 := funext fun a => by fin_cases a <;> rfl

/-! ## Case A: a first column block -/

set_option maxHeartbeats 1000000 in
/-- The pieces a first block's stores leave in each scratch column (the reset's, then the update's), with the body's
    triple over them: the scratch columns may hold anything when the body starts. -/
noncomputable def kernelRun_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) :
    Σ' (L0 : List (View.Piece (Elt F) S1024x1 .f32)) (L1 : List (View.Piece (Elt F) S1024x1 .f32)) (L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__supcon_kernel_eq_skeleton]; unfold cc0__supcon_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d0, %g0, -, G0⟩, ⟨%d1, %g1, -, G1⟩, ⟨%d2, %g2, -, G2⟩, ⟨%d3, %g3, -, G3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [G0]; · iexists g0; iexact G0
    isplitl [G1]; · iexists g1; iexact G1
    isplitl [G2]; · iexists g2; iexact G2
    iexists g3; iexact G3

/-- A first block's pieces for scratch column 0 (the running maximum) cover it. -/
theorem coverA_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).1 S1024x1.size (by sl_kernel_rfl) y

/-- A first block's pieces for scratch column 1 (the exponential sum) cover it. -/
theorem coverA_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).2.1 S1024x1.size (by sl_kernel_rfl) y

/-- A first block's pieces for scratch column 2 (the positive-pair sum) cover it. -/
theorem coverA_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).2.2.1 S1024x1.size (by sl_kernel_rfl) y

/-- A first block's pieces for scratch column 3 (the positive-pair count) cover it. -/
theorem coverA_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y

/-- What a first block leaves in scratch column 0: the running maximum of the update of the reset. -/
theorem valA_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg7.view.ty.Contents (Elt F)) :
    arg7.view.read (Elt F) (arg7.view.writes (Elt F) f (kernelRun_A c i arg2 harg2 arg3 harg3 arg4 harg4 arg5 harg5 arg6 harg6 arg7 harg7 arg8 harg8 arg9 harg9 arg10 harg10 hc0 hc1 x0 x1 x2 x3).1) = (stepSt i x0 x1 x2 x3 (resetSt (F := F))).1 := by
  rw [View.read_writes_eq_canon _ _ _ (coverA_0 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a first block leaves in scratch column 1: the exponential sum of the update of the reset. -/
theorem valA_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg8.view.ty.Contents (Elt F)) :
    arg8.view.read (Elt F) (arg8.view.writes (Elt F) f (kernelRun_A c i arg2 harg2 arg3 harg3 arg4 harg4 arg5 harg5 arg6 harg6 arg7 harg7 arg8 harg8 arg9 harg9 arg10 harg10 hc0 hc1 x0 x1 x2 x3).2.1) = (stepSt i x0 x1 x2 x3 (resetSt (F := F))).2.1 := by
  rw [View.read_writes_eq_canon _ _ _ (coverA_1 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a first block leaves in scratch column 2: the positive-pair sum of the update of the reset. -/
theorem valA_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg9.view.ty.Contents (Elt F)) :
    arg9.view.read (Elt F) (arg9.view.writes (Elt F) f (kernelRun_A c i arg2 harg2 arg3 harg3 arg4 harg4 arg5 harg5 arg6 harg6 arg7 harg7 arg8 harg8 arg9 harg9 arg10 harg10 hc0 hc1 x0 x1 x2 x3).2.2.1) = (stepSt i x0 x1 x2 x3 (resetSt (F := F))).2.2.1 := by
  rw [View.read_writes_eq_canon _ _ _ (coverA_2 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a first block leaves in scratch column 3: the positive-pair count of the update of the reset. -/
theorem valA_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (f : arg10.view.ty.Contents (Elt F)) :
    arg10.view.read (Elt F) (arg10.view.writes (Elt F) f (kernelRun_A c i arg2 harg2 arg3 harg3 arg4 harg4 arg5 harg5 arg6 harg6 arg7 harg7 arg8 harg8 arg9 harg9 arg10 harg10 hc0 hc1 x0 x1 x2 x3).2.2.2.1) = (stepSt i x0 x1 x2 x3 (resetSt (F := F))).2.2.2 := by
  rw [View.read_writes_eq_canon _ _ _ (coverA_3 c i arg2 harg2 arg3 harg3 arg4 harg4 arg5 harg5 arg6 harg6 arg7 harg7 arg8 harg8 arg9 harg9 arg10 harg10 hc0 hc1 x0 x1 x2 x3)]
  unfold kernelRun_A; dsimp only; sl_unfold_words
  rw [View.canon_cons_unit_zero (S := S1024x1) hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- A first column block: whatever the scratch columns held, they end at the update of the reset; the output window's
    buffer is handed back as found. -/
theorem body_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 x1 : Vec F S1024x128 .bf16) (x2 : Vec F S1024x1 .i32) (x3 : Vec F S1x1024 .i32) (xo : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (stepSt i x0 x1 x2 x3 (resetSt (F := F))).1 ∗ owns (c : Thread nD τ) arg8 fullShare (stepSt i x0 x1 x2 x3 (resetSt (F := F))).2.1 ∗ owns (c : Thread nD τ) arg9 fullShare (stepSt i x0 x1 x2 x3 (resetSt (F := F))).2.2.1 ∗ owns (c : Thread nD τ) arg10 fullShare (stepSt i x0 x1 x2 x3 (resetSt (F := F))).2.2.2) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9 arg10 harg10) K := by
  iintro ⟨H0, H1, H2, H3, H4, G0, G1, G2, G3, Hk⟩
  iapply ((kernelRun_A c i arg2 harg2 arg3 harg3 arg4 harg4 arg5 harg5 arg6 harg6 arg7 harg7 arg8 harg8 arg9 harg9 arg10 harg10 hc0 hc1 x0 x1 x2 x3).2.2.2.2 xo E K)
  isplitl [H0]; · iexact H0
  isplitl [H1]; · iexact H1
  isplitl [H2]; · iexact H2
  isplitl [H3]; · iexact H3
  isplitl [H4]; · iexact H4
  isplitl [G0]; · iexact G0
  isplitl [G1]; · iexact G1
  isplitl [G2]; · iexact G2
  isplitl [G3]; · iexact G3
  iintro ⟨H0, H1, H2, H3, H4, ⟨%e0, G0⟩, ⟨%e1, G1⟩, ⟨%e2, G2⟩, ⟨%e3, G3⟩⟩
  iapply Hk
  isplitl [H0]; · iexact H0
  isplitl [H1]; · iexact H1
  isplitl [H2]; · iexact H2
  isplitl [H3]; · iexact H3
  isplitl [H4]; · iexact H4
  isplitl [G0]
  · unfold owns; iexists _; isplitr
    swap; · iexact G0
    ipureintro; exact valA_0 c i arg2 harg2 arg3 harg3 arg4 harg4 arg5 harg5 arg6 harg6 arg7 harg7 arg8 harg8 arg9 harg9 arg10 harg10 hc0 hc1 x0 x1 x2 x3 _
  isplitl [G1]
  · unfold owns; iexists _; isplitr
    swap; · iexact G1
    ipureintro; exact valA_1 c i arg2 harg2 arg3 harg3 arg4 harg4 arg5 harg5 arg6 harg6 arg7 harg7 arg8 harg8 arg9 harg9 arg10 harg10 hc0 hc1 x0 x1 x2 x3 _
  isplitl [G2]
  · unfold owns; iexists _; isplitr
    swap; · iexact G2
    ipureintro; exact valA_2 c i arg2 harg2 arg3 harg3 arg4 harg4 arg5 harg5 arg6 harg6 arg7 harg7 arg8 harg8 arg9 harg9 arg10 harg10 hc0 hc1 x0 x1 x2 x3 _
  · unfold owns; iexists _; isplitr
    swap; · iexact G3
    ipureintro; exact valA_3 c i arg2 harg2 arg3 harg3 arg4 harg4 arg5 harg5 arg6 harg6 arg7 harg7 arg8 harg8 arg9 harg9 arg10 harg10 hc0 hc1 x0 x1 x2 x3 _

/-! ## Case B: a middle column block -/

set_option maxHeartbeats 1000000 in
/-- The pieces a middle block's stores leave in each scratch column, with the body's triple over them: the four input
    blocks and the output window's buffer are handed back as found, each scratch column with its pieces written. -/
noncomputable def kernelRun_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s0 s1 s2 s3 : Vec F S1024x1 .f32) :
    Σ' (L0 : List (View.Piece (Elt F) S1024x1 .f32)) (L1 : List (View.Piece (Elt F) S1024x1 .f32)) (L2 : List (View.Piece (Elt F) S1024x1 .f32)), { L3 : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun xo E K => ?run⟩
  case run =>
    simp only [cc0__supcon_kernel_eq_skeleton]; unfold cc0__supcon_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hg0; obtain rfl := harg8.eq_unread hg1; obtain rfl := harg9.eq_unread hg2; obtain rfl := harg10.eq_unread hg3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [G0]; · iexists (harg7.unread s0); iexact G0
    isplitl [G1]; · iexists (harg8.unread s1); iexact G1
    isplitl [G2]; · iexists (harg9.unread s2); iexact G2
    iexists (harg10.unread s3); iexact G3

/-- A middle block's pieces for scratch column 0 (the running maximum) cover it. -/
theorem coverB_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).1 S1024x1.size (by sl_kernel_rfl) y

/-- A middle block's pieces for scratch column 1 (the exponential sum) cover it. -/
theorem coverB_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.1 S1024x1.size (by sl_kernel_rfl) y

/-- A middle block's pieces for scratch column 2 (the positive-pair sum) cover it. -/
theorem coverB_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1 S1024x1.size (by sl_kernel_rfl) y

/-- A middle block's pieces for scratch column 3 (the positive-pair count) cover it. -/
theorem coverB_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (y : S1024x1.Idx) :
    ∃ pc ∈ (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1 S1024x1.size (by sl_kernel_rfl) y

/-- What a middle block leaves in scratch column 0: the running maximum of the update. -/
theorem valB_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg7.view.ty.Contents (Elt F)) :
    arg7.view.read (Elt F) (arg7.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).1) = (stepSt i x0 x1 x2 x3 s).1 := by
  rw [View.read_writes_eq_canon _ _ _ (coverB_0 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a middle block leaves in scratch column 1: the exponential sum of the update. -/
theorem valB_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg8.view.ty.Contents (Elt F)) :
    arg8.view.read (Elt F) (arg8.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.1) = (stepSt i x0 x1 x2 x3 s).2.1 := by
  rw [View.read_writes_eq_canon _ _ _ (coverB_1 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a middle block leaves in scratch column 2: the positive-pair sum of the update. -/
theorem valB_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg9.view.ty.Contents (Elt F)) :
    arg9.view.read (Elt F) (arg9.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1) = (stepSt i x0 x1 x2 x3 s).2.2.1 := by
  rw [View.read_writes_eq_canon _ _ _ (coverB_2 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a middle block leaves in scratch column 3: the positive-pair count of the update. -/
theorem valB_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (s : St F) (f : arg10.view.ty.Contents (Elt F)) :
    arg10.view.read (Elt F) (arg10.view.writes (Elt F) f (kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1) = (stepSt i x0 x1 x2 x3 s).2.2.2 := by
  rw [View.read_writes_eq_canon _ _ _ (coverB_3 c i arg2 harg2 arg3 harg3 arg4 harg4 arg5 harg5 arg6 harg6 arg7 harg7 arg8 harg8 arg9 harg9 arg10 harg10 hc0 hc1 x0 x1 x2 x3 s)]
  unfold kernelRun_B; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- A middle column block: the scratch columns, at s, end at the update of s; the output window's buffer is handed back
    as found. -/
theorem body_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 x1 : Vec F S1024x128 .bf16) (x2 : Vec F S1024x1 .i32) (x3 : Vec F S1x1024 .i32) (xo : Vec F S1024x1 .f32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (s).1 ∗ owns (c : Thread nD τ) arg8 fullShare (s).2.1 ∗ owns (c : Thread nD τ) arg9 fullShare (s).2.2.1 ∗ owns (c : Thread nD τ) arg10 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare (stepSt i x0 x1 x2 x3 s).1 ∗ owns (c : Thread nD τ) arg8 fullShare (stepSt i x0 x1 x2 x3 s).2.1 ∗ owns (c : Thread nD τ) arg9 fullShare (stepSt i x0 x1 x2 x3 s).2.2.1 ∗ owns (c : Thread nD τ) arg10 fullShare (stepSt i x0 x1 x2 x3 s).2.2.2) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9 arg10 harg10) K := by
  iintro ⟨H0, H1, H2, H3, H4, G0, G1, G2, G3, Hk⟩
  iapply ((kernelRun_B c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2 xo E K)
  isplitl [H0]; · iexact H0
  isplitl [H1]; · iexact H1
  isplitl [H2]; · iexact H2
  isplitl [H3]; · iexact H3
  isplitl [H4]; · iexact H4
  isplitl [G0]; · iexact G0
  isplitl [G1]; · iexact G1
  isplitl [G2]; · iexact G2
  isplitl [G3]; · iexact G3
  iintro ⟨H0, H1, H2, H3, H4, ⟨%e0, G0⟩, ⟨%e1, G1⟩, ⟨%e2, G2⟩, ⟨%e3, G3⟩⟩
  iapply Hk
  isplitl [H0]; · iexact H0
  isplitl [H1]; · iexact H1
  isplitl [H2]; · iexact H2
  isplitl [H3]; · iexact H3
  isplitl [H4]; · iexact H4
  isplitl [G0]
  · unfold owns; iexists _; isplitr
    swap; · iexact G0
    ipureintro; exact valB_0 c i arg2 harg2 arg3 harg3 arg4 harg4 arg5 harg5 arg6 harg6 arg7 harg7 arg8 harg8 arg9 harg9 arg10 harg10 hc0 hc1 x0 x1 x2 x3 s _
  isplitl [G1]
  · unfold owns; iexists _; isplitr
    swap; · iexact G1
    ipureintro; exact valB_1 c i arg2 harg2 arg3 harg3 arg4 harg4 arg5 harg5 arg6 harg6 arg7 harg7 arg8 harg8 arg9 harg9 arg10 harg10 hc0 hc1 x0 x1 x2 x3 s _
  isplitl [G2]
  · unfold owns; iexists _; isplitr
    swap; · iexact G2
    ipureintro; exact valB_2 c i arg2 harg2 arg3 harg3 arg4 harg4 arg5 harg5 arg6 harg6 arg7 harg7 arg8 harg8 arg9 harg9 arg10 harg10 hc0 hc1 x0 x1 x2 x3 s _
  · unfold owns; iexists _; isplitr
    swap; · iexact G3
    ipureintro; exact valB_3 c i arg2 harg2 arg3 harg3 arg4 harg4 arg5 harg5 arg6 harg6 arg7 harg7 arg8 harg8 arg9 harg9 arg10 harg10 hc0 hc1 x0 x1 x2 x3 s _

/-! ## Case C: a last column block -/

set_option maxHeartbeats 1000000 in
/-- The pieces a last block's stores leave in the output window's buffer and in each scratch column, with the body's
    triple over them: the output window's buffer may hold anything when the body starts. -/
noncomputable def kernelRun_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s0 s1 s2 s3 : Vec F S1024x1 .f32) :
    Σ' (LO : List (View.Piece (Elt F) S1024x1 .f32)) (L0 : List (View.Piece (Elt F) S1024x1 .f32)) (L1 : List (View.Piece (Elt F) S1024x1 .f32)) (L2 : List (View.Piece (Elt F) S1024x1 .f32)), { L3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f L3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__supcon_kernel_eq_skeleton]; unfold cc0__supcon_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, ⟨%g2, %hg2, G2⟩, ⟨%g3, %hg3, G3⟩, Hk⟩
    obtain rfl := harg2.eq_unread hf0; obtain rfl := harg3.eq_unread hf1; obtain rfl := harg4.eq_unread hf2; obtain rfl := harg5.eq_unread hf3
    obtain rfl := harg7.eq_unread hg0; obtain rfl := harg8.eq_unread hg1; obtain rfl := harg9.eq_unread hg2; obtain rfl := harg10.eq_unread hg3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists f4; iexact H4
    isplitl [G0]; · iexists (harg7.unread s0); iexact G0
    isplitl [G1]; · iexists (harg8.unread s1); iexact G1
    isplitl [G2]; · iexists (harg9.unread s2); iexact G2
    iexists (harg10.unread s3); iexact G3

/-- A last block's pieces for the output window's buffer cover it. -/
theorem coverC_O (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).1 S1024x1.size (by sl_kernel_rfl) y

/-- A last block's pieces for scratch column 0 (the running maximum) cover it. -/
theorem coverC_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.1 S1024x1.size (by sl_kernel_rfl) y

/-- A last block's pieces for scratch column 1 (the exponential sum) cover it. -/
theorem coverC_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1 S1024x1.size (by sl_kernel_rfl) y

/-- A last block's pieces for scratch column 2 (the positive-pair sum) cover it. -/
theorem coverC_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1 S1024x1.size (by sl_kernel_rfl) y

/-- A last block's pieces for scratch column 3 (the positive-pair count) cover it. -/
theorem coverC_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (y : S1024x1.Idx) :
    ∃ pc ∈ (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.1 S1024x1.size (by sl_kernel_rfl) y

/-- What a last block leaves in the output window's buffer: the loss column of the updated scratch columns. -/
theorem valC_O (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg6.view.ty.Contents (Elt F)) :
    arg6.view.read (Elt F) (arg6.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).1) = outOf (stepSt i x0 x1 x2 x3 s) := by
  rw [View.read_writes_eq_canon _ _ _ (coverC_O c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.readCov_unit_zero (S := S1024x1) _ hz, View.ld_unit_zero (S := S1024x1) hz, View.ld_unit_zero (S := S1024x128) hz, View.ld_unit_zero (S := S1x1024) hz]
  rfl

/-- What a last block leaves in scratch column 0: the running maximum of the update. -/
theorem valC_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg7.view.ty.Contents (Elt F)) :
    arg7.view.read (Elt F) (arg7.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.1) = (stepSt i x0 x1 x2 x3 s).1 := by
  rw [View.read_writes_eq_canon _ _ _ (coverC_0 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a last block leaves in scratch column 1: the exponential sum of the update. -/
theorem valC_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg8.view.ty.Contents (Elt F)) :
    arg8.view.read (Elt F) (arg8.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.1) = (stepSt i x0 x1 x2 x3 s).2.1 := by
  rw [View.read_writes_eq_canon _ _ _ (coverC_1 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a last block leaves in scratch column 2: the positive-pair sum of the update. -/
theorem valC_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg9.view.ty.Contents (Elt F)) :
    arg9.view.read (Elt F) (arg9.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.1) = (stepSt i x0 x1 x2 x3 s).2.2.1 := by
  rw [View.read_writes_eq_canon _ _ _ (coverC_2 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- What a last block leaves in scratch column 3: the positive-pair count of the update. -/
theorem valC_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F) (f : arg10.view.ty.Contents (Elt F)) :
    arg10.view.read (Elt F) (arg10.view.writes (Elt F) f (kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.1) = (stepSt i x0 x1 x2 x3 s).2.2.2 := by
  rw [View.read_writes_eq_canon _ _ _ (coverC_3 c i arg2 harg2 arg3 harg3 arg4 harg4 arg5 harg5 arg6 harg6 arg7 harg7 arg8 harg8 arg9 harg9 arg10 harg10 hc0 hc1 x0 x1 x2 x3 s)]
  unfold kernelRun_C; dsimp only; sl_unfold_words
  rw [View.canon_unit_zero hz]
  simp only [View.readAt_eq_ld, Memref.IsWhole.read_unread, View.ld_unit_zero (S := S1024x1) hz, View.ld_unit_zero (S := S1024x128) hz, View.ld_unit_zero (S := S1x1024) hz]
  rfl

/-- A last column block: the scratch columns, at s, end at the update of s, and the output window's buffer, whatever it
    held, at the loss column of the updated columns. -/
theorem body_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 x1 : Vec F S1024x128 .bf16) (x2 : Vec F S1024x1 .i32) (x3 : Vec F S1x1024 .i32) (s : St F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (s).1 ∗ owns (c : Thread nD τ) arg8 fullShare (s).2.1 ∗ owns (c : Thread nD τ) arg9 fullShare (s).2.2.1 ∗ owns (c : Thread nD τ) arg10 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf (stepSt i x0 x1 x2 x3 s)) ∗ owns (c : Thread nD τ) arg7 fullShare (stepSt i x0 x1 x2 x3 s).1 ∗ owns (c : Thread nD τ) arg8 fullShare (stepSt i x0 x1 x2 x3 s).2.1 ∗ owns (c : Thread nD τ) arg9 fullShare (stepSt i x0 x1 x2 x3 s).2.2.1 ∗ owns (c : Thread nD τ) arg10 fullShare (stepSt i x0 x1 x2 x3 s).2.2.2) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9 arg10 harg10) K := by
  iintro ⟨H0, H1, H2, H3, H4, G0, G1, G2, G3, Hk⟩
  iapply ((kernelRun_C c i arg2 harg2 arg3 harg3 arg4 harg4 arg5 harg5 arg6 harg6 arg7 harg7 arg8 harg8 arg9 harg9 arg10 harg10 hc0 hc1 x0 x1 x2 x3 s.1 s.2.1 s.2.2.1 s.2.2.2).2.2.2.2.2 E K)
  isplitl [H0]; · iexact H0
  isplitl [H1]; · iexact H1
  isplitl [H2]; · iexact H2
  isplitl [H3]; · iexact H3
  isplitl [H4]; · iexact H4
  isplitl [G0]; · iexact G0
  isplitl [G1]; · iexact G1
  isplitl [G2]; · iexact G2
  isplitl [G3]; · iexact G3
  iintro ⟨H0, H1, H2, H3, ⟨%e4, H4⟩, ⟨%e0, G0⟩, ⟨%e1, G1⟩, ⟨%e2, G2⟩, ⟨%e3, G3⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact valC_O c i arg2 harg2 arg3 harg3 arg4 harg4 arg5 harg5 arg6 harg6 arg7 harg7 arg8 harg8 arg9 harg9 arg10 harg10 hc0 hc1 x0 x1 x2 x3 s _
  isplitl [G0]
  · unfold owns; iexists _; isplitr
    swap; · iexact G0
    ipureintro; exact valC_0 c i arg2 harg2 arg3 harg3 arg4 harg4 arg5 harg5 arg6 harg6 arg7 harg7 arg8 harg8 arg9 harg9 arg10 harg10 hc0 hc1 x0 x1 x2 x3 s _
  isplitl [G1]
  · unfold owns; iexists _; isplitr
    swap; · iexact G1
    ipureintro; exact valC_1 c i arg2 harg2 arg3 harg3 arg4 harg4 arg5 harg5 arg6 harg6 arg7 harg7 arg8 harg8 arg9 harg9 arg10 harg10 hc0 hc1 x0 x1 x2 x3 s _
  isplitl [G2]
  · unfold owns; iexists _; isplitr
    swap; · iexact G2
    ipureintro; exact valC_2 c i arg2 harg2 arg3 harg3 arg4 harg4 arg5 harg5 arg6 harg6 arg7 harg7 arg8 harg8 arg9 harg9 arg10 harg10 hc0 hc1 x0 x1 x2 x3 s _
  · unfold owns; iexists _; isplitr
    swap; · iexact G3
    ipureintro; exact valC_3 c i arg2 harg2 arg3 harg3 arg4 harg4 arg5 harg5 arg6 harg6 arg7 harg7 arg8 harg8 arg9 harg9 arg10 harg10 hc0 hc1 x0 x1 x2 x3 s _

end Cert.KernelIdeal.Hand

end
-- ==== Proof.KI.Frame.lean ====
/-
  The proof data of the one pipelined region, and the body obligation.

  'stAt n' is what the four scratch columns hold after the body at point n: the update of the reset when n is a first
  column block, else the update of what the point before left. The region invariant before point n + 1 holds the
  scratch columns at 'stAt n' (before the first point: at anything). The output window's staging buffer holds the loss
  column of 'stAt n' after a last column block, and is left as found elsewhere. The two windows that read the
  normalised features share one array: each holds half of it.
-/
import proofs.«179571_j37538014167620_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The four scratch columns after the body at point n. -/
def stAt (c : Dev nD) : (n : ℕ) → n < cfg0.N → St F
  | 0, hn => stepSt (grid0.coords ⟨0, hn⟩) (iblk m c 0 ⟨0, hn⟩) (iblk m c 1 ⟨0, hn⟩) (iblk m c 2 ⟨0, hn⟩) (iblk m c 3 ⟨0, hn⟩) resetSt
  | n + 1, hn => stepSt (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 8 = 0 then resetSt else stAt c n (Nat.lt_of_succ_lt hn))

/-- At a first column block: the update of the reset. -/
theorem stAt_first (c : Dev nD) (t : Fin cfg0.N) (h : t.val % 8 = 0) :
    stAt m c t.val t.isLt = stepSt (grid0.coords t) (iblk m c 0 t) (iblk m c 1 t) (iblk m c 2 t) (iblk m c 3 t) resetSt := by
  obtain ⟨n, hn⟩ := t
  cases n with
  | zero => rfl
  | succ n =>
    dsimp only at h ⊢
    rw [stAt, if_pos h]

/-- Elsewhere: the update of what the point before left. -/
theorem stAt_next (c : Dev nD) (t : Fin cfg0.N) (h : ¬t.val % 8 = 0) :
    stAt m c t.val t.isLt = stepSt (grid0.coords t) (iblk m c 0 t) (iblk m c 1 t) (iblk m c 2 t) (iblk m c 3 t)
      (stAt m c (t.val - 1) (Nat.lt_of_le_of_lt (Nat.sub_le _ _) t.isLt)) := by
  obtain ⟨n, hn⟩ := t
  cases n with
  | zero => exact absurd (Nat.zero_mod _) h
  | succ n =>
    dsimp only at h ⊢
    rw [stAt, if_neg h]
    rfl

/-- The region invariant before point n: before the first point the class's (every scratch column at anything);
    afterwards the four scratch columns at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r))

theorem PhiS_zero (c : Dev nD) (n : ℕ) (h : n ≤ cfg0.N) (hz : n = 0) : PhiS m c n h = Pipeline.ΦA spec0 c := by
  subst hz; rfl

/-- After point n (before point n + 1): the four scratch columns at that point's contents. -/
theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r)) := rfl

/-- Before a point that is not the first: the four scratch columns at what the point before left. -/
theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1
      ∗ owns (c : Thread nD τ) scM2 fullShare (stAt m c (n - 1) (by omega)).2.2.1 ∗ owns (c : Thread nD τ) scM3 fullShare (stAt m c (n - 1) (by omega)).2.2.2) ∗ (∃ r, prngReg c r)) := by
  cases n with
  | zero => exact absurd rfl hz
  | succ n => rfl

/-- The class's invariant with the four scratch columns as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The share of its array each input window holds: the two windows on the normalised features half each. -/
def qsh : Fin cfg0.W → PosShare TreeShare := fun
  | ⟨0, _⟩ => fullShare.left
  | ⟨1, _⟩ => fullShare.right
  | _ => fullShare

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (stAt m c t.val t.isLt)
  Φ t := PhiS m c t.val (Nat.le_of_lt_succ t.isLt)
  q := qsh
  owed _ := 0

theorem A_eq (c : Dev nD) (w : Fin cfg0.W) : (dats m 0 c).A w = V m c (Pipeline.arrRef spec0 w) := by
  dsimp only [dats]

theorem after4 (c : Dev nD) (t : Fin cfg0.N) : (dats m 0 c).after 4 t = outOf (stAt m c t.val t.isLt) := by dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves in each input window: its block. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-- An input window's current staging buffer holds its block at every point, fetched there or not, for any proof
    data whose array is the region's and whose body leaves the block in place: unfetched, the block index has not
    moved; the window is uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's number modulo 8 says which case it is in;
    the invariant hands the body the four scratch columns at what the point before left (at anything at a first
    column block) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_in 0 (by decide) t], after0]
  rw [show (dats m 0 c).leavesExact 1 t = owns (c : Thread nD τ) (ms1 t) fullShare ((dats m 0 c).after 1 t) from by
    unfold Dat.leavesExact; rw [liveAt_in 1 (by decide) t], after1]
  rw [show (dats m 0 c).leavesExact 2 t = owns (c : Thread nD τ) (ms2 t) fullShare ((dats m 0 c).after 2 t) from by
    unfold Dat.leavesExact; rw [liveAt_in 2 (by decide) t], after2]
  rw [show (dats m 0 c).leavesExact 3 t = owns (c : Thread nD τ) (ms3 t) fullShare ((dats m 0 c).after 3 t) from by
    unfold Dat.leavesExact; rw [liveAt_in 3 (by decide) t], after3]
  by_cases h0 : t.val % 8 = 0
  · have h1 : ¬t.val % 8 = 7 := by omega
    have hc0 : cond0 (grid0.coords t) := (hcond0 t).mpr h0
    have hc1 : ¬cond1 (grid0.coords t) := fun h => h1 ((hcond1 t).mp h)
    rw [Dat.leavesExact_idle (dats m 0 c) 4 t (idleAt_out t hc1) (noFlush_out t hc1)]
    rw [stAt_first m c t h0]
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_A c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_A c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · have hc0 : ¬cond0 (grid0.coords t) := fun h => h0 ((hcond0 t).mp h)
      have hc1 : cond1 (grid0.coords t) := (hcond1 t).mpr h1
      rw [show (dats m 0 c).leavesExact 4 t = owns (c : Thread nD τ) (ms4 t) fullShare ((dats m 0 c).after 4 t) from by
        unfold Dat.leavesExact; rw [liveAt_out t hc1], after4]
      rw [stAt_next m c t h0]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_C c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexact H4
    · have hc0 : ¬cond0 (grid0.coords t) := fun h => h0 ((hcond0 t).mp h)
      have hc1 : ¬cond1 (grid0.coords t) := fun h => h1 ((hcond1 t).mp h)
      rw [Dat.leavesExact_idle (dats m 0 c) 4 t (idleAt_out t hc1) (noFlush_out t hc1)]
      rw [stAt_next m c t h0]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (body_B c (grid0.coords t) (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _) scM3 (Memref.isWhole_whole _) hc0 hc1
        (iblk m c 0 t) (iblk m c 1 t) (iblk m c 2 t) (iblk m c 3 t) ((dats m 0 c).before 4 t d4) (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch columns' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

end Cert.KernelIdeal.Hand

end
-- ==== Proof.Spec.lean ====
/-
  The supervised contrastive loss of one row, computed in one sweep over column blocks and computed directly.

  For a row with scaled similarities s j to every column j, the loss is
      - ( Σ_j [p j] · ((s j - M) - log (L + ε)) ) / max 1 (Σ_j [p j]),
  where M is the largest s j, L = Σ_j [e j] · exp (s j - M), e j says "j is not the row itself" and p j says "j is a
  positive pair of the row" ('directFlat'). The sweep visits the columns block by block and keeps four numbers: the
  largest similarity so far, the sum of exponentials rescaled to it, the sum of the positive pairs' similarities and
  their count ('Acc', 'Acc.step'); at the end the loss is read off the four ('Acc.loss'). When every similarity is a
  real number the two agree ('sweep_loss_eq_directFlat'): rescaling the exponential sum by exp (old maximum - new
  maximum) keeps it equal to Σ [e j] · exp (s j - current maximum) over the columns seen, and
  Σ [p j] · ((s j - M) - c) = Σ [p j] · s j - (M + c) · Σ [p j].
-/
import Idealize.ShloMosaic.PureOps.Ideal
import Mathlib.Analysis.SpecialFunctions.Exp
import Mathlib.Analysis.SpecialFunctions.Log.Basic
import Mathlib.Data.EReal.Basic
import Mathlib.Data.EReal.Operations
import Mathlib.Algebra.BigOperators.Group.Finset.Basic
import Mathlib.Algebra.BigOperators.Ring.Finset
import Mathlib.Data.Finset.Lattice.Fold

noncomputable section

open scoped BigOperators

namespace Cert.SupCon

open Idealize.ShloMosaic

/-- What the sweep keeps for one row: the largest similarity seen, the exponential sum rescaled to it, the positive
    pairs' similarity sum, their count. -/
structure Acc where
  mx : EReal
  l : EReal
  ps : EReal
  ct : EReal

/-- Before the first block. -/
def Acc.init : Acc := ⟨⊥, 0, 0, 0⟩

/-- One block of W columns: similarities s, "not the row itself" e, "positive pair" p. -/
def Acc.step {W : ℕ} (a : Acc) (s : Fin W → EReal) (e p : Fin W → Bool) : Acc :=
  { mx := max a.mx ((Finset.univ : Finset (Fin W)).fold max ⊥ s)
    l := a.l * Ideal.exp (a.mx - max a.mx ((Finset.univ : Finset (Fin W)).fold max ⊥ s))
          + ∑ q : Fin W, (if e q then Ideal.exp (s q - max a.mx ((Finset.univ : Finset (Fin W)).fold max ⊥ s)) else 0)
    ps := a.ps + ∑ q : Fin W, (if p q then s q else 0)
    ct := a.ct + ∑ q : Fin W, (if p q then (1 : EReal) else 0) }

/-- The row's loss from the four numbers. -/
def Acc.loss (ε : EReal) (a : Acc) : EReal :=
  (-1) * Ideal.div (a.ps - (a.mx + Ideal.log (a.l + ε)) * a.ct) (max a.ct 1)

/-- The sweep over the first k blocks. -/
def sweep {W : ℕ} (s : ℕ → Fin W → EReal) (e p : ℕ → Fin W → Bool) : ℕ → Acc
  | 0 => Acc.init
  | k + 1 => (sweep s e p k).step (s k) (e k) (p k)

/-- The row's loss computed directly over all n columns. -/
def directFlat {n : ℕ} (ε : EReal) (s : Fin n → EReal) (e p : Fin n → Bool) : EReal :=
  (-1) * Ideal.div
    (∑ j : Fin n, (if p j then (1 : EReal) else 0)
      * ((s j - (Finset.univ : Finset (Fin n)).fold max ⊥ s)
          - Ideal.log ((∑ j' : Fin n, Ideal.exp (s j' - (Finset.univ : Finset (Fin n)).fold max ⊥ s) * (if e j' then (1 : EReal) else 0)) + ε)))
    (max 1 (∑ j : Fin n, (if p j then (1 : EReal) else 0)))

/-! ### Real numbers inside the extended reals -/

/-- Two states with the same four numbers are the same state. -/
theorem Acc.eq_of_fields {a b : Acc} (h1 : a.mx = b.mx) (h2 : a.l = b.l) (h3 : a.ps = b.ps) (h4 : a.ct = b.ct) :
    a = b := by
  cases a; cases b; simp_all

/-- The inclusion of the reals commutes with finite sums. -/
theorem coe_sum {ι : Type*} (J : Finset ι) (f : ι → ℝ) :
    ((∑ j ∈ J, f j : ℝ) : EReal) = ∑ j ∈ J, (f j : EReal) := by
  classical
  induction J using Finset.induction_on with
  | empty => simp
  | insert a J ha ih => rw [Finset.sum_insert ha, Finset.sum_insert ha, EReal.coe_add, ih]

/-- The running maximum written as a fold is the finite supremum. -/
theorem fold_max_eq_sup {ι : Type*} (J : Finset ι) (f : ι → EReal) : J.fold max ⊥ f = J.sup f := rfl

/-- The supremum of finitely many reals, over a nonempty index set, is a real. -/
theorem sup_coe_eq_coe {ι : Type*} (J : Finset ι) (hJ : J.Nonempty) (r : ι → ℝ) :
    J.sup (fun j => (r j : EReal)) = ((J.sup (fun j => (r j : EReal))).toReal : EReal) := by
  obtain ⟨j, hj⟩ := hJ
  refine (EReal.coe_toReal ?_ ?_).symm
  · refine ne_of_lt ?_
    rw [Finset.sup_lt_iff (bot_lt_top)]
    intro b _
    exact EReal.coe_lt_top _
  · refine ne_of_gt ?_
    exact lt_of_lt_of_le (EReal.bot_lt_coe (r j)) (Finset.le_sup (f := fun j => (r j : EReal)) hj)

/-- A masked sum of reals, taken in the extended reals, is the real masked sum. -/
theorem sum_ite_coe {ι : Type*} (J : Finset ι) (c : ι → Bool) (f : ι → ℝ) :
    ∑ j ∈ J, (if c j then (f j : EReal) else 0) = ((∑ j ∈ J, if c j then f j else 0 : ℝ) : EReal) := by
  rw [coe_sum]
  refine Finset.sum_congr rfl fun j _ => ?_
  split_ifs <;> simp

/-! ### The state of the sweep after the columns of a set J -/

section Rows

variable {n : ℕ} (r : Fin n → ℝ) (e p : Fin n → Bool)

/-- The largest similarity over J, as a real number. -/
def topOver (J : Finset (Fin n)) : ℝ := (J.sup fun j => (r j : EReal)).toReal

theorem sup_eq_topOver (J : Finset (Fin n)) (hJ : J.Nonempty) :
    (J.sup fun j => (r j : EReal)) = (topOver r J : EReal) :=
  sup_coe_eq_coe J hJ r

/-- The four numbers after the columns of J: the largest similarity, the exponential sum relative to it, the
    positive pairs' similarity sum and their count. -/
def st (J : Finset (Fin n)) : Acc :=
  ⟨J.sup fun j => (r j : EReal),
   ((∑ j ∈ J, if e j then Real.exp (r j - topOver r J) else 0 : ℝ) : EReal),
   ((∑ j ∈ J, if p j then r j else 0 : ℝ) : EReal),
   ((∑ j ∈ J, if p j then (1 : ℝ) else 0 : ℝ) : EReal)⟩

theorem st_empty : st r e p ∅ = Acc.init := by
  simp [st, Acc.init]

/-- Rescaling the exponential sum from the largest similarity over J to any real m'. -/
theorem rescale (J : Finset (Fin n)) (m' : ℝ) :
    ((∑ j ∈ J, if e j then Real.exp (r j - topOver r J) else 0 : ℝ) : EReal)
        * Ideal.exp ((J.sup fun j => (r j : EReal)) - (m' : EReal))
      = ((∑ j ∈ J, if e j then Real.exp (r j - m') else 0 : ℝ) : EReal) := by
  rcases J.eq_empty_or_nonempty with hJ | hJ
  · subst hJ; simp
  · rw [sup_eq_topOver r J hJ, ← EReal.coe_sub, Ideal.exp_coe, ← EReal.coe_mul, Finset.sum_mul]
    congr 1
    refine Finset.sum_congr rfl fun j _ => ?_
    split_ifs
    · rw [← Real.exp_add]; congr 1; ring
    · rw [zero_mul]

/-- A sum over J and a disjoint block is the sum over J plus the sum over the block. -/
theorem sum_union_block (J : Finset (Fin n)) {W : ℕ} (b : Fin W → Fin n) (hb : Function.Injective b)
    (hd : Disjoint J (Finset.univ.image b)) (f : Fin n → ℝ) :
    ∑ j ∈ J ∪ Finset.univ.image b, f j = ∑ j ∈ J, f j + ∑ q : Fin W, f (b q) := by
  rw [Finset.sum_union hd, Finset.sum_image fun x _ y _ h => hb h]

/-- One block of the sweep takes the state after J to the state after J and the block. -/
theorem st_step (J : Finset (Fin n)) {W : ℕ} (hW : 0 < W) (b : Fin W → Fin n) (hb : Function.Injective b)
    (hd : Disjoint J (Finset.univ.image b)) :
    (st r e p J).step (fun q => (r (b q) : EReal)) (fun q => e (b q)) (fun q => p (b q))
      = st r e p (J ∪ Finset.univ.image b) := by
  have hK : (Finset.univ.image b).Nonempty := ⟨b ⟨0, hW⟩, Finset.mem_image_of_mem _ (Finset.mem_univ _)⟩
  have hJK : (J ∪ Finset.univ.image b).Nonempty := hK.mono Finset.subset_union_right
  have hmx : max (J.sup fun j => (r j : EReal)) (Finset.univ.fold max ⊥ fun q => (r (b q) : EReal))
      = (J ∪ Finset.univ.image b).sup fun j => (r j : EReal) := by
    rw [fold_max_eq_sup, Finset.sup_union, Finset.sup_image]; rfl
  refine Acc.eq_of_fields ?_ ?_ ?_ ?_
  · exact hmx
  · simp only [Acc.step, st]
    rw [hmx, sup_eq_topOver r _ hJK, rescale]
    simp only [← EReal.coe_sub, Ideal.exp_coe]
    rw [sum_ite_coe Finset.univ (fun q => e (b q)) (fun q => Real.exp (r (b q) - topOver r (J ∪ Finset.univ.image b))),
      ← EReal.coe_add, sum_union_block J b hb hd]
  · simp only [Acc.step, st]
    rw [sum_ite_coe Finset.univ (fun q => p (b q)) (fun q => r (b q)), ← EReal.coe_add, sum_union_block J b hb hd]
  · simp only [Acc.step, st]
    rw [← EReal.coe_one, sum_ite_coe Finset.univ (fun q => p (b q)) (fun _ => (1 : ℝ)), ← EReal.coe_add,
      sum_union_block J b hb hd]

end Rows

/-! ### The blocks of columns -/

section Blocks

variable {B W : ℕ}

/-- The columns of the first k blocks. -/
def cols (B W k : ℕ) : Finset (Fin (B * W)) := Finset.univ.filter fun j => j.val < k * W

theorem cols_zero : cols B W 0 = ∅ := by
  simp [cols]

theorem cols_all : cols B W B = Finset.univ := by
  ext j; simp [cols, j.isLt]

variable (blk : ℕ → Fin W → Fin (B * W)) (hblk : ∀ k, k < B → ∀ q : Fin W, (blk k q).val = k * W + q.val)

include hblk

theorem blk_injective (k : ℕ) (hk : k < B) : Function.Injective (blk k) := by
  intro q q' h
  have h' := congrArg Fin.val h
  rw [hblk k hk, hblk k hk] at h'
  exact Fin.ext (by omega)

/-- The first k + 1 blocks are the first k blocks and block k. -/
theorem cols_succ (k : ℕ) (hk : k < B) : cols B W (k + 1) = cols B W k ∪ Finset.univ.image (blk k) := by
  have hkW : (k + 1) * W = k * W + W := by ring
  ext j
  simp only [cols, Finset.mem_filter, Finset.mem_univ, true_and, Finset.mem_union, Finset.mem_image]
  constructor
  · intro h
    by_cases h' : j.val < k * W
    · exact Or.inl h'
    · right
      have hq : j.val - k * W < W := by omega
      refine ⟨⟨j.val - k * W, hq⟩, Fin.ext ?_⟩
      rw [hblk k hk]
      show k * W + (j.val - k * W) = j.val
      omega
  · rintro (h | ⟨q, rfl⟩)
    · omega
    · rw [hblk k hk]
      have := q.isLt
      omega

theorem cols_disjoint (k : ℕ) (hk : k < B) : Disjoint (cols B W k) (Finset.univ.image (blk k)) := by
  rw [Finset.disjoint_left]
  intro j hj hj'
  simp only [cols, Finset.mem_filter, Finset.mem_univ, true_and] at hj
  obtain ⟨q, _, rfl⟩ := Finset.mem_image.mp hj'
  rw [hblk k hk] at hj
  omega

/-- After k blocks the sweep holds the four numbers of the columns of those blocks. -/
theorem sweep_eq_st (hW : 0 < W) (r : Fin (B * W) → ℝ) (e p : Fin (B * W) → Bool) (k : ℕ) (hk : k ≤ B) :
    sweep (fun k q => (r (blk k q) : EReal)) (fun k q => e (blk k q)) (fun k q => p (blk k q)) k
      = st r e p (cols B W k) := by
  induction k with
  | zero => rw [cols_zero, st_empty]; rfl
  | succ k ih =>
    have hk' : k < B := hk
    rw [cols_succ blk hblk k hk', ← st_step r e p _ hW (blk k) (blk_injective blk hblk k hk')
      (cols_disjoint blk hblk k hk'), ← ih (le_of_lt hk')]
    rfl

end Blocks

/-! ### Reading the loss off the final state -/

/-- Σ [p j] · ((r j - m) - c) = Σ [p j] · r j - (m + c) · Σ [p j]. -/
theorem sum_pos_sub {n : ℕ} (r : Fin n → ℝ) (p : Fin n → Bool) (m c : ℝ) :
    (∑ j : Fin n, if p j then r j - m - c else 0)
      = (∑ j : Fin n, if p j then r j else 0) - (m + c) * ∑ j : Fin n, if p j then (1 : ℝ) else 0 := by
  rw [Finset.mul_sum, ← Finset.sum_sub_distrib]
  refine Finset.sum_congr rfl fun j _ => ?_
  split_ifs <;> ring

/-- The loss read off the state after all columns is the direct loss. -/
theorem loss_st_univ {n : ℕ} (hn : 0 < n) (r : Fin n → ℝ) (e p : Fin n → Bool) (ε₀ : ℝ) (hε : 0 < ε₀) :
    (st r e p Finset.univ).loss (ε₀ : EReal) = directFlat (ε₀ : EReal) (fun j => (r j : EReal)) e p := by
  have hne : (Finset.univ : Finset (Fin n)).Nonempty := ⟨⟨0, hn⟩, Finset.mem_univ _⟩
  have hsup := sup_eq_topOver r Finset.univ hne
  simp only [Acc.loss, st, directFlat, fold_max_eq_sup]
  rw [hsup]
  generalize topOver r Finset.univ = m
  have hL : 0 ≤ ∑ j : Fin n, if e j then Real.exp (r j - m) else 0 :=
    Finset.sum_nonneg fun j _ => by split_ifs <;> positivity
  have hlog : Ideal.log (((∑ j : Fin n, if e j then Real.exp (r j - m) else 0 : ℝ) : EReal) + (ε₀ : EReal))
      = ((Real.log ((∑ j : Fin n, if e j then Real.exp (r j - m) else 0) + ε₀) : ℝ) : EReal) := by
    rw [← EReal.coe_add, Ideal.log_coe, if_neg (by linarith)]
  have hexp : ∀ j : Fin n, Ideal.exp ((r j : EReal) - (m : EReal)) * (if e j then (1 : EReal) else 0)
      = if e j then ((Real.exp (r j - m) : ℝ) : EReal) else 0 := by
    intro j; split_ifs <;> simp [← EReal.coe_sub]
  have hct : ∑ j : Fin n, (if p j then (1 : EReal) else 0) = ((∑ j : Fin n, if p j then (1 : ℝ) else 0 : ℝ) : EReal) := by
    rw [← EReal.coe_one, sum_ite_coe Finset.univ p fun _ => (1 : ℝ)]
  simp only [hexp, hct]
  rw [sum_ite_coe Finset.univ e fun j => Real.exp (r j - m), hlog]
  generalize Real.log ((∑ j : Fin n, if e j then Real.exp (r j - m) else 0) + ε₀) = c
  have hterm : ∀ j : Fin n, (if p j then (1 : EReal) else 0) * (((r j : EReal) - (m : EReal)) - (c : EReal))
      = if p j then ((r j - m - c : ℝ) : EReal) else 0 := by
    intro j; split_ifs <;> simp [← EReal.coe_sub]
  simp only [hterm]
  rw [sum_ite_coe Finset.univ p fun j => r j - m - c, sum_pos_sub, ← EReal.coe_add, ← EReal.coe_mul, ← EReal.coe_sub,
    max_comm]

/-- The sweep over B blocks of W columns gives the direct loss, when every similarity is a real number and ε a
    positive real. -/
theorem sweep_loss_eq_directFlat {B W : ℕ} (hB : 0 < B) (hW : 0 < W) (ε : EReal) (hε : ∃ r : ℝ, 0 < r ∧ ε = (r : EReal))
    (s : Fin (B * W) → EReal) (e p : Fin (B * W) → Bool) (hs : ∀ j, ∃ r : ℝ, s j = (r : EReal))
    (blk : ℕ → Fin W → Fin (B * W)) (hblk : ∀ k, k < B → ∀ q : Fin W, (blk k q).val = k * W + q.val) :
    (sweep (fun k q => s (blk k q)) (fun k q => e (blk k q)) (fun k q => p (blk k q)) B).loss ε = directFlat ε s e p := by
  obtain ⟨ε₀, hε₀, rfl⟩ := hε
  choose r hr using hs
  obtain rfl : s = fun j => (r j : EReal) := funext hr
  have h := sweep_eq_st blk hblk hW r e p B le_rfl
  rw [cols_all] at h
  exact (congrArg (Acc.loss (ε₀ : EReal)) h).trans (loss_st_univ (Nat.mul_pos hB hW) r e p ε₀ hε₀)

end Cert.SupCon

end
-- ==== Proof.Model.lean ====
/-
  The loss as a function of the two arguments: the features x0 (4096 samples, 2 views, 128 coordinates) and the
  labels x1 (4096 integers).

  Row r of the 8192 feature rows is sample r / 2, view r % 2 (the row-major flattening). A row is divided by the
  larger of its Euclidean norm and 1e-12 ('Nf'). The scaled similarity of rows r and j is their dot product divided
  by the temperature 0.07 as the 32-bit float holds it ('Sim'). Row r's label is the label of sample r % 4096 (the
  labels laid end to end twice); columns j other than r itself count in the exponential sum ('Ex'), those among them
  with r's label are its positive pairs ('Pos'). The loss is the mean over the 8192 rows of the row loss
  'Cert.SupCon.directFlat' ('lossMean').
-/
import proofs.«179571_j37538014167620_1_alg».proof.Proof.Spec
import Idealize.ShloMosaic.Lib.ValueIdx

noncomputable section

open scoped BigOperators

namespace Cert.SupCon

open Idealize.ShloMosaic Idealize.ShloMosaic.ValueIdx

/-- The features, an extended real per (sample, view, coordinate). -/
abbrev Feat : Type := (⟨3, ![4096, 2, 128]⟩ : Shape).Idx → EReal
/-- The labels, a 32-bit word per sample. -/
abbrev Lab : Type := (⟨1, ![4096]⟩ : Shape).Idx → BitVec 32

/-- 1e-12 as the 32-bit float holds it: the floor of a row's norm, and the ε inside the logarithm. -/
def eps12 : EReal := Ideal.ofBits .f32 0x2B8CBCCC#32
/-- The temperature 0.07 as the 32-bit float holds it. -/
def temp : EReal := Ideal.ofBits .f32 0x3D8F5C29#32
/-- The number of rows, 8192. -/
def nRows : EReal := Ideal.ofBits .f32 0x46000000#32

/-- Row r, coordinate d of the flattened features. -/
def Row (x0 : Feat) (r : Fin 8192) (d : Fin 128) : EReal :=
  x0 (ix3 (⟨r.val / 2, by have := r.isLt; omega⟩ : Fin 4096) (⟨r.val % 2, Nat.mod_lt _ (by decide)⟩ : Fin 2) d)

/-- The row divided by the larger of 1e-12 and its norm. -/
def Nf (x0 : Feat) (r : Fin 8192) (d : Fin 128) : EReal :=
  Ideal.div (Row x0 r d) (max eps12 (Ideal.sqrt (0 + ∑ k : Fin 128, Row x0 r k * Row x0 r k)))

/-- The scaled similarity of rows r and j. -/
def Sim (x0 : Feat) (r j : Fin 8192) : EReal := Ideal.div (∑ k : Fin 128, Nf x0 r k * Nf x0 j k) temp

/-- "Column j is not row r itself." -/
def Ex (r j : Fin 8192) : Bool := decide (r ≠ j)

/-- Row r's label: that of sample r % 4096. -/
def labelOf (x1 : Lab) (r : Fin 8192) : BitVec 32 := x1 (ix1 (⟨r.val % 4096, Nat.mod_lt _ (by decide)⟩ : Fin 4096))

/-- "Column j is a positive pair of row r": same label, and not r itself. -/
def Pos (x1 : Lab) (r j : Fin 8192) : Bool := decide (labelOf x1 r = labelOf x1 j) && decide (r ≠ j)

/-- Row r's loss. -/
def rowLoss (x0 : Feat) (x1 : Lab) (r : Fin 8192) : EReal := directFlat eps12 (Sim x0 r) (Ex r) (Pos x1 r)

/-- The mean of the row losses. -/
def lossMean (x0 : Feat) (x1 : Lab) : EReal := Ideal.div (0 + ∑ r : Fin 8192, rowLoss x0 x1 r) nRows

/-- The temperature is the real number 9395241 / 2^27. -/
theorem temp_eq : temp = ((9395241 / 134217728 : ℝ) : EReal) := by
  simp [temp, Ideal.ofBits, Ideal.ieee, -EReal.coe_mul]; norm_num

/-- 1e-12 as the float holds it is the real number 9223372 / 2^63. -/
theorem eps12_eq : eps12 = ((9223372 / 9223372036854775808 : ℝ) : EReal) := by
  simp [eps12, Ideal.ofBits, Ideal.ieee, -EReal.coe_mul]; norm_num

/-- 1e-12 as the float holds it is a positive real. -/
theorem eps12_pos : ∃ r : ℝ, 0 < r ∧ eps12 = (r : EReal) :=
  ⟨9223372 / 9223372036854775808, by norm_num, eps12_eq⟩

/-- A real divided by a nonzero real is a real. -/
theorem div_coe_coe (a b : ℝ) (hb : b ≠ 0) : Ideal.div (a : EReal) (b : EReal) = ((a * (1 / b) : ℝ) : EReal) := by
  rw [Ideal.div_coe hb, EReal.coe_mul]

/-- The larger of two reals, taken in the extended reals, is the real maximum. -/
theorem max_coe_coe (a b : ℝ) : max (a : EReal) (b : EReal) = ((max a b : ℝ) : EReal) :=
  (EReal.coe_strictMono.monotone.map_max).symm

/-- The sum of the products of two real rows is a real. -/
theorem sum_mul_coe {N : ℕ} (a b : Fin N → ℝ) :
    ∑ k : Fin N, (a k : EReal) * (b k : EReal) = ((∑ k : Fin N, a k * b k : ℝ) : EReal) := by
  rw [coe_sum]
  exact Finset.sum_congr rfl fun k _ => (EReal.coe_mul _ _).symm

/-- When every feature is a real number, so is every coordinate of every normalized row. -/
theorem Nf_real (x0 : Feat) (hx : ∀ i, ∃ v : ℝ, x0 i = (v : EReal)) (r : Fin 8192) (d : Fin 128) :
    ∃ w : ℝ, Nf x0 r d = (w : EReal) := by
  obtain ⟨ε, hε, hεeq⟩ := eps12_pos
  have hRow : ∀ k : Fin 128, ∃ u : ℝ, Row x0 r k = (u : EReal) := fun k => hx _
  choose R hRow' using hRow
  have hsq : 0 ≤ ∑ k : Fin 128, R k * R k := Finset.sum_nonneg fun k _ => mul_self_nonneg _
  have hmax : max ε (Real.sqrt (∑ k : Fin 128, R k * R k)) ≠ 0 := (lt_of_lt_of_le hε (le_max_left _ _)).ne'
  refine ⟨R d * (1 / max ε (Real.sqrt (∑ k : Fin 128, R k * R k))), ?_⟩
  unfold Nf
  simp only [hRow']
  rw [sum_mul_coe, zero_add, Ideal.sqrt_coe, if_neg (not_lt.mpr hsq), hεeq, max_coe_coe, div_coe_coe _ _ hmax]

/-- When every feature is a real number, so is every scaled similarity. -/
theorem Sim_real (x0 : Feat) (hx : ∀ i, ∃ v : ℝ, x0 i = (v : EReal)) (r j : Fin 8192) : ∃ v : ℝ, Sim x0 r j = (v : EReal) := by
  choose w hw using Nf_real x0 hx
  refine ⟨(∑ k : Fin 128, w r k * w j k) * (1 / (9395241 / 134217728)), ?_⟩
  unfold Sim
  simp only [hw]
  rw [sum_mul_coe, temp_eq, div_coe_coe _ _ (by norm_num)]

end Cert.SupCon

end
-- ==== Proof.KI.ValHost.lean ====
/-
  What the region finds in its three input arrays, read at an index: the normalised features and the tiled labels.
-/
import proofs.«179571_j37538014167620_1_alg».proof.Proof.KI.Data
import proofs.«179571_j37538014167620_1_alg».proof.Proof.Model
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon
open scoped BigOperators

variable (m : (ℓ : Loc nD τ sig) → Buf (Elt Ideal) ℓ)

/-! ## The normalised features -/

/-- The features as 8192 rows of 128. -/
abbrev rows (x0 : (⟨S4096x2x128, .f32⟩ : BufTy).Contents (Elt Ideal)) : (⟨S8192x128, .f32⟩ : BufTy).Contents (Elt Ideal) :=
  shapeCast S8192x128 x0 shapeCasts_S4096x2x128_S8192x128

/-- Row r, coordinate d is sample r / 2, view r % 2, coordinate d. -/
theorem rows_apply (x0 : (⟨S4096x2x128, .f32⟩ : BufTy).Contents (Elt Ideal)) (r : Fin 8192) (d : Fin 128) :
    rows x0 (ix2 r d) = Row x0 r d := by
  have hr : r.val < 8192 := r.isLt
  unfold rows Row
  exact shapeCast_apply x0 shapeCasts_S4096x2x128_S8192x128 (ix2 r d)
    (ix3 (⟨r.val / 2, by omega⟩ : Fin 4096) (⟨r.val % 2, Nat.mod_lt _ (by decide)⟩ : Fin 2) d)
    (by rw [Shape.rowMajor_val_three, Shape.rowMajor_val_two]
        show (r.val / 2 * 2 + r.val % 2) * 128 + d.val = r.val * 128 + d.val
        omega)

/-- Each row's sum of squares, from zero. -/
abbrev sumSq (x0 : (⟨S4096x2x128, .f32⟩ : BufTy).Contents (Elt Ideal)) : (⟨S8192, .f32⟩ : BufTy).Contents (Elt Ideal) :=
  Host.reduceAdd (F := Ideal) (mulf (rows x0) (rows x0)) (constant (F := Ideal) S_ .f32 0x00000000#32) reducesTo_S8192x128_S8192_d1 h_S_

/-- Row r's sum of squares: zero plus the sum over the 128 coordinates. -/
theorem sumSq_apply (x0 : (⟨S4096x2x128, .f32⟩ : BufTy).Contents (Elt Ideal)) (r : Fin 8192) :
    sumSq x0 (ix1 r) = 0 + ∑ k : Fin 128, Row x0 r k * Row x0 r k := by
  unfold sumSq
  simp only [Host.reduceAdd, Ideal.hostReduceAdd_def]
  rw [Ideal.hostReduceAdd_single reducesTo_S8192x128_S8192_d1 (by decide)]
  refine congrArg₂ (· + ·) Ideal.ofBits_zero_f32 (Finset.sum_congr rfl fun (k : Fin 128) _ => ?_)
  have hk : (Shape.Reduces.lift (by decide : S8192x128.Reduces [1] S8192) (ix1 r) k : S8192x128.Idx) = ix2 r k :=
    funext fun a => Fin.ext (by match a with | ⟨0, _⟩ => rfl | ⟨1, _⟩ => rfl)
  show rows x0 _ * rows x0 _ = _
  rw [hk, rows_apply]

/-- Each row's norm, floored at 1e-12. -/
abbrev floorNorm (x0 : (⟨S4096x2x128, .f32⟩ : BufTy).Contents (Elt Ideal)) : (⟨S8192x1, .f32⟩ : BufTy).Contents (Elt Ideal) :=
  maximumf (F := Ideal)
    (broadcastInDim S8192x1 ![] bcast_S_S8192x1 (id (constant (F := Ideal) S_ .f32 0x2B8CBCCC#32)))
    (Host.sqrt (F := Ideal) (broadcastInDim S8192x1 ![0] bcast_S8192_S8192x1_0 (sumSq x0)))

/-- Row r's floored norm: the larger of 1e-12 and the square root of its sum of squares. -/
theorem floorNorm_apply (x0 : (⟨S4096x2x128, .f32⟩ : BufTy).Contents (Elt Ideal)) (r : Fin 8192) :
    floorNorm x0 (ix2 r (0 : Fin 1)) = max eps12 (Ideal.sqrt (0 + ∑ k : Fin 128, Row x0 r k * Row x0 r k)) := by
  unfold floorNorm
  show max (broadcastInDim S8192x1 ![] bcast_S_S8192x1 (id (constant (F := Ideal) S_ .f32 0x2B8CBCCC#32)) (ix2 r (0 : Fin 1)))
      (Ideal.sqrt (broadcastInDim S8192x1 ![0] bcast_S8192_S8192x1_0 (sumSq x0) (ix2 r (0 : Fin 1)))) = _
  rw [broadcastInDim_apply _ bcast_S_S8192x1 _ (ix2 r (0 : Fin 1)) ix0 (fun a => a.elim0)]
  rw [broadcastInDim_apply _ bcast_S8192_S8192x1_0 _ (ix2 r (0 : Fin 1)) (ix1 r)
    (fun a => match a with
      | ⟨0, _⟩ => by show r.val = if (8192 : Nat) = 1 then 0 else r.val; rw [if_neg (by decide)])]
  rw [sumSq_apply]
  rfl

/-- The rows divided by their floored norms. -/
abbrev normalised (x0 : (⟨S4096x2x128, .f32⟩ : BufTy).Contents (Elt Ideal)) : (⟨S8192x128, .bf16⟩ : BufTy).Contents (Elt Ideal) :=
  truncf (F := Ideal) .bf16
    (Host.divf (F := Ideal) (rows x0) (broadcastInDim S8192x128 ![0, 1] bcast_S8192x1_S8192x128_0_1 (floorNorm x0)))
    bitsLt_bf16_f32

/-- Row r, coordinate d of the normalised rows. -/
theorem normalised_apply (x0 : (⟨S4096x2x128, .f32⟩ : BufTy).Contents (Elt Ideal)) (r : Fin 8192) (d : Fin 128) :
    normalised x0 (ix2 r d) = Nf x0 r d := by
  unfold normalised Nf
  show Ideal.div (rows x0 (ix2 r d))
      (broadcastInDim S8192x128 ![0, 1] bcast_S8192x1_S8192x128_0_1 (floorNorm x0) (ix2 r d)) = _
  rw [broadcastInDim_apply _ bcast_S8192x1_S8192x128_0_1 _ (ix2 r d) (ix2 r (0 : Fin 1))
    (fun a => match a with
      | ⟨0, _⟩ => by show r.val = if (8192 : Nat) = 1 then 0 else r.val; rw [if_neg (by decide)]
      | ⟨1, _⟩ => by show 0 = if (1 : Nat) = 1 then 0 else d.val; rw [if_pos rfl])]
  rw [rows_apply, floorNorm_apply]

/-- What the operations leave in the features array. -/
theorem V_main_v8 (c : Dev nD) :
    (V (F := Ideal) m c main_v8 : S8192x128.Idx → EReal) = normalised (m ((c.tc : Thread nD τ).loc main_arg0)) := by
  dsimp only [V, V0]
  simp only [hostOps0, hostOps0_1, hostOps0_2, List.flatten_cons, List.flatten_nil, List.append_nil, List.cons_append, List.nil_append]
  after_results
  rfl

/-! ## The labels, tiled twice -/

/-- The labels laid end to end twice, as the operations build them: a row of 4096, repeated in two rows, read as 8192. -/
abbrev tiled (x1 : S4096.Idx → BitVec 32) : S8192.Idx → BitVec 32 :=
  shapeCast S8192
    (broadcastInDim S2x4096 ![0, 1] bcast_S1x4096_S2x4096_0_1 (shapeCast S1x4096 x1 shapeCasts_S4096_S1x4096))
    shapeCasts_S2x4096_S8192

/-- Entry r of the tiled labels is the label of sample r % 4096. -/
theorem tiled_apply (x1 : S4096.Idx → BitVec 32) (r : Fin 8192) :
    tiled x1 (ix1 r) = x1 (ix1 (⟨r.val % 4096, Nat.mod_lt _ (by decide)⟩ : Fin 4096)) := by
  have hr : r.val < 8192 := r.isLt
  unfold tiled
  rw [shapeCast_apply _ shapeCasts_S2x4096_S8192 (ix1 r)
    (ix2 (⟨r.val / 4096, by omega⟩ : Fin 2) (⟨r.val % 4096, Nat.mod_lt _ (by decide)⟩ : Fin 4096))
    (by rw [Shape.rowMajor_val_two, Shape.rowMajor_val_one]
        show r.val / 4096 * 4096 + r.val % 4096 = r.val
        omega)]
  rw [broadcastInDim_apply _ bcast_S1x4096_S2x4096_0_1 _ _
    (ix2 (0 : Fin 1) (⟨r.val % 4096, Nat.mod_lt _ (by decide)⟩ : Fin 4096))
    (fun a => match a with
      | ⟨0, _⟩ => by show 0 = if (1 : Nat) = 1 then 0 else r.val / 4096; rw [if_pos rfl]
      | ⟨1, _⟩ => by show r.val % 4096 = if (4096 : Nat) = 1 then 0 else r.val % 4096; rw [if_neg (by decide)])]
  exact shapeCast_apply x1 shapeCasts_S4096_S1x4096 _ (ix1 (⟨r.val % 4096, Nat.mod_lt _ (by decide)⟩ : Fin 4096))
    (by rw [Shape.rowMajor_val_two, Shape.rowMajor_val_one]
        show r.val % 4096 = 0 * 4096 + r.val % 4096
        omega)

/-- The tiled labels as a column, at row r. -/
theorem tiledCol_apply (y : S8192.Idx → BitVec 32) (r : Fin 8192) :
    shapeCast S8192x1 y shapeCasts_S8192_S8192x1 (ix2 r (0 : Fin 1)) = y (ix1 r) :=
  shapeCast_apply y shapeCasts_S8192_S8192x1 _ (ix1 r)
    (by rw [Shape.rowMajor_val_two, Shape.rowMajor_val_one]
        show r.val = r.val * 1 + 0
        omega)

/-- The tiled labels as a row, at column j. -/
theorem tiledRow_apply (y : S8192.Idx → BitVec 32) (j : Fin 8192) :
    shapeCast S1x8192 y shapeCasts_S8192_S1x8192 (ix2 (0 : Fin 1) j) = y (ix1 j) :=
  shapeCast_apply y shapeCasts_S8192_S1x8192 _ (ix1 j)
    (by rw [Shape.rowMajor_val_two, Shape.rowMajor_val_one]
        show j.val = 0 * 8192 + j.val
        omega)

/-- What the operations leave in the label column. -/
theorem V_main_v12 (c : Dev nD) :
    (V (F := Ideal) m c main_v12 : S8192x1.Idx → BitVec 32)
      = shapeCast S8192x1 (tiled (m ((c.tc : Thread nD τ).loc main_arg1))) shapeCasts_S8192_S8192x1 := by
  dsimp only [V, V0]
  simp only [hostOps0, hostOps0_1, hostOps0_2, List.flatten_cons, List.flatten_nil, List.append_nil, List.cons_append, List.nil_append]
  after_results
  rfl

/-- What the operations leave in the label row. -/
theorem V_main_v13 (c : Dev nD) :
    (V (F := Ideal) m c main_v13 : S1x8192.Idx → BitVec 32)
      = shapeCast S1x8192 (tiled (m ((c.tc : Thread nD τ).loc main_arg1))) shapeCasts_S8192_S1x8192 := by
  dsimp only [V, V0]
  simp only [hostOps0, hostOps0_1, hostOps0_2, List.flatten_cons, List.flatten_nil, List.append_nil, List.cons_append, List.nil_append]
  after_results
  rfl

/-! ## The three buffers read at an index -/

/-- The features array the two feature windows read holds the normalised rows. -/
theorem V_feat (c : Dev nD) (r : Fin 8192) (d : Fin 128) :
    V (F := Ideal) m c main_v8 (ix2 r d) = Nf (m ((c.tc : Thread nD τ).loc main_arg0)) r d := by
  have e := congrFun (V_main_v8 m c) (ix2 r d)
  rw [normalised_apply] at e
  exact e

/-- The label column holds each row's label. -/
theorem V_labCol (c : Dev nD) (r : Fin 8192) :
    V (F := Ideal) m c main_v12 (ix2 r (0 : Fin 1)) = labelOf (m ((c.tc : Thread nD τ).loc main_arg1)) r := by
  have e := congrFun (V_main_v12 m c) (ix2 r (0 : Fin 1))
  rw [tiledCol_apply, tiled_apply] at e
  exact e

/-- The label row holds each column's label. -/
theorem V_labRow (c : Dev nD) (j : Fin 8192) :
    V (F := Ideal) m c main_v13 (ix2 (0 : Fin 1) j) = labelOf (m ((c.tc : Thread nD τ).loc main_arg1)) j := by
  have e := congrFun (V_main_v13 m c) (ix2 (0 : Fin 1) j)
  rw [tiledRow_apply, tiled_apply] at e
  exact e

end Cert.KernelIdeal.Hand

end
-- ==== Proof.KI.ValBlocks.lean ====
/-
  The four input blocks of a grid point, read at an index of the arrays they are blocks of.

  Point t is row block t / 8 and column block t % 8. The row-feature block holds rows 1024 · (t / 8) + p, the
  column-feature block rows 1024 · (t % 8) + q; the label column's block and the label row's block likewise.
-/
import proofs.«179571_j37538014167620_1_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- Row 1024 · (t / 8) + p as an index of the 8192 rows. -/
def rowIx (t : Fin cfg0.N) (p : Fin 1024) : Fin 8192 := ⟨(1024 * (t.val / 8) + p.val) % 8192, Nat.mod_lt _ (by decide)⟩
/-- Column 1024 · (t % 8) + q as an index of the 8192 columns. -/
def colIx (t : Fin cfg0.N) (q : Fin 1024) : Fin 8192 := ⟨(1024 * (t.val % 8) + q.val) % 8192, Nat.mod_lt _ (by decide)⟩

theorem rowIx_val (t : Fin cfg0.N) (p : Fin 1024) : (rowIx t p).val = 1024 * (t.val / 8) + p.val := by
  have ht : t.val < 64 := t.isLt
  have hp : p.val < 1024 := p.isLt
  show (1024 * (t.val / 8) + p.val) % 8192 = _
  omega
theorem colIx_val (t : Fin cfg0.N) (q : Fin 1024) : (colIx t q).val = 1024 * (t.val % 8) + q.val := by
  have ht : t.val < 64 := t.isLt
  have hq : q.val < 1024 := q.isLt
  show (1024 * (t.val % 8) + q.val) % 8192 = _
  omega

/-- The grid coordinates of point t. -/
theorem coords_val (t : Fin cfg0.N) : ((grid0.coords t) 0).val = t.val / 8 ∧ ((grid0.coords t) 1).val = t.val % 8 := by
  exact (by decide +kernel : ∀ t : Fin grid0.N, ((grid0.coords t) 0).val = t.val / 8 ∧ ((grid0.coords t) 1).val = t.val % 8) t

/-- The block indices of the four input windows at point t: the row-feature and row-label windows move with the row
    block t / 8, the column-feature and column-label windows with the column block t % 8; the other axis stays at 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-! A block's element sits in the array, on each axis, at block index × block size + 1 × its coordinate inside the block. -/

theorem iblk0_apply (c : Dev nD) (t : Fin cfg0.N) (p : Fin 1024) (d : Fin 128) :
    (iblk (F := Ideal) m c 0 t : Vec Ideal S1024x128 .bf16) (ix2 p d) = V (F := Ideal) m c main_v8 (ix2 (rowIx t p) d) := by
  show V (F := Ideal) m c main_v8 (((cfg0.win 0).blk t).view.emb (ix2 p d)) = V (F := Ideal) m c main_v8 (ix2 (rowIx t p) d)
  obtain ⟨e00, e01, e10, e11, e20, e21, e30, e31⟩ := idx_facts t
  have hr := rowIx_val t p
  refine congrArg _ ?_
  funext a; apply Fin.ext
  match a with
  | ⟨0, _⟩ => show win0_0.index t (0 : Fin 2) * 1024 + 1 * p.val = (rowIx t p).val; omega
  | ⟨1, _⟩ => show win0_0.index t (1 : Fin 2) * 128 + 1 * d.val = d.val; omega
theorem iblk1_apply (c : Dev nD) (t : Fin cfg0.N) (q : Fin 1024) (d : Fin 128) :
    (iblk (F := Ideal) m c 1 t : Vec Ideal S1024x128 .bf16) (ix2 q d) = V (F := Ideal) m c main_v8 (ix2 (colIx t q) d) := by
  show V (F := Ideal) m c main_v8 (((cfg0.win 1).blk t).view.emb (ix2 q d)) = V (F := Ideal) m c main_v8 (ix2 (colIx t q) d)
  obtain ⟨e00, e01, e10, e11, e20, e21, e30, e31⟩ := idx_facts t
  have hr := colIx_val t q
  refine congrArg _ ?_
  funext a; apply Fin.ext
  match a with
  | ⟨0, _⟩ => show win0_1.index t (0 : Fin 2) * 1024 + 1 * q.val = (colIx t q).val; omega
  | ⟨1, _⟩ => show win0_1.index t (1 : Fin 2) * 128 + 1 * d.val = d.val; omega
theorem iblk2_apply (c : Dev nD) (t : Fin cfg0.N) (p : Fin 1024) :
    (iblk (F := Ideal) m c 2 t : Vec Ideal S1024x1 .i32) (ix2 p (0 : Fin 1)) = V (F := Ideal) m c main_v12 (ix2 (rowIx t p) (0 : Fin 1)) := by
  show V (F := Ideal) m c main_v12 (((cfg0.win 2).blk t).view.emb (ix2 p (0 : Fin 1))) = V (F := Ideal) m c main_v12 (ix2 (rowIx t p) (0 : Fin 1))
  obtain ⟨e00, e01, e10, e11, e20, e21, e30, e31⟩ := idx_facts t
  have hr := rowIx_val t p
  refine congrArg _ ?_
  funext a; apply Fin.ext
  match a with
  | ⟨0, _⟩ => show win0_2.index t (0 : Fin 2) * 1024 + 1 * p.val = (rowIx t p).val; omega
  | ⟨1, _⟩ => show win0_2.index t (1 : Fin 2) * 1 + 1 * 0 = 0; omega
theorem iblk3_apply (c : Dev nD) (t : Fin cfg0.N) (q : Fin 1024) :
    (iblk (F := Ideal) m c 3 t : Vec Ideal S1x1024 .i32) (ix2 (0 : Fin 1) q) = V (F := Ideal) m c main_v13 (ix2 (0 : Fin 1) (colIx t q)) := by
  show V (F := Ideal) m c main_v13 (((cfg0.win 3).blk t).view.emb (ix2 (0 : Fin 1) q)) = V (F := Ideal) m c main_v13 (ix2 (0 : Fin 1) (colIx t q))
  obtain ⟨e00, e01, e10, e11, e20, e21, e30, e31⟩ := idx_facts t
  have hr := colIx_val t q
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * q.val = (colIx t q).val; omega

end Cert.KernelIdeal.Hand

end
-- ==== Proof.KI.ValStep.lean ====
/-
  The body's value terms read at a row: one point's update of the four scratch columns is one step of the row's
  sweep, the reset is the sweep's start, and the loss column is the row's loss.
-/
import proofs.«179571_j37538014167620_1_alg».proof.Proof.KI.Data
import proofs.«179571_j37538014167620_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon
open scoped BigOperators

/-- The four columns at row p, as the sweep's four numbers. -/
def accOf (s : St Ideal) (p : Fin 1024) : Acc :=
  ⟨s.1 (ix2 p (0 : Fin 1)), s.2.1 (ix2 p (0 : Fin 1)), s.2.2.1 (ix2 p (0 : Fin 1)), s.2.2.2 (ix2 p (0 : Fin 1))⟩

/-- The scaled similarities of a block: row p of x0 against row q of x1. -/
def simBlk (x0 x1 : Vec Ideal S1024x128 .bf16) (p q : Fin 1024) : EReal :=
  Ideal.div (∑ k : Fin 128, x0 (ix2 p k) * x1 (ix2 q k)) temp

/-- "Not the diagonal": global row 1024 · i₀ + p differs from global column 1024 · i₁ + q. -/
def exBlk (i : grid0.Coords) (p q : Fin 1024) : Bool := decide (1024 * (i 0).val + p.val ≠ 1024 * (i 1).val + q.val)

/-- "A positive pair": equal labels, and not the diagonal. -/
def posBlk (i : grid0.Coords) (x2 : Vec Ideal S1024x1 .i32) (x3 : Vec Ideal S1x1024 .i32) (p q : Fin 1024) : Bool :=
  decide (x2 (ix2 p (0 : Fin 1)) = x3 (ix2 (0 : Fin 1) q)) && exBlk i p q

/-! ## The float patterns the body writes -/

/-- The pattern of minus infinity. -/
theorem ofBits_negInf : Ideal.ofBits .f32 0xFF800000#32 = (⊥ : EReal) := by
  simp [Ideal.ofBits, Ideal.ieee]

/-- The pattern of one. -/
theorem ofBits_one : Ideal.ofBits .f32 0x3F800000#32 = (1 : EReal) := IdealRules.sign_bit.ideal_onePat .f32

/-- The pattern of minus one. -/
theorem ofBits_negOne : Ideal.ofBits .f32 0xBF800000#32 = (-1 : EReal) := IdealRules.sign_bit.ideal_negOnePat .f32

/-! ## The reset columns -/

/-- The reset's first column is minus infinity at every entry. -/
theorem pay1_apply (j : S1024x1.Idx) : (k0_pay1 (F := Ideal)) j = ⊥ := by
  unfold k0_pay1
  rw [shapeCast_self]
  exact ofBits_negInf

/-- The reset's second column is zero at every entry. -/
theorem pay2_apply (j : S1024x1.Idx) : (k0_pay2 (F := Ideal)) j = 0 := by
  unfold k0_pay2
  rw [shapeCast_self]
  exact Ideal.ofBits_zero_f32

/-- The reset's third column is zero at every entry. -/
theorem pay3_apply (j : S1024x1.Idx) : (k0_pay3 (F := Ideal)) j = 0 := by
  unfold k0_pay3
  rw [shapeCast_self]
  exact Ideal.ofBits_zero_f32

/-- The reset's fourth column is zero at every entry. -/
theorem pay4_apply (j : S1024x1.Idx) : (k0_pay4 (F := Ideal)) j = 0 := by
  unfold k0_pay4
  rw [shapeCast_self]
  exact Ideal.ofBits_zero_f32

/-! ## The loss column -/

/-- The loss column at an entry: minus the positive pairs' mean of (similarity - maximum - log of the exponential
    sum), from the four columns' entries. -/
theorem pay15_apply (l ct ps mx ct' : Vec Ideal S1024x1 .f32) (j : S1024x1.Idx) :
    k0_pay15 l ct ps mx ct' j
      = (-1) * Ideal.div (ps j - (mx j + Ideal.log (l j + eps12)) * ct' j) (max (ct j) 1) := by
  unfold k0_pay15
  show Ideal.ofBits .f32 0xBF800000#32
      * Ideal.div (ps j - (mx j + Ideal.log (l j + Ideal.ofBits .f32 0x2B8CBCCC#32)) * ct' j) (max (ct j) (Ideal.ofBits .f32 0x3F800000#32)) = _
  rw [ofBits_negOne, ofBits_one]
  rfl

/-! ## The block of scaled similarities -/

/-- The product's left operand index at output (r, c) and contraction index k has row r. -/
theorem lhs_dot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- … and column k. -/
theorem lhs_dot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand index has row k … -/
theorem rhs_dot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- … and column c. -/
theorem rhs_dot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The named constant is the real number 2^27 / 9395241, the reciprocal of the temperature. -/
theorem inv_temp : Named.named (F := Ideal) κ "inv_temperature" (φ := .f32) 0x41649249#32 = ((134217728 / 9395241 : ℝ) : EReal) :=
  IdealRules.named_const.ideal_named_scalar _ _ _ _ rfl

/-- The body's block of scaled similarities at (p, q): the dot product of row p of x0 and row q of x1 (the second operand
    is x1 transposed), times the reciprocal of the temperature, which is the division by the temperature. -/
theorem pay5_apply (x0 x1 : Vec Ideal S1024x128 .bf16) (p q : Fin 1024) :
    k0_pay5 x0 x1 (ix2 p q) = simBlk x0 x1 p q := by
  unfold k0_pay5
  rw [shapeCast_self, shapeCast_self]
  show FloatOps.matmul dot_S1024x128_S128x1024_S1024x1024_1_0_0_1_n_n none x0
        (transpose S128x1024 [1, 0] x1 transposes_S1024x128_p1_0_S128x1024) (constant S1024x1024 .f32 0x00000000#32) (ix2 p q)
      * Named.named (F := Ideal) κ "inv_temperature" (φ := .f32) 0x41649249#32 = _
  rw [Ideal.matmul_constant_zero_apply, inv_temp,
    ← Equiv.sum_comp (contrEquiv1 dot_S1024x128_S128x1024_S1024x1024_1_0_0_1_n_n 128 rfl rfl).symm]
  unfold simBlk
  rw [temp_eq, Ideal.div_coe (by norm_num : (9395241 / 134217728 : ℝ) ≠ 0),
    show (1 / (9395241 / 134217728 : ℝ)) = 134217728 / 9395241 by norm_num]
  congr 1
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  congr 1
  exact transpose_apply [1, 0] x1 transposes_S1024x128_p1_0_S128x1024 (ix2 k q) (ix2 q k) (fun b => match b with
    | ⟨0, _⟩ => rfl
    | ⟨1, _⟩ => rfl)

/-! ## Columns: the keepdims layout forms -/

section Columns
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p (a is not 1: a column of one entry is a
    row too, and is read by the row form). -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

end Columns

/-! ## The two masks -/

/-- Global row 1024 · a + p as the body computes it in 32-bit words. -/
theorem word_global (a p : ℕ) (ha : a < 8) (hp : p < 1024) :
    IntOp.addi (Scalar.muli (BitVec.ofNat 32 a) 1024#32) (BitVec.ofNat 32 p) = BitVec.ofNat 32 (1024 * a + p) := by
  apply BitVec.eq_of_toNat_eq
  simp only [IntOp.addi, Scalar.muli, IntOp.muli, BitVec.toNat_add, BitVec.toNat_mul, BitVec.toNat_ofNat]
  omega

/-- "The two words differ", for numbers that fit a word. -/
theorem word_ne_bit (m n : ℕ) (hm : m < 2 ^ 32) (hn : n < 2 ^ 32) :
    IntOp.xori (IntOp.cmpi .eq (BitVec.ofNat 32 m) (BitVec.ofNat 32 n)) 1#1 = if m ≠ n then 1#1 else 0#1 := by
  by_cases h : m = n
  · subst h
    simp [IntOp.cmpi, IntOp.xori]
  · have hne : BitVec.ofNat 32 m ≠ BitVec.ofNat 32 n := by
      intro e
      apply h
      have := congrArg BitVec.toNat e
      rw [BitVec.toNat_ofNat, BitVec.toNat_ofNat, Nat.mod_eq_of_lt hm, Nat.mod_eq_of_lt hn] at this
      exact this
    have hb : (BitVec.ofNat 32 m == BitVec.ofNat 32 n) = false := beq_eq_false_iff_ne.mpr hne
    simp only [IntOp.cmpi, IntOp.xori, hb, if_pos h]
    decide

/-- The body's "not the diagonal" mask at (p, q). -/
theorem pay6_apply (i : grid0.Coords) (p q : Fin 1024) :
    k0_pay6 i (ix2 p q) = if exBlk i p q then 1#1 else 0#1 := by
  have h0 : (i 0).val < 8 := (i 0).isLt
  have h1 : (i 1).val < 8 := (i 1).isLt
  unfold k0_pay6
  show IntOp.xori (IntOp.cmpi .eq
      (IntOp.addi (Scalar.muli (BitVec.ofNat 32 (i 0).val) 1024#32) (iota .tc S1024x1024 32 [0] iota_S1024x1024_d0_w32 (ix2 p q)))
      (IntOp.addi (Scalar.muli (BitVec.ofNat 32 (i 1).val) 1024#32) (iota .tc S1024x1024 32 [1] iota_S1024x1024_d1_w32 (ix2 p q)))) 1#1 = _
  rw [iota_single_apply, iota_single_apply]
  show IntOp.xori (IntOp.cmpi .eq
      (IntOp.addi (Scalar.muli (BitVec.ofNat 32 (i 0).val) 1024#32) (BitVec.ofNat 32 p.val))
      (IntOp.addi (Scalar.muli (BitVec.ofNat 32 (i 1).val) 1024#32) (BitVec.ofNat 32 q.val))) 1#1 = _
  rw [word_global _ _ h0 p.isLt, word_global _ _ h1 q.isLt, word_ne_bit _ _ (by omega) (by omega)]
  unfold exBlk
  simp only [decide_eq_true_eq]

/-- "The two words are equal, and e", as a bit. -/
theorem word_eq_and_bit (a b : BitVec 32) (e : Bool) :
    IntOp.andi (IntOp.cmpi .eq a b) (if e then 1#1 else 0#1) = if (decide (a = b) && e) then 1#1 else 0#1 := by
  by_cases h : a = b
  · subst h
    cases e <;> simp [IntOp.andi, IntOp.cmpi]
  · have hb : (a == b) = false := beq_eq_false_iff_ne.mpr h
    cases e <;> simp [IntOp.andi, IntOp.cmpi, h, hb]

/-- The body's "positive pair" mask at (p, q). -/
theorem pay7_apply (i : grid0.Coords) (x2 : Vec Ideal S1024x1 .i32) (x3 : Vec Ideal S1x1024 .i32) (p q : Fin 1024) :
    k0_pay7 i x2 x3 (ix2 p q) = if posBlk i x2 x3 p q then 1#1 else 0#1 := by
  unfold k0_pay7
  show IntOp.andi (IntOp.cmpi .eq
      (broadcastTo S1024x1024 (shapeCast S1024x1 x2 shapeCasts_S1024x1_S1024x1) broadcasts_S1024x1_S1024x1024 (ix2 p q))
      (broadcastTo S1024x1024 (shapeCast S1x1024 x3 shapeCasts_S1x1024_S1x1024) broadcasts_S1x1024_S1024x1024 (ix2 p q)))
      (k0_pay6 i (ix2 p q)) = _
  rw [shapeCast_self, shapeCast_self, broadcastTo_a1_ab_apply (by decide), broadcastTo_1b_ab_apply, pay6_apply]
  unfold posBlk
  exact word_eq_and_bit _ _ _

/-! ## Reductions along a row -/

/-- Row p with lane k put back is the index (p, k). -/
theorem lift_row (h : S1024x1024.Reduces [1] S1024) (p k : Fin 1024) : h.lift (ix1 p) k = ix2 p k :=
  funext fun c => Fin.ext (by match c with | ⟨0, _⟩ => rfl | ⟨1, _⟩ => rfl)

/-- A row's sum over its 1024 lanes. -/
theorem rowSum_apply (src : FVec Ideal S1024x1024 .f32) (h : S1024x1024.Reduces [1] S1024) (hφ : FKind.Formats .f32)
    (hacc : (0x00000000#32 : BitVec 32) = 0x00000000#32) (p : Fin 1024) :
    multiReduction .add [1] S1024 src 0x00000000#32 h hφ hacc (ix1 p) = ∑ q : Fin 1024, src (ix2 p q) := by
  refine (Ideal.multiReduction_add_single src 0x00000000#32 h hφ hacc (ix1 p)).trans ?_
  exact Finset.sum_congr rfl fun k _ => congrArg src (lift_row h p k)

/-- A row's maximum: the fold of max from minus infinity over the row's 1024 lanes. -/
theorem rowMax_apply (src : FVec Ideal S1024x1024 .f32) (h : S1024x1024.Reduces [1] S1024) (hφ : FKind.Formats .f32)
    (hacc : (0xFF800000#32 : BitVec 32) = 0xFF800000#32) (p : Fin 1024) :
    multiReduction .maximumf [1] S1024 src 0xFF800000#32 h hφ hacc (ix1 p)
      = (Finset.univ : Finset (Fin 1024)).fold max ⊥ (fun q => src (ix2 p q)) := by
  refine (Ideal.multiReduction_maximumf_single src 0xFF800000#32 h hφ hacc (ix1 p)).trans ?_
  refine (Finset.fold_congr (g := fun q : Fin 1024 => src (ix2 p q)) fun k _ => congrArg src (lift_row h p k)).trans ?_
  exact congrArg (fun b : EReal => (Finset.univ : Finset (Fin 1024)).fold max b fun q => src (ix2 p q)) ofBits_negInf

/-! ## The four updated columns at a row -/

/-- The new running maximum at row p: the larger of the old one and the block row's largest similarity. -/
theorem pay8_apply (x0 x1 : Vec Ideal S1024x128 .bf16) (mx0 : Vec Ideal S1024x1 .f32) (p : Fin 1024) :
    k0_pay8 x0 x1 mx0 (ix2 p (0 : Fin 1))
      = max (mx0 (ix2 p (0 : Fin 1))) ((Finset.univ : Finset (Fin 1024)).fold max ⊥ (simBlk x0 x1 p)) := by
  unfold k0_pay8
  refine (maximumf_apply _ _ _).trans ?_
  refine congrArg (max (mx0 (ix2 p (0 : Fin 1)))) ?_
  refine (shapeCast_a_a1_apply _ _ p (0 : Fin 1)).trans ?_
  refine (rowMax_apply _ _ _ _ p).trans ?_
  exact Finset.fold_congr fun q _ => pay5_apply x0 x1 p q

/-- The rescaling factor at row p: the exponential of the old maximum minus the new one. -/
theorem pay9_apply (x0 x1 : Vec Ideal S1024x128 .bf16) (mx0 : Vec Ideal S1024x1 .f32) (p : Fin 1024) :
    k0_pay9 x0 x1 mx0 (ix2 p (0 : Fin 1))
      = Ideal.exp (mx0 (ix2 p (0 : Fin 1)) - k0_pay8 x0 x1 mx0 (ix2 p (0 : Fin 1))) := by
  unfold k0_pay9
  rfl

/-- The block of exponentials at (p, q): the similarity minus row p's new maximum, exponentiated. -/
theorem pay10_apply (x0 x1 : Vec Ideal S1024x128 .bf16) (mx0 : Vec Ideal S1024x1 .f32) (p q : Fin 1024) :
    k0_pay10 x0 x1 mx0 (ix2 p q)
      = Ideal.exp (simBlk x0 x1 p q - k0_pay8 x0 x1 mx0 (ix2 p (0 : Fin 1))) := by
  unfold k0_pay10
  show Ideal.exp (k0_pay5 x0 x1 (ix2 p q)
      - broadcastTo S1024x1024 (k0_pay8 x0 x1 mx0) broadcasts_S1024x1_S1024x1024 (ix2 p q)) = _
  rw [pay5_apply, broadcastTo_a1_ab_apply (by decide)]

/-- The new exponential sum at row p: the old one times the rescaling factor, plus the masked lane sum. -/
theorem pay12_apply (m : IVec S1024x1024 1) (r : FVec Ideal S1024x1 .f32) (e : FVec Ideal S1024x1024 .f32) (c : Ideal .f32)
    (l0 : Vec Ideal S1024x1 .f32) (p : Fin 1024) :
    k0_pay12 m r e c l0 (ix2 p (0 : Fin 1))
      = l0 (ix2 p (0 : Fin 1)) * r (ix2 p (0 : Fin 1)) + ∑ q : Fin 1024, Scalar.select (m (ix2 p q)) (e (ix2 p q)) c := by
  unfold k0_pay12
  rw [shapeCast_self]
  refine (addf_apply _ _ _).trans ?_
  refine congrArg (l0 (ix2 p (0 : Fin 1)) * r (ix2 p (0 : Fin 1)) + ·) ?_
  refine (shapeCast_a_a1_apply _ _ p (0 : Fin 1)).trans ?_
  exact rowSum_apply _ _ _ _ p

/-- The new positive-pair similarity sum at row p. -/
theorem pay13_apply (v : FVec Ideal S1024x1024 .f32) (m : IVec S1024x1024 1) (ps0 : Vec Ideal S1024x1 .f32) (p : Fin 1024) :
    k0_pay13 v m ps0 (ix2 p (0 : Fin 1))
      = ps0 (ix2 p (0 : Fin 1)) + ∑ q : Fin 1024, Scalar.select (m (ix2 p q)) (v (ix2 p q)) (Ideal.ofBits .f32 0x00000000#32) := by
  unfold k0_pay13
  rw [shapeCast_self]
  refine (addf_apply _ _ _).trans ?_
  refine congrArg (ps0 (ix2 p (0 : Fin 1)) + ·) ?_
  refine (shapeCast_a_a1_apply _ _ p (0 : Fin 1)).trans ?_
  exact rowSum_apply _ _ _ _ p

/-- The new positive-pair count at row p. -/
theorem pay14_apply (m : IVec S1024x1024 1) (ct0 : Vec Ideal S1024x1 .f32) (p : Fin 1024) :
    k0_pay14 m ct0 (ix2 p (0 : Fin 1))
      = ct0 (ix2 p (0 : Fin 1)) + ∑ q : Fin 1024, FloatOps.sitofp (F := Ideal) .f32 ((m (ix2 p q)).setWidth 32) := by
  unfold k0_pay14
  rw [shapeCast_self]
  refine (addf_apply _ _ _).trans ?_
  refine congrArg (ct0 (ix2 p (0 : Fin 1)) + ·) ?_
  refine (shapeCast_a_a1_apply _ _ p (0 : Fin 1)).trans ?_
  exact rowSum_apply _ _ _ _ p

/-- A select on a Boolean's bit is the Boolean's choice. -/
theorem select_bit {α : Type} (e : Bool) (a b : α) : Scalar.select (if e then 1#1 else 0#1) a b = if e then a else b := by
  cases e
  · exact select_zero a b
  · exact select_one a b

/-- A Boolean's bit, widened to a word and read as a signed integer, is 1 or 0. -/
theorem sitofp_bit (e : Bool) :
    FloatOps.sitofp (F := Ideal) .f32 ((if e then 1#1 else 0#1 : BitVec 1).setWidth 32) = if e then (1 : EReal) else 0 := by
  cases e
  · show (((((0#1 : BitVec 1).setWidth 32).toInt : ℝ)) : EReal) = 0
    rw [show ((0#1 : BitVec 1).setWidth 32).toInt = 0 by decide]
    simp
  · show (((((1#1 : BitVec 1).setWidth 32).toInt : ℝ)) : EReal) = 1
    rw [show ((1#1 : BitVec 1).setWidth 32).toInt = 1 by decide]
    simp

/-! ## The three readings -/

/-- The reset is the sweep's start. -/
theorem accOf_reset (p : Fin 1024) : accOf (resetSt (F := Ideal)) p = Acc.init := by
  unfold accOf resetSt Acc.init
  simp only [pay1_apply, pay2_apply, pay3_apply, pay4_apply]

/-- One point's update is one step of the row's sweep. -/
theorem accOf_step (i : grid0.Coords) (x0 x1 : Vec Ideal S1024x128 .bf16) (x2 : Vec Ideal S1024x1 .i32) (x3 : Vec Ideal S1x1024 .i32)
    (s : St Ideal) (p : Fin 1024) :
    accOf (stepSt i x0 x1 x2 x3 s) p = (accOf s p).step (simBlk x0 x1 p) (exBlk i p) (posBlk i x2 x3 p) := by
  refine Acc.eq_of_fields ?_ ?_ ?_ ?_
  · -- the running maximum
    show k0_pay11 (k0_pay8 x0 x1 s.1) (ix2 p (0 : Fin 1))
        = max (s.1 (ix2 p (0 : Fin 1))) ((Finset.univ : Finset (Fin 1024)).fold max ⊥ (simBlk x0 x1 p))
    unfold k0_pay11
    rw [shapeCast_self]
    exact pay8_apply x0 x1 s.1 p
  · -- the exponential sum, rescaled to the new maximum; the diagonal's lane is masked out
    show k0_pay12 (k0_pay6 i) (k0_pay9 x0 x1 s.1) (k0_pay10 x0 x1 s.1) (Ideal.ofBits .f32 0x00000000#32) s.2.1 (ix2 p (0 : Fin 1))
        = s.2.1 (ix2 p (0 : Fin 1))
            * Ideal.exp (s.1 (ix2 p (0 : Fin 1)) - max (s.1 (ix2 p (0 : Fin 1))) ((Finset.univ : Finset (Fin 1024)).fold max ⊥ (simBlk x0 x1 p)))
          + ∑ q : Fin 1024, (if exBlk i p q then
              Ideal.exp (simBlk x0 x1 p q - max (s.1 (ix2 p (0 : Fin 1))) ((Finset.univ : Finset (Fin 1024)).fold max ⊥ (simBlk x0 x1 p))) else 0)
    rw [pay12_apply, pay9_apply, pay8_apply]
    refine congrArg (_ + ·) (Finset.sum_congr rfl fun q _ => ?_)
    rw [pay6_apply, pay10_apply, pay8_apply, select_bit, Ideal.ofBits_zero_f32]
  · -- the positive pairs' similarity sum
    show k0_pay13 (k0_pay5 x0 x1) (k0_pay7 i x2 x3) s.2.2.1 (ix2 p (0 : Fin 1))
        = s.2.2.1 (ix2 p (0 : Fin 1)) + ∑ q : Fin 1024, (if posBlk i x2 x3 p q then simBlk x0 x1 p q else 0)
    rw [pay13_apply]
    refine congrArg (_ + ·) (Finset.sum_congr rfl fun q _ => ?_)
    rw [pay7_apply, pay5_apply, select_bit, Ideal.ofBits_zero_f32]
  · -- the positive pairs' count
    show k0_pay14 (k0_pay7 i x2 x3) s.2.2.2 (ix2 p (0 : Fin 1))
        = s.2.2.2 (ix2 p (0 : Fin 1)) + ∑ q : Fin 1024, (if posBlk i x2 x3 p q then (1 : EReal) else 0)
    rw [pay14_apply]
    refine congrArg (_ + ·) (Finset.sum_congr rfl fun q _ => ?_)
    rw [pay7_apply, sitofp_bit]

/-- The loss column at row p is the row's loss from the four numbers. -/
theorem outOf_apply (s : St Ideal) (p : Fin 1024) : outOf s (ix2 p (0 : Fin 1)) = (accOf s p).loss eps12 := by
  unfold outOf accOf Acc.loss
  exact pay15_apply _ _ _ _ _ _

end Cert.KernelIdeal.Hand

end
-- ==== Proof.KI.ValSweep.lean ====
/-
  The four scratch columns after each grid point, read at a row, are the row's sweep over the column blocks seen so far.
-/
import proofs.«179571_j37538014167620_1_alg».proof.Proof.KI.Frame
import proofs.«179571_j37538014167620_1_alg».proof.Proof.KI.ValHost
import proofs.«179571_j37538014167620_1_alg».proof.Proof.KI.ValBlocks
import proofs.«179571_j37538014167620_1_alg».proof.Proof.KI.ValStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon
open scoped BigOperators

variable (m : (ℓ : Loc nD τ sig) → Buf (Elt Ideal) ℓ)

/-- Global column k · 1024 + q, as an index of the 8192 columns. -/
def colOf (k : ℕ) (q : Fin 1024) : Fin 8192 := ⟨(k * 1024 + q.val) % 8192, Nat.mod_lt _ (by decide)⟩

theorem colOf_val (k : ℕ) (hk : k < 8) (q : Fin 1024) : (colOf k q).val = k * 1024 + q.val := by
  have hq : q.val < 1024 := q.isLt
  show (k * 1024 + q.val) % 8192 = k * 1024 + q.val
  omega

/-- The sweep's two equations. -/
theorem sweep_init_eq {W : ℕ} (s : ℕ → Fin W → EReal) (e p : ℕ → Fin W → Bool) : sweep s e p 0 = Acc.init := rfl
theorem sweep_step_eq {W : ℕ} (s : ℕ → Fin W → EReal) (e p : ℕ → Fin W → Bool) (k : ℕ) :
    sweep s e p (k + 1) = (sweep s e p k).step (s k) (e k) (p k) := rfl

/-- The columns of a point's column block are the global columns of block t % 8. -/
theorem colIx_eq_colOf (t : Fin cfg0.N) (q : Fin 1024) : colIx t q = colOf (t.val % 8) q := by
  apply Fin.ext
  rw [colIx_val, colOf_val _ (Nat.mod_lt _ (by decide)) q]
  omega

/-- The points of one row block read the same global rows. -/
theorem rowIx_congr (t t' : Fin cfg0.N) (h : t.val / 8 = t'.val / 8) (p : Fin 1024) : rowIx t p = rowIx t' p := by
  apply Fin.ext
  rw [rowIx_val, rowIx_val, h]

/-- The block's scaled similarities are those of global row 1024 · (t / 8) + p against the columns of block t % 8. -/
theorem simBlk_eq (c : Dev nD) (t : Fin cfg0.N) (p q : Fin 1024) :
    simBlk (iblk (F := Ideal) m c 0 t) (iblk (F := Ideal) m c 1 t) p q
      = Sim (m ((c.tc : Thread nD τ).loc main_arg0)) (rowIx t p) (colOf (t.val % 8) q) := by
  unfold simBlk Sim
  refine congrArg (fun s => Ideal.div s temp) ?_
  refine Finset.sum_congr rfl fun k _ => ?_
  rw [iblk0_apply m c t p k, iblk1_apply m c t q k, V_feat, V_feat, colIx_eq_colOf]

/-- "Not the diagonal" in block coordinates is "column j is not row r itself" at the global indices. -/
theorem exBlk_eq (t : Fin cfg0.N) (p q : Fin 1024) :
    exBlk (grid0.coords t) p q = Ex (rowIx t p) (colOf (t.val % 8) q) := by
  obtain ⟨h0, h1⟩ := coords_val t
  have hr := rowIx_val t p
  have hc := colOf_val (t.val % 8) (Nat.mod_lt _ (by decide)) q
  unfold exBlk Ex
  refine decide_eq_decide.mpr ⟨fun h he => h ?_, fun h he => h (Fin.ext ?_)⟩
  · have hv := congrArg Fin.val he
    rw [hr, hc] at hv
    omega
  · rw [hr, hc]
    omega

/-- "A positive pair" in block coordinates is "column j is a positive pair of row r" at the global indices. -/
theorem posBlk_eq (c : Dev nD) (t : Fin cfg0.N) (p q : Fin 1024) :
    posBlk (grid0.coords t) (iblk (F := Ideal) m c 2 t) (iblk (F := Ideal) m c 3 t) p q
      = Pos (m ((c.tc : Thread nD τ).loc main_arg1)) (rowIx t p) (colOf (t.val % 8) q) := by
  unfold posBlk Pos
  rw [exBlk_eq, iblk2_apply m c t p, iblk3_apply m c t q, V_labCol, V_labRow, colIx_eq_colOf]
  rfl

/-- After the point of row block b and column block k, row p of the scratch columns holds the sweep of global row
    1024 · b + p over its first k + 1 column blocks. -/
theorem accOf_stAt (c : Dev nD) (t : Fin cfg0.N) (p : Fin 1024) :
    accOf (stAt (F := Ideal) m c t.val t.isLt) p
      = sweep (fun k q => Sim (m ((c.tc : Thread nD τ).loc main_arg0)) (rowIx t p) (colOf k q))
          (fun k q => Ex (rowIx t p) (colOf k q))
          (fun k q => Pos (m ((c.tc : Thread nD τ).loc main_arg1)) (rowIx t p) (colOf k q)) (t.val % 8 + 1) := by
  have key : ∀ n, ∀ t : Fin cfg0.N, t.val = n →
      accOf (stAt (F := Ideal) m c t.val t.isLt) p
        = sweep (fun k q => Sim (m ((c.tc : Thread nD τ).loc main_arg0)) (rowIx t p) (colOf k q))
            (fun k q => Ex (rowIx t p) (colOf k q))
            (fun k q => Pos (m ((c.tc : Thread nD τ).loc main_arg1)) (rowIx t p) (colOf k q)) (t.val % 8 + 1) := by
    intro n
    induction n using Nat.strong_induction_on with
    | _ n ih =>
      intro t hn
      subst hn
      have hS : simBlk (iblk (F := Ideal) m c 0 t) (iblk (F := Ideal) m c 1 t) p
          = fun q => Sim (m ((c.tc : Thread nD τ).loc main_arg0)) (rowIx t p) (colOf (t.val % 8) q) :=
        funext fun q => simBlk_eq m c t p q
      have hE : exBlk (grid0.coords t) p = fun q => Ex (rowIx t p) (colOf (t.val % 8) q) :=
        funext fun q => exBlk_eq t p q
      have hP : posBlk (grid0.coords t) (iblk (F := Ideal) m c 2 t) (iblk (F := Ideal) m c 3 t) p
          = fun q => Pos (m ((c.tc : Thread nD τ).loc main_arg1)) (rowIx t p) (colOf (t.val % 8) q) :=
        funext fun q => posBlk_eq m c t p q
      by_cases h0 : t.val % 8 = 0
      · rw [stAt_first m c t h0]
        refine (accOf_step (grid0.coords t) (iblk (F := Ideal) m c 0 t) (iblk (F := Ideal) m c 1 t) (iblk (F := Ideal) m c 2 t)
          (iblk (F := Ideal) m c 3 t) (resetSt (F := Ideal)) p).trans ?_
        rw [accOf_reset, hS, hE, hP, sweep_step_eq, h0, sweep_init_eq]
      · rw [stAt_next m c t h0]
        refine (accOf_step (grid0.coords t) (iblk (F := Ideal) m c 0 t) (iblk (F := Ideal) m c 1 t) (iblk (F := Ideal) m c 2 t)
          (iblk (F := Ideal) m c 3 t) (stAt (F := Ideal) m c (t.val - 1) (Nat.lt_of_le_of_lt (Nat.sub_le _ _) t.isLt)) p).trans ?_
        have ih' := ih (t.val - 1) (by omega) ⟨t.val - 1, Nat.lt_of_le_of_lt (Nat.sub_le _ _) t.isLt⟩ rfl
        rw [rowIx_congr ⟨t.val - 1, Nat.lt_of_le_of_lt (Nat.sub_le _ _) t.isLt⟩ t (by show (t.val - 1) / 8 = t.val / 8; omega) p] at ih'
        dsimp only at ih'
        rw [show (t.val - 1) % 8 + 1 = t.val % 8 from by omega] at ih'
        rw [ih', hS, hE, hP, sweep_step_eq]
  exact key t.val t rfl

end Cert.KernelIdeal.Hand

end
-- ==== Proof.KI.ValArr.lean ====
/-
  The loss array after the region, read at a row: the loss column stored at the last column block of the row's row block.

  The output window's block at point t is rows 1024 · (t / 8) … of the loss array; it is written back exactly after the
  points with t % 8 = 7, one per row block, and those eight blocks tile the array.
-/
import proofs.«179571_j37538014167620_1_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- The scratch columns after a point depend on the point's number only. -/
theorem stAt_congr (c : Dev nD) {n n' : ℕ} (e : n = n') (h : n < cfg0.N) (h' : n' < cfg0.N) :
    stAt (F := Ideal) m c n h = stAt (F := Ideal) m c n' h' := by
  subst e; rfl

/-- The loss array as one function of the row: row r holds entry r % 1024 of the loss column that the last column
    block of row block r / 1024, point 8 · (r / 1024) + 7, computes. -/
def lossArr (c : Dev nD) : S8192x1.Idx → EReal := fun i =>
  outOf (stAt (F := Ideal) m c (8 * ((i 0).val / 1024) + 7) (by have h : (i 0).val < 8192 := (i 0).isLt; show 8 * ((i 0).val / 1024) + 7 < grid0.N; rw [N_0]; omega))
    (ix2 (⟨(i 0).val % 1024, Nat.mod_lt _ (by decide)⟩ : Fin 1024) (0 : Fin 1))

/-- The output window's block index at point t: row block t / 8, column 0. -/
theorem idx_out : ∀ t : Fin cfg0.N, win0_4.index t (0 : Fin 2) = t.val / 8 ∧ win0_4.index t (1 : Fin 2) = 0 :=
  (by decide +kernel : ∀ t : Fin grid0.N, _)

/-- The loss array at a row of point t's block, when t is a last column block: point t's loss column at the row inside the block. -/
theorem lossArr_of (c : Dev nD) (t : Fin cfg0.N) (i : S8192x1.Idx) (j : S1024x1.Idx)
    (ht : 8 * ((i 0).val / 1024) + 7 = t.val) (hj : (i 0).val % 1024 = (j 0).val) :
    lossArr m c i = outOf (stAt (F := Ideal) m c t.val t.isLt) j := by
  unfold lossArr
  rw [stAt_congr m c ht _ t.isLt]
  refine congrArg _ ?_
  funext a; apply Fin.ext
  match a with
  | ⟨0, _⟩ => exact hj
  | ⟨1, _⟩ => show (0 : Fin 1).val = (j 1).val; have h : (j 1).val < 1 := (j 1).isLt; show 0 = (j 1).val; omega

/-- What a last column block writes back is its block of that function. -/
theorem loss_flushed_eq (c : Dev nD) (t : Fin cfg0.N) (hf : (cfg0.win 4).flush t = true) :
    (dats (F := Ideal) m 0 c).flushed 4 t = ((cfg0.win 4).blk t).view.read (Elt Ideal) (lossArr m c) := by
  have h7 : t.val % 8 = 7 := (flush0_4 t).mp hf
  show (cfg0.win 4).cut (grid0.coords t) ((dats (F := Ideal) m 0 c).after 4 t) = _
  rw [after4]
  funext j
  obtain ⟨e0, e1⟩ := idx_out t
  have ht : t.val < 64 := t.isLt
  show outOf (stAt (F := Ideal) m c t.val t.isLt) j = lossArr m c (((cfg0.win 4).blk t).view.emb j)
  have hj0 : (j 0).val < 1024 := (j 0).isLt
  refine (lossArr_of m c t _ j ?_ ?_).symm
  · show 8 * ((win0_4.index t (0 : Fin 2) * 1024 + 1 * (j 0).val) / 1024) + 7 = t.val
    omega
  · show (win0_4.index t (0 : Fin 2) * 1024 + 1 * (j 0).val) % 1024 = (j 0).val
    omega

/-- Every row is in the block of the last column block of its row block. -/
theorem loss_cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, htv⟩ : ∃ t : Fin cfg0.N, t.val = 8 * ((i 0).val / 1024) + 7 :=
    ⟨⟨8 * ((i 0).val / 1024) + 7, by show 8 * ((i 0).val / 1024) + 7 < grid0.N; rw [N_0]; omega⟩, rfl⟩
  obtain ⟨e0, e1⟩ := idx_out t
  refine ⟨t, (flush0_4 t).mpr (by omega), ?_⟩
  show i ∈ ((View.whole main_v14).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The loss array after the region is that function. -/
theorem loss_arr_eq (c : Dev nD) : (dats (F := Ideal) m 0 c).arrAt 4 cfg0.N = lossArr m c :=
  (dats (F := Ideal) m 0 c).arrAt_eq_of_cover 4 (lossArr m c) (loss_flushed_eq m c) loss_cover

/-- The loss array after the region, at row r: the loss column stored at the last column block of r's row block. -/
theorem arr_final (c : Dev nD) (r : Fin 8192) :
    ((dats (F := Ideal) m 0 c).arrAt 4 cfg0.N : S8192x1.Idx → EReal) (ix2 r (0 : Fin 1))
      = outOf (stAt (F := Ideal) m c (8 * (r.val / 1024) + 7) (by have := r.isLt; show 8 * (r.val / 1024) + 7 < grid0.N; rw [N_0]; omega))
          (ix2 (⟨r.val % 1024, Nat.mod_lt _ (by decide)⟩ : Fin 1024) (0 : Fin 1)) := by
  exact congrFun (loss_arr_eq m c) (ix2 r (0 : Fin 1))

end Cert.KernelIdeal.Hand

end
-- ==== Proof.KI.Run.lean ====
/-
  The run of the whole program: eighteen host operations, the pipelined region, four host operations.

  The host operations before the region compute the normalised features and the tiled labels; the region's five
  windows read the features twice (rows and columns), the labels as a column and as a row, and write the loss column;
  the host operations after it sum the loss column and divide by the number of rows. Every weakly fair execution from a
  memory with zero semaphore counters terminates without a fault; at the end the result buffer holds the mean of what
  the region wrote, and the two argument arrays hold what they held at the start.
-/
import proofs.«179571_j37538014167620_1_alg».proof.Proof.KI.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations after the region, as a function of the region's result: its sum over both axes, divided by 8192. -/
def tailVal (X : (⟨S8192x1, .f32⟩ : BufTy).Contents (Elt F)) : (⟨S_, .f32⟩ : BufTy).Contents (Elt F) :=
  Host.divf (Host.reduceAdd X (constant S_ .f32 0x00000000#32) reducesTo_S8192x1_S_d0_1 h_S_) (constant S_ .f32 0x46000000#32)

/-! ## The buffers along the run -/

/-- Core c's buffers at launch, as the operations' valuation. -/
abbrev V₀ (c : Dev nD) : Valuation τ sig (Elt F) := fun b => m (c, b)

/-- Running one line and then another is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => rw [List.cons_append, StableHlo.after_cons, StableHlo.after_cons, ih]

/-- The three stretches before the region, run in order, leave the entry contents. -/
theorem V0_eq (c : Dev nD) :
    StableHlo.after hostOps0_2 (StableHlo.after hostOps0_1 (StableHlo.after hostOps0 (V₀ m c))) = V0 m c := by
  show _ = StableHlo.after (List.flatten [hostOps0, hostOps0_1, hostOps0_2]) (V₀ m c)
  rw [List.flatten_cons, List.flatten_cons, List.flatten_cons, List.flatten_nil, List.append_nil, after_append, after_append]

/-- The TensorCore's unscoped references, as device buffers: the set the host operations run within. -/
def ucRefs : Finset (DevRef τ sig) := (StableHlo.tcRefs τ sig).filter fun b => ¬ b.isScoped

omit [FloatOps F] [Named F] in
/-- A core's unscoped buffers at a valuation are that set held at it. -/
theorem unscopedBufs_held (c : Dev nD) (W : Valuation τ sig (Elt F)) :
    (unscopedBufs c (fun b => W (Proc.devRef .tc b)) : sProp 𝕄) = StableHlo.held (c : Thread nD τ) ucRefs W := by
  unfold unscopedBufs StableHlo.held ucRefs StableHlo.tcRefs
  rw [Finset.filter_map, bigSep_map]
  rfl

omit [FloatOps F] [Named F] in
/-- A host operation names no scoped buffer: on TensorCore references it touches unscoped ones only. -/
theorem sub_ucRefs (op : HloOp τ sig (Elt F)) (h : op.bufs ⊆ StableHlo.tcRefs τ sig) : op.bufs ⊆ ucRefs := fun b hb =>
  Finset.mem_filter.mpr ⟨h hb, fun hs => Bool.false_ne_true ((op.no_scoped b hb).symm.trans hs)⟩

/-- The buffers after the region: the loss column at what the region wrote, every other as entered. -/
def Wout (c : Dev nD) : Valuation τ sig (Elt F) :=
  Function.update (V0 m c) (Proc.devRef .tc main_v14) ((dats m 0 c).arrAt 4 cfg0.N)

/-- The same read at a TensorCore reference. -/
abbrev WoutR (c : Dev nD) (b : Ref sig .tc) : Buf (Elt F) ((c : Thread nD τ).loc b) := Wout m c (Proc.devRef .tc b)

/-- Off the loss column the post-region valuation is the entry one. -/
theorem Wout_of_ne (c : Dev nD) (b : Ref sig .tc) (h : b ≠ main_v14) : WoutR m c b = V m c b := by
  unfold WoutR Wout
  exact Function.update_of_ne (StableHlo.devRef_ne_of_ne h) _ _

/-- At the loss column it is what the region wrote. -/
theorem Wout_v14 (c : Dev nD) : WoutR m c main_v14 = (dats m 0 c).arrAt 4 cfg0.N := by
  unfold WoutR Wout
  exact Function.update_self _ _ _

/-- Every window's array after the region, read off the post-region valuation: the inputs as entered, the loss column
    as written. -/
theorem Wout_arr (c : Dev nD) : ∀ w : Fin 5, (dats m 0 c).arrAt w cfg0.N = WoutR m c (Pipeline.arrRef spec0 w)
  | 0 => ((dats m 0 c).arrAt_in 0 rfl cfg0.N).trans (Wout_of_ne m c main_v8 (by decide)).symm
  | 1 => ((dats m 0 c).arrAt_in 1 rfl cfg0.N).trans (Wout_of_ne m c main_v8 (by decide)).symm
  | 2 => ((dats m 0 c).arrAt_in 2 rfl cfg0.N).trans (Wout_of_ne m c main_v12 (by decide)).symm
  | 3 => ((dats m 0 c).arrAt_in 3 rfl cfg0.N).trans (Wout_of_ne m c main_v13 (by decide)).symm
  | 4 => (Wout_v14 m c).symm
  | ⟨_ + 5, h⟩ => absurd h (Nat.not_lt.2 (Nat.le_add_left _ _))

/-! ## Dealing the arrays to the windows -/

omit [FloatOps F] [Named F] in
/-- The buffers behind the five windows are four: the normalised features, the two label arrays, the loss column. -/
theorem arrBufs_chain (c : Dev nD) (G : (b : Ref sig .tc) → Buf (Elt F) ((c : Thread nD τ).loc b)) :
    (Pipeline.arrBufs spec0 c G : sProp 𝕄)
      = iprop((((c : Thread nD τ).loc main_v8) ↦{fullShare} G main_v8) ∗ (((c : Thread nD τ).loc main_v12) ↦{fullShare} G main_v12)
          ∗ (((c : Thread nD τ).loc main_v13) ↦{fullShare} G main_v13) ∗ (((c : Thread nD τ).loc main_v14) ↦{fullShare} G main_v14)) := by
  unfold Pipeline.arrBufs
  rw [show Finset.univ.image (Pipeline.arrRef spec0) = {main_v8, main_v12, main_v13, main_v14} from by decide,
    bigSep_insert (by decide), bigSep_insert (by decide), bigSep_insert (by decide), bigSep_singleton]
  rfl

/-- The windows' arrays as the proof data holds them: the normalised features in two halves. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_v8) ↦{fullShare.left} Fw 0) ∗ (((c : Thread nD τ).loc main_v8) ↦{fullShare.right} Fw 1)
          ∗ (((c : Thread nD τ).loc main_v12) ↦{fullShare} Fw 2) ∗ (((c : Thread nD τ).loc main_v13) ↦{fullShare} Fw 3)
          ∗ (((c : Thread nD τ).loc main_v14) ↦{fullShare} Fw 4)) := by
  unfold Dat.arrays
  rw [bigSep_W0, (arr_whole0 0).set_eq_univ, (arr_whole0 2).set_eq_univ, (arr_whole0 3).set_eq_univ, (arr_whole0 4).set_eq_univ]
  rfl

/-- ENTRY: the four buffers at contents G deal the five windows their arrays, the normalised features split in halves. -/
theorem deal (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    (Pipeline.arrBufs spec0 c G : sProp 𝕄) ⊢ (dats m 0 c).arrays Fw := by
  rw [arrBufs_chain, arrays_chain, hF 0, hF 1, hF 2, hF 3, hF 4]
  iintro ⟨H8, H12, H13, H14⟩
  ihave H := (pointsTo_share (PosShare.mem_left_op_right fullShare)).1 $$ H8
  icases H with ⟨Hl, Hr⟩
  isplitl [Hl]; · iexact Hl
  isplitl [Hr]; · iexact Hr
  isplitl [H12]; · iexact H12
  isplitl [H13]; · iexact H13
  iexact H14

/-- EXIT: the halves of the normalised features join again. -/
theorem undeal (c : Dev nD) (G : (b : Ref sig .tc) → Buf (Elt F) ((c : Thread nD τ).loc b))
    (Fw : (w : Fin cfg0.W) → Buf (Elt F) ((cfg0.win w).arr.view.loc (c : Thread nD τ))) (hF : ∀ w, Fw w = G (Pipeline.arrRef spec0 w)) :
    ((dats m 0 c).arrays Fw : sProp 𝕄) ⊢ Pipeline.arrBufs spec0 c G := by
  rw [arrBufs_chain, arrays_chain, hF 0, hF 1, hF 2, hF 3, hF 4]
  iintro ⟨Hl, Hr, H12, H13, H14⟩
  isplitl [Hl Hr]
  · iapply (pointsTo_share (PosShare.mem_left_op_right fullShare)).2
    isplitl [Hl]; · iexact Hl
    iexact Hr
  isplitl [H12]; · iexact H12
  isplitl [H13]; · iexact H13
  iexact H14

/-- The buffers no window reads are the same before and after the region. -/
theorem unscopedRest_Wout (c : Dev nD) :
    (Pipeline.unscopedRest spec0 c (V m c) : sProp 𝕄) = Pipeline.unscopedRest spec0 c (WoutR m c) := by
  unfold Pipeline.unscopedRest
  refine bigSep_congr fun b hb => ?_
  have hne : b ≠ main_v14 := fun e => (Finset.mem_sdiff.mp hb).2 (e ▸ Finset.mem_image.mpr ⟨4, Finset.mem_univ _, rfl⟩)
  rw [Wout_of_ne m c b hne]

/-- The buffers the eighteen operations left are the windows' arrays at their entry contents and the rest. -/
theorem entry_split (c : Dev nD) :
    (StableHlo.held (c : Thread nD τ) ucRefs (V0 m c) : sProp 𝕄)
      ⊢ iprop((dats m 0 c).arrays ((dats m 0 c).arrAt · 0) ∗ Pipeline.unscopedRest spec0 c (V m c)) := by
  rw [← unscopedBufs_held c (V0 m c), Pipeline.unscopedBufs_split₀ cfgs 0 winFacts₀0.arr_unscoped c (V m c)]
  exact sep_mono (deal m c (V m c) _ fun _ => rfl) .rfl

/-- The windows' arrays at their final contents and the rest are the buffers after the region. -/
theorem exit_join (c : Dev nD) :
    iprop((dats m 0 c).arrays ((dats m 0 c).arrAt · cfg0.N) ∗ Pipeline.unscopedRest spec0 c (V m c))
      ⊢ (StableHlo.held (c : Thread nD τ) ucRefs (Wout m c) : sProp 𝕄) := by
  rw [← unscopedBufs_held c (Wout m c), Pipeline.unscopedBufs_split₀ cfgs 0 winFacts₀0.arr_unscoped c (WoutR m c), unscopedRest_Wout]
  exact sep_mono (undeal m c (WoutR m c) _ (Wout_arr m c)) .rfl

/-! ## The launch's parameters and the segments -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: the generator register at some state, the core owing
    nothing. -/
abbrev R (c : Dev nD) : sProp 𝕄 :=
  iprop((∃ r, prngReg c r) ∗ ∃ W, owes (c : Thread nD τ) (0 : CellTallies nD τ sig Unit) W)

/-- The seven operations before the call of the clipping function. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro op h; simp only [List.mem_cons, List.mem_nil_iff, or_false] at h
        rcases h with rfl | rfl | rfl | rfl | rfl | rfl | rfl <;> rfl) (V₀ m) R

/-- The clipping function's three operations. -/
def seg1 : Pipeline.HostSeg (Name := ℕ) (U := UR sig nD τ) (pcfgs (F := F)) defs₀ 𝒱₀ L lv :=
  Pipeline.HostSeg.ofOps _ _ _ _ _ ucRefs hostOps0_1 (fun op h => sub_ucRefs op ((List.forall_iff_forall_mem.mp hostOps0_1_sub) op h))
    (by intro op h; simp only [List.mem_cons, List.mem_nil_iff, or_false] at h
        rcases h with rfl | rfl | rfl <;> rfl) (fun c => StableHlo.after hostOps0 (V₀ m c)) R

/-- The eight operations up to the region. -/
def seg2 : Pipeline.HostSeg (Name := ℕ) (U := UR sig nD τ) (pcfgs (F := F)) defs₀ 𝒱₀ L lv :=
  Pipeline.HostSeg.ofOps _ _ _ _ _ ucRefs hostOps0_2 (fun op h => sub_ucRefs op ((List.forall_iff_forall_mem.mp hostOps0_2_sub) op h))
    (by intro op h; simp only [List.mem_cons, List.mem_nil_iff, or_false] at h
        rcases h with rfl | rfl | rfl | rfl | rfl | rfl | rfl | rfl <;> rfl)
    (fun c => StableHlo.after hostOps0_1 (StableHlo.after hostOps0 (V₀ m c))) R

/-- The four operations after the region. -/
def seg3 : Pipeline.HostSeg (Name := ℕ) (U := UR sig nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro op h; simp only [List.mem_cons, List.mem_nil_iff, or_false] at h
        rcases h with rfl | rfl | rfl | rfl <;> rfl) (Wout m) R

set_option backward.isDefEq.respectTransparency.types false in
/-- THE REGION: entered from the buffers the eighteen operations left, the four arrays dealt to the five windows (the
    normalised features in halves), every other unscoped buffer bypassing, the generator register into the invariant;
    left with the halves joined and the loss column at what the region wrote. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (V0 m c) ∗ R c)
  post c := iprop(StableHlo.held (c : Thread nD τ) ucRefs (Wout m c) ∗ R c)
  X c := iprop(∃ r, prngReg c r)
  Y c := iprop(∃ r, prngReg c r)
  Z c := Pipeline.unscopedRest spec0 c (V m c)
  hentry c := by
    iintro ⟨⟨Hub, Hp, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (Set.mem_univ _)
      iexact HO
    isplitl [Hp]; · iexact Hp
    iexact Hrest
  hin c := by
    refine (show _ ⊢ Pipeline.ΦA spec0 c from ?_).trans (hin m c)
    unfold Pipeline.ΦA
    iintro ⟨Hp, -, Hr⟩
    isplitl [Hr]; · iexact Hr
    iexact Hp
  hout c := by
    refine (hout m c).trans ?_
    rw [Pipeline.ownSems0_none]; unfold Pipeline.ΦA
    iintro ⟨Hr, Hp⟩
    isplitl [Hp]; · iexact Hp
    isplitr; · iempintro
    iexact Hr
  hexit c := by
    iintro ⟨Ha, HO, Hp, Hrest⟩
    imodintro
    isplitl [Ha Hrest]
    · iapply (exit_join m c)
      isplitl [Ha]; · iexact Ha
      iexact Hrest
    isplitl [Hp]; · iexact Hp
    icases HO with ⟨%W, -, HO⟩; iexists W; iexact HO

/-! ## The whole run -/

/-- @main as its five segments. -/
abbrev segs : List (Pipeline.Seg (pcfgs (F := F)) adm (dats m) () defs₀ 𝒱₀ L lv) :=
  [.host (seg0 m), .host (seg1 m), .host (seg2 m), .region (reg0 m), .host (seg3 m)]

/-- What the last stretch leaves: the buffers after its four operations, the generator register at some state. -/
abbrev Tₙ (c : Dev nD) : sProp 𝕄 :=
  iprop(StableHlo.held (c : Thread nD τ) ucRefs (StableHlo.after hostOps1 (Wout m c)) ∗ ∃ r, prngReg c r)

/-- The third stretch leaves what the region is entered from. -/
theorem chain_entry (c : Dev nD) :
    iprop(StableHlo.held (c : Thread nD τ) ucRefs (StableHlo.after hostOps0_2 (StableHlo.after hostOps0_1 (StableHlo.after hostOps0 (V₀ m c)))) ∗ R c)
      ⊢ (iprop(StableHlo.held (c : Thread nD τ) ucRefs (V0 m c) ∗ R c) : sProp 𝕄) :=
  Entails.of_eq (congrArg (fun W => (iprop(StableHlo.held (c : Thread nD τ) ucRefs W ∗ R c) : sProp 𝕄)) (V0_eq m c))

/-- The last stretch leaves the final state beside the core owing nothing. -/
theorem chain_end (c : Dev nD) :
    iprop(StableHlo.held (c : Thread nD τ) ucRefs (StableHlo.after hostOps1 (Wout m c)) ∗ R c)
      ⊢ (iprop(Tₙ m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-- No operation before the region writes an argument array. -/
theorem not_written_pre (b : Ref sig .tc) (hb : b = main_arg0 ∨ b = main_arg1) :
    ∀ op ∈ List.flatten [hostOps0 (F := F), hostOps0_1, hostOps0_2], Proc.devRef .tc b ∉ op.writes := by
  intro op hop
  simp only [hostOps0, hostOps0_1, hostOps0_2, List.flatten_cons, List.flatten_nil, List.append_nil, List.cons_append, List.nil_append,
    List.mem_cons, List.mem_nil_iff, or_false] at hop
  rcases hb with rfl | rfl <;>
  rcases hop with rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- Nor does one after it. -/
theorem not_written_post (b : Ref sig .tc) (hb : b = main_arg0 ∨ b = main_arg1) :
    ∀ op ∈ hostOps1 (F := F), Proc.devRef .tc b ∉ op.writes := by
  intro op hop
  simp only [List.mem_cons, List.mem_nil_iff, or_false] at hop
  rcases hb with rfl | rfl <;>
  rcases hop with rfl | rfl | rfl | rfl <;>
    simp only [StableHlo.binary_writes, StableHlo.nullary_writes, Finset.mem_singleton] <;>
    exact StableHlo.devRef_ne_of_ne (by decide)

/-- The result buffer after the last stretch: the mean of the loss column the region wrote. -/
theorem tail16 (c : Dev nD) :
    StableHlo.after hostOps1 (Wout m c) (Proc.devRef .tc main_v16) = tailVal ((dats m 0 c).arrAt 4 cfg0.N) := by
  unfold tailVal
  after_results
  rw [show Wout m c (Proc.devRef .tc main_v14) = (dats m 0 c).arrAt 4 cfg0.N from Wout_v14 m c]

/-- An argument array after the last stretch: as launched. -/
theorem tail_arg (c : Dev nD) (b : Ref sig .tc) (hb : b = main_arg0 ∨ b = main_arg1) :
    StableHlo.after hostOps1 (Wout m c) (Proc.devRef .tc b) = m ((c : Thread nD τ).loc b) := by
  have hne : b ≠ main_v14 := by rcases hb with rfl | rfl <;> decide
  rw [StableHlo.after_of_forall_not_mem hostOps1 _ (not_written_post b hb),
    show Wout m c (Proc.devRef .tc b) = V m c b from Wout_of_ne m c b hne]
  exact StableHlo.after_of_forall_not_mem (b := Proc.devRef .tc b) _ (V₀ m c) (not_written_pre b hb)

omit [FloatOps F] [Named F] in
/-- Nothing, on every core. -/
theorem emp_all : (BI.emp : sProp 𝕄) ⊢ bigSep Finset.univ (fun _ : Dev nD => (BI.emp : sProp 𝕄)) := by
  rw [BI.bigSep_emp_const]

set_option backward.isDefEq.respectTransparency.types false in
/-- Every weakly fair execution of the program terminates, nothing faulting; the result buffer ends at the mean of the
    loss column the region computes, and the argument arrays end unchanged. -/
theorem run_main : θ_run defs (onTc (τ := τ) (main (F := F))) ⟨m, fun _ => 0, ρ⟩ (fun r => ∀ c : Dev nD,
    r.2.mem ((c.tc : Thread nD τ).loc main_v16) = tailVal ((dats m 0 c).arrAt 4 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (Entails.of_eq (ownU_emb₁ _)); iexact Hu
      iapply emp_all; iempintro)
    (T₀ := fun c => iprop(StableHlo.held (c : Thread nD τ) ucRefs (V₀ m c) ∗ R c)) (Tₙ := Tₙ m)
    (hch := ⟨fun _ => .rfl, fun _ => .rfl, fun _ => .rfl, chain_entry m, fun _ => .rfl, chain_end m⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v16) = tailVal ((dats m 0 c).arrAt 4 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ]
      rw [← unscopedBufs_held c (StableHlo.after hostOps1 (Wout m c))]
      unfold unscopedBufs
      iintro ⟨⟨Hh, -⟩, HSI⟩
      ihave Hr := (pointsTo_read_all _ (fun b : Ref sig .tc => (c : Thread nD τ).loc b)
        (fun b => StableHlo.after hostOps1 (Wout m c) (Proc.devRef .tc b)) s') $$ [Hh HSI]
      · isplitl [Hh] <;> iassumption
      icases Hr with ⟨%hr, HSI⟩
      imodintro
      isplitr
      · ipureintro
        exact ⟨(hr main_v16 (Finset.mem_filter.mpr ⟨Finset.mem_univ _, by decide⟩)).trans (tail16 m c),
          (hr main_arg0 (Finset.mem_filter.mpr ⟨Finset.mem_univ _, by decide⟩)).trans (tail_arg m c main_arg0 (.inl rfl)),
          (hr main_arg1 (Finset.mem_filter.mpr ⟨Finset.mem_univ _, by decide⟩)).trans (tail_arg m c main_arg1 (.inr rfl))⟩
      iexact HSI)
    (hQ := fun _ h => h)

end Cert.KernelIdeal.Hand

end
-- ==== Proof.KI.ValFinal.lean ====
/-
  The kernel program's result as a function of its two arguments: the mean of the rows' losses.

  After the region the loss array holds, at row r, the loss column the last column block of r's row block stored; that
  entry is the row's sweep over all eight column blocks, which is the row's loss when the features are real numbers; the
  host operations after the region take the mean.
-/
import proofs.«179571_j37538014167620_1_alg».proof.Proof.KI.ValSweep
import proofs.«179571_j37538014167620_1_alg».proof.Proof.KI.ValArr
import proofs.«179571_j37538014167620_1_alg».proof.Proof.KI.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SupCon
open scoped BigOperators

variable (m : (ℓ : Loc nD τ sig) → Buf (Elt Ideal) ℓ)

/-- The loss array after the region, named at its literal type. -/
abbrev lossCol (c : Dev nD) : S8192x1.Idx → EReal := (dats (F := Ideal) m 0 c).arrAt 4 cfg0.N

/-- Row r of the loss array is row r's loss: the entry is the loss read off the row's sweep over all eight column
    blocks (the point is the last column block of r's row block, 8 · (r / 1024) + 7, and the row inside the block is
    r % 1024), and the sweep over all the columns is the direct loss when the similarities are real numbers. -/
theorem row_value (c : Dev nD) (hx : ∀ i, ∃ v : ℝ, ((m ((c.tc : Thread nD τ).loc main_arg0)) : S4096x2x128.Idx → EReal) i = (v : EReal))
    (r : Fin 8192) :
    lossCol m c (ix2 r (0 : Fin 1)) = rowLoss (m ((c.tc : Thread nD τ).loc main_arg0)) (m ((c.tc : Thread nD τ).loc main_arg1)) r := by
  have hr : r.val < 8192 := r.isLt
  have ht : 8 * (r.val / 1024) + 7 < cfg0.N := by show 8 * (r.val / 1024) + 7 < grid0.N; rw [N_0]; omega
  have hrow : rowIx (⟨8 * (r.val / 1024) + 7, ht⟩ : Fin cfg0.N) (⟨r.val % 1024, Nat.mod_lt _ (by decide)⟩ : Fin 1024) = r :=
    Fin.ext (by rw [rowIx_val]; show 1024 * ((8 * (r.val / 1024) + 7) / 8) + r.val % 1024 = r.val; omega)
  have hk : (8 * (r.val / 1024) + 7) % 8 + 1 = 8 := by omega
  refine (arr_final m c r).trans ?_
  rw [outOf_apply]
  refine (congrArg (fun a : Acc => a.loss eps12)
    (accOf_stAt m c (⟨8 * (r.val / 1024) + 7, ht⟩ : Fin cfg0.N) (⟨r.val % 1024, Nat.mod_lt _ (by decide)⟩ : Fin 1024))).trans ?_
  rw [hrow]
  show (sweep _ _ _ ((8 * (r.val / 1024) + 7) % 8 + 1)).loss eps12 = _
  rw [hk]
  exact sweep_loss_eq_directFlat (B := 8) (W := 1024) (by decide) (by decide) eps12 eps12_pos
    (Sim (m ((c.tc : Thread nD τ).loc main_arg0)) r) (Ex r) (Pos (m ((c.tc : Thread nD τ).loc main_arg1)) r)
    (Sim_real (m ((c.tc : Thread nD τ).loc main_arg0)) hx r) colOf (fun k hk q => colOf_val k hk q)

/-- A sum over the indices of a column of 8192 entries is the sum over its rows. -/
theorem sum_col (X : S8192x1.Idx → EReal) : ∑ i : S8192x1.Idx, X i = ∑ r : Fin 8192, X (ix2 r (0 : Fin 1)) := by
  rw [sum_idx2]
  exact Finset.sum_congr rfl fun r _ => Fin.sum_univ_one _

/-- The host operations after the region take the mean of the column: its sum divided by the number of rows. -/
theorem tailVal_eq (X : S8192x1.Idx → EReal) :
    tailVal (F := Ideal) X = fun _ => Ideal.div (0 + ∑ r : Fin 8192, X (ix2 r (0 : Fin 1))) nRows := by
  funext j
  show Ideal.div (Ideal.hostReduceAdd reducesTo_S8192x1_S_d0_1 X (Ideal.ofBits .f32 0x00000000#32) j) (Ideal.ofBits .f32 0x46000000#32) = _
  rw [Ideal.hostReduceAdd_total _ (fun b => b.elim0), Ideal.ofBits_zero_f32, sum_col]
  rfl

/-- When every feature is a real number, the result the program computes is the mean of the row losses. -/
theorem kernel_value (c : Dev nD) (hx : ∀ i, ∃ v : ℝ, ((m ((c.tc : Thread nD τ).loc main_arg0)) : S4096x2x128.Idx → EReal) i = (v : EReal)) :
    tailVal (F := Ideal) ((dats (F := Ideal) m 0 c).arrAt 4 cfg0.N) = fun _ => lossMean (m ((c.tc : Thread nD τ).loc main_arg0)) (m ((c.tc : Thread nD τ).loc main_arg1)) := by
  refine (tailVal_eq (lossCol m c)).trans ?_
  funext _
  unfold lossMean
  rw [Finset.sum_congr rfl fun r _ => row_value m c hx r]

end Cert.KernelIdeal.Hand

end
-- ==== Proof.Ref.Value.lean ====
/-
  The reference program's result as a function of its two arguments: the mean of the rows' losses.

  Read one operation at a time, the reference normalises the rows, takes all scaled similarities, subtracts each row's
  largest, sums the exponentials off the diagonal, and averages the log-probabilities of each row's positive pairs;
  that is 'Cert.SupCon.lossMean', whatever extended reals the features are.

  The stages, each stated at explicit coordinates r, j < 8192 (d, k < 128): the flattened feature row ('v6_at'), its
  squared norm ('sq_at'), the normalised row ('v10_at'), the scaled similarity ('v14_at'), the row's largest similarity
  as a maximum over the columns ('v15_at'); the 0/1 mask "j is not r" from the comparison of the two iotas ('eye_bit',
  'v29_at'), the label-equality mask of samples r % 4096 and j % 4096 — the 4096 × 4096 mask tiled twice each way
  ('v5_at', 'v21_at') — and their product, the positive-pair mask ('v30_at'); the shifted similarity ('v18_at'), the
  exponential sum ('v33_at'), the log-probability ('v39_at'), the floored count of positive pairs ('v41_at'), the row's
  loss ('v46_at'); and the 8192 rows summed as two runs of 4096 ('sum_rows'). Every sum the reference starts from
  the float zero loses that zero where the model has none; the equation holds with no finiteness assumption.
-/
import proofs.«179571_j37538014167620_1_alg».proof.Proof.Gen.ReferenceIdeal.Run
import proofs.«179571_j37538014167620_1_alg».proof.Proof.Gen.ReferenceIdeal.Read
import proofs.«179571_j37538014167620_1_alg».proof.Proof.Model
import Idealize.ShloMosaic.Lib.ValueLayout
import Idealize.ShloMosaic.Lib.ReduceAll
import Idealize.ShloMosaic.Lib.IdealHost
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.SupCon

/-- The features as the reference takes them. -/
abbrev X0 : Type := (⟨S4096x2x128, .f32⟩ : BufTy).Contents (Elt Ideal)
/-- The labels as the reference takes them. -/
abbrev X1 : Type := (⟨S4096, .i32⟩ : BufTy).Contents (Elt Ideal)

/-- A rank-2 index with the given coordinates is the constructor's. -/
theorem idx2_ext {n0 n1 : Nat} (i : (⟨2, ![n0, n1]⟩ : Shape).Idx) (a : Fin n0) (b : Fin n1)
    (h0 : (i 0).val = a.val) (h1 : (i 1).val = b.val) : i = ix2 a b := by
  funext c; refine Fin.ext ?_
  match c with
  | ⟨0, _⟩ => exact h0
  | ⟨1, _⟩ => exact h1

/-- A rank-1 index with the given coordinate is the constructor's. -/
theorem idx1_ext {n0 : Nat} (i : (⟨1, ![n0]⟩ : Shape).Idx) (a : Fin n0)
    (h0 : (i 0).val = a.val) : i = ix1 a := by
  funext c; refine Fin.ext ?_
  match c with
  | ⟨0, _⟩ => exact h0

/-- Flattened row r, coordinate d is sample r / 2, view r % 2. -/
theorem v6_at (x0 : X0) (r : Fin 8192) (d : Fin 128) :
    val_main_v6 (F := Ideal) x0 (ix2 r d) = Row x0 r d := by
  rw [val_main_v6_apply]
  unfold Row
  refine congrArg x0 ?_
  funext a; refine Fin.ext ?_
  have hr := r.isLt
  have hd := d.isLt
  match a with
  | ⟨0, _⟩ => show (r.val * 128 + d.val) / 256 = r.val / 2; omega
  | ⟨1, _⟩ => show (r.val * 128 + d.val) / 128 % 2 = r.val % 2; omega
  | ⟨2, _⟩ => show (r.val * 128 + d.val) % 128 = d.val; omega

/-- The squared norm of row r, as the reference sums it. -/
theorem sq_at (x0 : X0) (r : Fin 8192) :
    val_main_call0_v1 (F := Ideal) x0 (ix1 r) = 0 + ∑ k : Fin 128, Row x0 r k * Row x0 r k := by
  rw [val_main_call0_v1_apply, val_main_call0_cst_apply]
  rw [Ideal.ofBits_def, Ideal.ofBits_zero_f32]
  refine congrArg (0 + ·) (Finset.sum_congr rfl fun k _ => ?_)
  rw [idx2_ext (idx_main_call0_v1 (ix1 r) k) r k rfl rfl, val_main_call0_v0_apply, v6_at, Ideal.mulf_def]

/-- The reference's normalised row is 'Nf'. -/
theorem v10_at (x0 : X0) (r : Fin 8192) (d : Fin 128) :
    val_main_v10 (F := Ideal) x0 (ix2 r d) = Nf x0 r d := by
  rw [val_main_v10_apply, v6_at, val_main_v9_apply,
    idx2_ext (idx_main_v9 (ix2 r d)) r (0 : Fin 1) rfl rfl,
    val_main_v8_apply, val_main_call1_v1_apply, val_main_call1_v0_apply, val_main_cst_apply,
    val_main_v7_apply, val_main_call0_v2_apply,
    idx1_ext (idx_main_call0_v2 (ix2 r (0 : Fin 1))) r rfl, sq_at]
  rfl

/-- The reference's scaled similarity of rows r and j is 'Sim'. -/
theorem v14_at (x0 : X0) (r j : Fin 8192) :
    val_main_v14 (F := Ideal) x0 (ix2 r j) = Sim x0 r j := by
  rw [val_main_v14_apply, val_main_v13_apply, val_main_cst_0_apply, val_main_v12_apply]
  have e : ∀ k : Fin 128, val_main_v10 (F := Ideal) x0 (lidx_main_v12 (ix2 r j) k)
      * val_main_v11 (F := Ideal) x0 (ridx_main_v12 (ix2 r j) k) = Nf x0 r k * Nf x0 j k := by
    intro k
    rw [idx2_ext (lidx_main_v12 (ix2 r j) k) r k rfl rfl, v10_at, val_main_v11_apply,
      idx2_ext (idx_main_v11 (ridx_main_v12 (ix2 r j) k)) j k rfl rfl, v10_at]
  rw [Finset.sum_congr rfl fun k _ => e k]
  rfl

/-- The 32-bit float's minus infinity is the least extended real. -/
theorem negInf_eq : Ideal.ofBits .f32 0xFF800000#32 = (⊥ : EReal) := by
  simp [Ideal.ofBits, Ideal.ieee]

/-- The reference's row maximum is the largest scaled similarity of the row. -/
theorem v15_at (x0 : X0) (r : Fin 8192) :
    val_main_v15 (F := Ideal) x0 (ix1 r) = (Finset.univ : Finset (Fin 8192)).fold max ⊥ (Sim x0 r) := by
  unfold val_main_v15
  generalize hy : val_main_v14 (F := Ideal) x0 = y
  refine (Host.reduce_eq_fold_single (α := EReal) (s := S8192x8192) (t := S8192) (a := (1 : Fin 2)) (FloatOps.maximumf (F := Ideal) (φ := .f32)) y (val_main_cst_1 (F := Ideal)) Facts₀.reducesTo_S8192x8192_S8192_d1
    (by decide) Facts₀.h_S_ (ix1 r)).trans ?_
  have e : (y ∘ (Shape.Reduces.lift (s := S8192x8192) (t := S8192) (a := (1 : Fin 2)) (by decide) (ix1 r))) = Sim x0 r := by
    subst hy
    refine funext fun (k : Fin 8192) => ?_
    show val_main_v14 (F := Ideal) x0 (Shape.Reduces.lift (s := S8192x8192) (t := S8192) (a := (1 : Fin 2)) (by decide) (ix1 r) k) = _
    rw [idx2_ext (Shape.Reduces.lift (s := S8192x8192) (t := S8192) (a := (1 : Fin 2)) (by decide) (ix1 r) k) r k rfl rfl, v14_at]
  rw [e, val_main_cst_1_apply, Ideal.ofBits_def, negInf_eq]
  rfl

/-- The comparison of the two iotas at (r, j) is the bit of "r = j". -/
theorem eye_bit (r j : Fin 8192) :
    IntOp.cmpi .eq (IntOp.addi (BitVec.ofNat 32 r.val) 0#32) (BitVec.ofNat 32 j.val) = BitVec.ofBool (decide (r = j)) := by
  unfold IntOp.cmpi IntOp.addi
  refine congrArg BitVec.ofBool ?_
  rw [BitVec.add_zero]
  have hr := r.isLt
  have hj := j.isLt
  by_cases h : r = j
  · subst h; simp
  · have hne : BitVec.ofNat 32 r.val ≠ BitVec.ofNat 32 j.val := by
      intro e
      have e' := congrArg BitVec.toNat e
      rw [BitVec.toNat_ofNat, BitVec.toNat_ofNat] at e'
      exact h (Fin.ext (by omega))
    simp [h, hne]

/-- A one-bit word read as a float is 1 or 0. -/
theorem uitofp_ofBool (c : Bool) :
    FloatOps.uitofp (F := Ideal) .f32 (BitVec.ofBool c) = if c then (1 : EReal) else 0 := by
  cases c
  · show (((0 : ℕ) : ℝ) : EReal) = 0
    simp
  · show (((1 : ℕ) : ℝ) : EReal) = 1
    simp

/-- One minus the diagonal's indicator: 1 off the diagonal, 0 on it. -/
theorem v29_at (r j : Fin 8192) :
    val_main_v29 (F := Ideal) (ix2 r j) = if Ex r j then (1 : EReal) else 0 := by
  rw [val_main_v29_apply, val_main_v28_apply, val_main_cst_2_apply, val_main_v27_apply, val_main_v26_apply,
    val_main_v25_apply, val_main_v22_apply, val_main_v23_apply, val_main_v24_apply, val_main_c_apply]
  show FloatOps.subf (FloatOps.ofBits (F := Ideal) .f32 0x3F800000#32)
    (FloatOps.uitofp (F := Ideal) .f32 (IntOp.cmpi .eq (IntOp.addi (BitVec.ofNat 32 r.val) 0#32) (BitVec.ofNat 32 j.val))) = _
  rw [eye_bit, uitofp_ofBool, Ideal.ofBits_def, Ideal.ofBits_one_f32, Ideal.subf_def]
  unfold Ex
  by_cases h : r = j
  · simp only [h, decide_true, if_true, ne_eq, not_true_eq_false, decide_false, Bool.false_eq_true, if_false]
    rw [show (1 : EReal) = ((1 : ℝ) : EReal) from rfl, ← EReal.coe_sub, sub_self, EReal.coe_zero]
  · simp only [h, decide_false, Bool.false_eq_true, if_false, ne_eq, not_false_eq_true, decide_true, if_true, sub_zero]

/-- The label-equality bit of samples a and b, as a float. -/
theorem v5_at (x1 : X1) (a b : Fin 4096) :
    val_main_v5 (F := Ideal) x1 (ix2 a b) = if x1 (ix1 a) = x1 (ix1 b) then (1 : EReal) else 0 := by
  rw [val_main_v5_apply, val_main_v4_apply, val_main_v2_apply, val_main_v3_apply, val_main_v1_apply,
    val_main_v0_apply, val_main_v0_apply]
  rw [idx1_ext (idx_main_v0 (idx_main_v2 (ix2 a b))) a (by show a.val * 1 + 0 = a.val; omega),
    idx1_ext (idx_main_v0 (idx_main_v1 (idx_main_v3 (ix2 a b)))) b (by show b.val * 1 + 0 = b.val; omega)]
  show FloatOps.uitofp (F := Ideal) .f32 (BitVec.ofBool (x1 (ix1 a) == x1 (ix1 b))) = _
  rw [uitofp_ofBool]
  simp only [beq_iff_eq]

/-- The tiled mask at (r, j) is the label-equality bit of samples r % 4096 and j % 4096. -/
theorem v21_at (x1 : X1) (r j : Fin 8192) :
    val_main_v21 (F := Ideal) x1 (ix2 r j) = if labelOf x1 r = labelOf x1 j then (1 : EReal) else 0 := by
  rw [val_main_v21_apply, val_main_v20_apply, val_main_v19_apply]
  have hr := r.isLt
  have hj := j.isLt
  rw [idx2_ext (idx_main_v19 (idx_main_v20 (idx_main_v21 (ix2 r j))))
    (⟨r.val % 4096, Nat.mod_lt _ (by decide)⟩ : Fin 4096) (⟨j.val % 4096, Nat.mod_lt _ (by decide)⟩ : Fin 4096)
    (by show ((((0 * 4096 + (r.val * 8192 + j.val) / 8192 % 4096) * 1 + 0) * 4096 + (r.val * 8192 + j.val) % 4096) / 4096) = r.val % 4096; omega)
    (by show ((((0 * 4096 + (r.val * 8192 + j.val) / 8192 % 4096) * 1 + 0) * 4096 + (r.val * 8192 + j.val) % 4096) % 4096) = j.val % 4096; omega),
    v5_at]
  rfl

/-- The positive-pair mask. -/
theorem v30_at (x1 : X1) (r j : Fin 8192) :
    val_main_v30 (F := Ideal) x1 (ix2 r j) = if Pos x1 r j then (1 : EReal) else 0 := by
  rw [val_main_v30_apply, v21_at, v29_at, Ideal.mulf_def]
  unfold Pos Ex
  by_cases h1 : labelOf x1 r = labelOf x1 j <;> by_cases h2 : r = j <;> simp [h1, h2]

/-- The 32-bit float minus one is the extended real minus one. -/
theorem negOne_eq : Ideal.ofBits .f32 0xBF800000#32 = (-1 : EReal) := by
  rw [← EReal.coe_one, ← EReal.coe_neg]
  simp [Ideal.ofBits, Ideal.ieee, -EReal.coe_mul, -EReal.coe_neg]; norm_num

/-- Row r's largest scaled similarity. -/
abbrev rowMax (x0 : X0) (r : Fin 8192) : EReal := (Finset.univ : Finset (Fin 8192)).fold max ⊥ (Sim x0 r)

/-- The similarity less the row's largest. -/
theorem v18_at (x0 : X0) (r j : Fin 8192) :
    val_main_v18 (F := Ideal) x0 (ix2 r j) = Sim x0 r j - rowMax x0 r := by
  rw [val_main_v18_apply, v14_at, val_main_v17_apply,
    idx2_ext (idx_main_v17 (ix2 r j)) r (0 : Fin 1) rfl rfl, val_main_v16_apply,
    idx1_ext (idx_main_v16 (ix2 r (0 : Fin 1))) r rfl, v15_at, Ideal.subf_def]

/-- The sum of the exponentials off the diagonal. -/
theorem v33_at (x0 : X0) (r : Fin 8192) :
    val_main_v33 (F := Ideal) x0 (ix1 r)
      = ∑ k : Fin 8192, Ideal.exp (Sim x0 r k - rowMax x0 r) * (if Ex r k then (1 : EReal) else 0) := by
  rw [val_main_v33_apply, val_main_cst_3_apply, Ideal.ofBits_def, Ideal.ofBits_zero_f32, zero_add]
  refine Finset.sum_congr rfl fun k _ => ?_
  rw [idx2_ext (idx_main_v33 (ix1 r) k) r k rfl rfl, val_main_v32_apply, val_main_v31_apply, v18_at, v29_at,
    Ideal.mulf_def, Ideal.hostUnary_exp_def]

/-- The log-probability of column j in row r. -/
theorem v39_at (x0 : X0) (r j : Fin 8192) :
    val_main_v39 (F := Ideal) x0 (ix2 r j)
      = (Sim x0 r j - rowMax x0 r)
        - Ideal.log ((∑ k : Fin 8192, Ideal.exp (Sim x0 r k - rowMax x0 r) * (if Ex r k then (1 : EReal) else 0)) + eps12) := by
  rw [val_main_v39_apply, v18_at, val_main_v38_apply,
    idx2_ext (idx_main_v38 (ix2 r j)) r (0 : Fin 1) rfl rfl, val_main_v37_apply, val_main_v36_apply,
    val_main_v34_apply, idx1_ext (idx_main_v34 (ix2 r (0 : Fin 1))) r rfl, v33_at,
    val_main_v35_apply, val_main_cst_4_apply, Ideal.subf_def, Ideal.addf_def, Ideal.hostUnary_log_def, Ideal.ofBits_def]
  rfl

/-- The number of positive pairs of row r, floored at one. -/
theorem v41_at (x1 : X1) (r : Fin 8192) :
    val_main_v41 (F := Ideal) x1 (ix1 r) = max 1 (∑ k : Fin 8192, (if Pos x1 r k then (1 : EReal) else 0)) := by
  rw [val_main_v41_apply, val_main_call2_v1_apply, val_main_call2_v0_apply, val_main_cst_6_apply,
    val_main_v40_apply, val_main_cst_5_apply, Ideal.ofBits_def, Ideal.ofBits_def, Ideal.ofBits_zero_f32, zero_add,
    Ideal.ofBits_one_f32, Ideal.maximumf_def]
  refine congrArg (max 1 ·) (Finset.sum_congr rfl fun k _ => ?_)
  rw [idx2_ext (idx_main_v40 (ix1 r) k) r k rfl rfl, v30_at]

/-- The reference's row loss is 'rowLoss'. -/
theorem v46_at (x0 : X0) (x1 : X1) (r : Fin 8192) :
    val_main_v46 (F := Ideal) x0 x1 (ix1 r) = rowLoss x0 x1 r := by
  rw [val_main_v46_apply, val_main_v45_apply, val_main_cst_8_apply, val_main_v44_apply, v41_at,
    val_main_v43_apply, val_main_cst_7_apply, Ideal.ofBits_def, Ideal.ofBits_def, Ideal.ofBits_zero_f32, zero_add,
    negOne_eq, Ideal.mulf_def, Ideal.hostDivf_def]
  unfold rowLoss directFlat
  refine congrArg (fun t => (-1 : EReal) * Ideal.div t _) (Finset.sum_congr rfl fun k _ => ?_)
  rw [idx2_ext (idx_main_v43 (ix1 r) k) r k rfl rfl, val_main_v42_apply, v30_at, v39_at, Ideal.mulf_def]

/-- The 8192 rows, as two runs of 4096 laid end to end. -/
theorem sum_rows (g : S8192.Idx → EReal) :
    ∑ j : S2x4096.Idx, g (idx_main_v47 j) = ∑ r : Fin 8192, g (ix1 r) := by
  rw [sum_idx2, ← Fintype.sum_prod_type (f := fun p : Fin 2 × Fin 4096 => g (idx_main_v47 (ix2 p.1 p.2)))]
  refine Fintype.sum_equiv (finProdFinEquiv (m := 2) (n := 4096)) _ _ fun p => ?_
  refine congrArg g ?_
  refine idx1_ext _ _ ?_
  show p.1.val * 4096 + p.2.val = p.2.val + 4096 * p.1.val
  omega

/-- The reference's result is the mean of the row losses of its arguments. -/
theorem result_eq (x0 : (⟨S4096x2x128, .f32⟩ : BufTy).Contents (Elt Ideal)) (x1 : (⟨S4096, .i32⟩ : BufTy).Contents (Elt Ideal)) :
    Read.val_main_v49 (F := Ideal) x0 x1 = fun _ => lossMean x0 x1 := by
  funext i
  rw [val_main_v49_apply, val_main_v48_apply, val_main_cst_10_apply, val_main_cst_9_apply,
    Ideal.ofBits_def, Ideal.ofBits_def, Ideal.ofBits_zero_f32, Ideal.hostDivf_def]
  have e : ∑ j : S2x4096.Idx, val_main_v47 (F := Ideal) x0 x1 j = ∑ r : Fin 8192, rowLoss x0 x1 r := by
    rw [Finset.sum_congr rfl fun j _ => val_main_v47_apply x0 x1 j, sum_rows (val_main_v46 (F := Ideal) x0 x1)]
    exact Finset.sum_congr rfl fun r _ => v46_at x0 x1 r
  rw [e]
  rfl

end Cert.ReferenceIdeal.RefValue

end
-- ==== Proof.Finite.lean ====
/-
  The precondition read at an element: every feature is a real number.

  The precondition says that the conjunction, over all elements, of "the absolute value is less than plus infinity" is
  true; an extended real whose absolute value is less than plus infinity is neither infinity, so it is a real number.
-/
import proofs.«179571_j37538014167620_1_alg».proof.Defs
import proofs.«179571_j37538014167620_1_alg».proof.Proof.Gen.KernelIdeal
import proofs.«179571_j37538014167620_1_alg».proof.Proof.Gen.Pre_finite_inputs
import Idealize.ShloMosaic.Lib.ReduceAll
import Idealize.ShloMosaic.Lib.ValueIdx

noncomputable section

namespace Cert.Proof.Finite

open Idealize.ShloMosaic Idealize.ShloMosaic.TcCoe Idealize.SL.Sem

/-- The result shape of the conjunction has one index. -/
instance : Subsingleton Cert.Pre_finite_inputs.S_.Idx := ⟨fun a b => funext fun d => d.elim0⟩

/-- The pattern 0x7F800000 denotes plus infinity. -/
theorem ofBits_inf : Ideal.ofBits .f32 0x7F800000#32 = ⊤ := by
  simp [Ideal.ofBits, Ideal.ieee]

/-- An extended real whose absolute value is less than plus infinity is a real number. -/
theorem real_of_abs_lt_inf (x : EReal)
    (hx : Ideal.cmp .olt (max x (-x)) (Ideal.ofBits .f32 0x7F800000#32) = 1#1) : ∃ v : ℝ, x = (v : EReal) := by
  rw [ofBits_inf] at hx
  induction x using EReal.rec with
  | bot => simp [Ideal.cmp] at hx
  | coe v => exact ⟨v, rfl⟩
  | top => simp [Ideal.cmp] at hx

/-- Under the precondition every element of the features is a real number. -/
theorem feat_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S4096x2x128.Idx) :
    ∃ v : ℝ, (m ((c.tc : Thread Cert.KernelIdeal.nD Cert.KernelIdeal.τ).loc Cert.KernelIdeal.main_arg0) : Cert.KernelIdeal.S4096x2x128.Idx → EReal) i = (v : EReal) := by
  have h1 := congrFun (h c) ValueIdx.ix0
  dsimp only [Cert.Pre_finite_inputs.fn] at h1
  have h2 := Host.reduce_andi_all _ _ _ _ _ h1 i
  exact real_of_abs_lt_inf _ h2

end Cert.Proof.Finite

end
-- ==== Proof.lean ====
/-
  The certificate: the supervised contrastive loss computed by a sweep over column blocks equals the loss computed
  directly.

  The kernel program normalises the 8192 feature rows on the host, then for every row block sweeps the eight column
  blocks keeping a running maximum, a rescaled exponential sum, the positive pairs' similarity sum and their count, and
  stores the row block's losses at the last column block; the host takes the mean. The reference computes every scaled
  similarity, each row's maximum, exponential sum and log-probabilities, and the mean of the rows' losses. At the
  extended reals the kernel's multiplication by the folded reciprocal of the temperature is the reference's division by
  the temperature (the named constant), a change of float format is the identity, and when the features are real numbers
  the sweep gives the direct loss row by row (Spec.lean); so the two results are one function of the arguments
  (Model.lean's 'lossMean'). The frames are the runs with the result dropped.
-/
import proofs.«179571_j37538014167620_1_alg».proof.Defs
import proofs.«179571_j37538014167620_1_alg».proof.Proof.K.Run
import proofs.«179571_j37538014167620_1_alg».proof.Proof.KI.ValFinal
import proofs.«179571_j37538014167620_1_alg».proof.Proof.Ref.Value
import proofs.«179571_j37538014167620_1_alg».proof.Proof.Finite
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => ⟨(h c).2.1, (h c).2.2⟩)
    (Cert.Kernel.Hand.run_main (F := Bits) m ρ)

/-- So does the idealized kernel program. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => ⟨(h c).2.1, (h c).2.2⟩)
    (Cert.KernelIdeal.Hand.run_main (F := Ideal) m ρ)

/-- And the idealized reference. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

/-- The one rewrite of the idealization: the folded reciprocal of the temperature denotes the exact reciprocal of the
    temperature's 32-bit value, 2^27 / 9395241. -/
theorem preserves : Cert.preserves_Kernel_KernelIdeal :=
  IdealRules.named_const.statement Cert.KernelIdeal.κ "inv_temperature" .f32 0x41649249#32 ((134217728 / 9395241 : ℝ) : EReal) rfl

/-- From memories that agree on the arguments both idealized programs end with the mean of the rows' losses. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.SupCon.lossMean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Hand.kernel_value m c (Cert.Proof.Finite.feat_real m hpre c)), (h c).2.1, (h c).2.2⟩)
      (Cert.KernelIdeal.Hand.run_main (F := Ideal) m ρ)
  · refine (θ_run (Cert.ReferenceIdeal.defs (F := Ideal)) _ _).mono (fun _ h c => ⟨(h c).1.trans ?_, (h c).2.1, (h c).2.2⟩)
      (Cert.ReferenceIdeal.Value.run (F := Ideal) m' ρ')
    rw [Cert.ReferenceIdeal.Read.val_main_v49_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
